-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x5000000 : Shape := ⟨2, ![2, 5000000]⟩
abbrev S5000000x16 : Shape := ⟨2, ![5000000, 16]⟩
abbrev S16x16 : Shape := ⟨2, ![16, 16]⟩
abbrev S16 : Shape := ⟨1, ![16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S5000000x16 : S_.BroadcastsInDim S5000000x16 (![] : Fin 0 → Fin S5000000x16.rank)
  reducesTo_S5000000x16_S_d0_1 : S5000000x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S2x5000000 : S_.BroadcastsInDim S2x5000000 (![] : Fin 0 → Fin S2x5000000.rank)
  reducesTo_S2x5000000_S_d0_1 : S2x5000000.ReducesTo [0, 1] S_

variable [Facts]

def fn_part3 {F : FTy → Type} [FloatOps F] (main_arg1 : IVec S2x5000000 32) (main_v48 : IVec S_ 1) (main_v50 : IVec S2x5000000 1) : IVec S_ 1 :=
  let main_c_19 : IVec S_ 1 := constantI S_ 1 1#1
  let main_v51 : IVec S_ 1 := (fun x v => Host.reduce IntOp.andi x v reducesTo_S2x5000000_S_d0_1 h_S_) main_v50 main_c_19
  let main_v52 : IVec S_ 1 := andi main_v48 main_v51
  let main_c_20 : IVec S_ 32 := constantI S_ 32 100000#32
  let main_v53 : IVec S2x5000000 32 := broadcastInDim S2x5000000 ![] bcast_S_S2x5000000 main_c_20
  let main_v54 : IVec S2x5000000 1 := cmpi .slt main_arg1 main_v53
  let main_c_21 : IVec S_ 1 := constantI S_ 1 1#1
  let main_v55 : IVec S_ 1 := (fun x v => Host.reduce IntOp.andi x v reducesTo_S2x5000000_S_d0_1 h_S_) main_v54 main_c_21
  let main_v56 : IVec S_ 1 := andi main_v52 main_v55
  main_v56

def fn_part2 {F : FTy → Type} [FloatOps F] (main_arg1 : IVec S2x5000000 32) (main_arg8 : FVec F S16 .f32) (main_arg9 : FVec F S16 .f32) (main_arg10 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_c_18 : IVec S_ 32 := constantI S_ 32 0#32
  let main_v49 : IVec S2x5000000 32 := broadcastInDim S2x5000000 ![] bcast_S_S2x5000000 main_c_18
  let main_v50 : IVec S2x5000000 1 := cmpi .sge main_arg1 main_v49
  fn_part3 (F := F) main_arg1 main_v48 main_v50

def fn_part1 {F : FTy → Type} [FloatOps F] (main_arg1 : IVec S2x5000000 32) (main_arg5 : FVec F S16x16 .f32) (main_arg6 : FVec F S16 .f32) (main_arg7 : FVec F S16x16 .f32) (main_arg8 : FVec F S16 .f32) (main_arg9 : FVec F S16 .f32) (main_arg10 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x16 .f32) (main_arg1 : IVec S2x5000000 32) (main_arg2 : FVec F S5000000x16 .f32) (main_arg3 : FVec F S16x16 .f32) (main_arg4 : FVec F S16 .f32) (main_arg5 : FVec F S16x16 .f32) (main_arg6 : FVec F S16 .f32) (main_arg7 : FVec F S16x16 .f32) (main_arg8 : FVec F S16 .f32) (main_arg9 : FVec F S16 .f32) (main_arg10 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S5000000x16 .f32 := Host.absf main_arg2
  let main_cst_0 : FVec F S_ .f32 := constant S_ .f32 0x7F800000#32
  let main_v5 : FVec F S5000000x16 .f32 := broadcastInDim S5000000x16 ![] bcast_S_S5000000x16 main_cst_0
  let main_v6 : IVec S5000000x16 1 := cmpf .olt main_v4 main_v5
  let main_c_1 : IVec S_ 1 := constantI S_ 1 1#1
  let main_v7 : IVec S_ 1 := (fun x v => Host.reduce IntOp.andi x v reducesTo_S5000000x16_S_d0_1 h_S_) main_v6 main_c_1
  let main_v8 : IVec S_ 1 := andi main_v3 main_v7
  let main_v9 : FVec F S16x16 .f32 := Host.absf main_arg3
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_arg7 main_arg8 main_arg9 main_arg10 main_v13 main_v16
-- ==== Kernel.lean ====
abbrev S100000x16 : Shape := ⟨2, ![100000, 16]⟩
abbrev S2x5000000 : Shape := ⟨2, ![2, 5000000]⟩
abbrev S5000000x16 : Shape := ⟨2, ![5000000, 16]⟩
abbrev S16x16 : Shape := ⟨2, ![16, 16]⟩
abbrev S16 : Shape := ⟨1, ![16]⟩
abbrev S1x5000000 : Shape := ⟨2, ![1, 5000000]⟩
abbrev S5000000 : Shape := ⟨1, ![5000000]⟩
abbrev S_ : Shape := ⟨0, ![]⟩
abbrev S5000000x1 : Shape := ⟨2, ![5000000, 1]⟩
abbrev S1 : Shape := ⟨1, ![1]⟩
abbrev S1x1 : Shape := ⟨2, ![1, 1]⟩
abbrev S1x16 : Shape := ⟨2, ![1, 16]⟩
abbrev S50000x16 : Shape := ⟨2, ![50000, 16]⟩

abbrev nBuf : Space → Nat
  | .hbm => 77
  | .vmem => 32
  | .smem => 0
  | _ => 0

abbrev bufTy : (tb : Table) → Fin (tcTables nBuf tb) → BufTy
  | .hbm, ⟨0, _⟩ => ⟨S100000x16, .f32⟩
  | .hbm, ⟨1, _⟩ => ⟨S2x5000000, .i32⟩
  | .hbm, ⟨2, _⟩ => ⟨S5000000x16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S1x5000000, .i32⟩
  | .hbm, ⟨12, _⟩ => ⟨S5000000, .i32⟩
  | .hbm, ⟨13, _⟩ => ⟨S_, .i32⟩
  | .hbm, ⟨14, _⟩ => ⟨S5000000, .i32⟩
  | .hbm, ⟨15, _⟩ => ⟨S5000000, .i1⟩
  | .hbm, ⟨16, _⟩ => ⟨S_, .i32⟩
  | .hbm, ⟨17, _⟩ => ⟨S5000000, .i32⟩
  | .hbm, ⟨18, _⟩ => ⟨S5000000, .i32⟩
  | .hbm, ⟨19, _⟩ => ⟨S5000000, .i32⟩
  | .hbm, ⟨20, _⟩ => ⟨S5000000x1, .i32⟩
  | .hbm, ⟨21, _⟩ => ⟨S1, .i32⟩
  | .hbm, ⟨22, _⟩ => ⟨S_, .i32⟩
  | .hbm, ⟨23, _⟩ => ⟨S5000000x1, .i32⟩
  | .hbm, ⟨24, _⟩ => ⟨S5000000x1, .i1⟩
  | .hbm, ⟨25, _⟩ => ⟨S1x1, .i32⟩
  | .hbm, ⟨26, _⟩ => ⟨S5000000x1, .i32⟩
  | .hbm, ⟨27, _⟩ => ⟨S5000000x1, .i1⟩
  | .hbm, ⟨28, _⟩ => ⟨S5000000x1, .i1⟩
  | .hbm, ⟨29, _⟩ => ⟨S_, .i1⟩
  | .hbm, ⟨30, _⟩ => ⟨S5000000, .i1⟩
  | .hbm, ⟨31, _⟩ => ⟨S5000000x16, .f32⟩
  | .hbm, ⟨32, _⟩ => ⟨S5000000x16, .i1⟩
  | .hbm, ⟨33, _⟩ => ⟨S_, .f32⟩
  | .hbm, ⟨34, _⟩ => ⟨S5000000x16, .f32⟩
  | .hbm, ⟨35, _⟩ => ⟨S5000000x16, .f32⟩
  | .hbm, ⟨36, _⟩ => ⟨S1x5000000, .i32⟩
  | .hbm, ⟨37, _⟩ => ⟨S5000000, .i32⟩
  | .hbm, ⟨38, _⟩ => ⟨S_, .i32⟩
  | .hbm, ⟨39, _⟩ => ⟨S5000000, .i32⟩
  | .hbm, ⟨40, _⟩ => ⟨S5000000, .i1⟩
  | .hbm, ⟨41, _⟩ => ⟨S_, .i32⟩
  | .hbm, ⟨42, _⟩ => ⟨S5000000, .i32⟩
  | .hbm, ⟨43, _⟩ => ⟨S5000000, .i32⟩
  | .hbm, ⟨44, _⟩ => ⟨S5000000, .i32⟩
  | .hbm, ⟨45, _⟩ => ⟨S5000000x1, .i32⟩
  | .hbm, ⟨46, _⟩ => ⟨S1, .i32⟩
  | .hbm, ⟨47, _⟩ => ⟨S_, .i32⟩
  | .hbm, ⟨48, _⟩ => ⟨S5000000x1, .i32⟩
  | .hbm, ⟨49, _⟩ => ⟨S5000000x1, .i1⟩
  | .hbm, ⟨50, _⟩ => ⟨S1x1, .i32⟩
  | .hbm, ⟨51, _⟩ => ⟨S5000000x1, .i32⟩
  | .hbm, ⟨52, _⟩ => ⟨S5000000x1, .i1⟩
  | .hbm, ⟨53, _⟩ => ⟨S5000000x1, .i1⟩
  | .hbm, ⟨54, _⟩ => ⟨S_, .i1⟩
  | .hbm, ⟨55, _⟩ => ⟨S5000000, .i1⟩
  | .hbm, ⟨56, _⟩ => ⟨S5000000x16, .f32⟩
  | .hbm, ⟨57, _⟩ => ⟨S5000000x16, .i1⟩
  | .hbm, ⟨58, _⟩ => ⟨S_, .f32⟩
  | .hbm, ⟨59, _⟩ => ⟨S5000000x16, .f32⟩
  | .hbm, ⟨60, _⟩ => ⟨S5000000x16, .f32⟩
  | .hbm, ⟨61, _⟩ => ⟨S1x16, .f32⟩
  | .hbm, ⟨62, _⟩ => ⟨S1x16, .f32⟩
  | .hbm, ⟨63, _⟩ => ⟨S1x16, .f32⟩
  | .hbm, ⟨64, _⟩ => ⟨S1x16, .f32⟩
  | .hbm, ⟨65, _⟩ => ⟨S1x16, .f32⟩
  | .hbm, ⟨66, _⟩ => ⟨S1x16, .f32⟩
  | .hbm, ⟨67, _⟩ => ⟨S1x16, .f32⟩
  | .hbm, ⟨68, _⟩ => ⟨S_, .f32⟩
  | .hbm, ⟨69, _⟩ => ⟨S1x16, .f32⟩
  | .hbm, ⟨70, _⟩ => ⟨S1x16, .f32⟩
  | .hbm, ⟨71, _⟩ => ⟨S_, .f32⟩
  | .hbm, ⟨72, _⟩ => ⟨S1x16, .f32⟩
  | .hbm, ⟨73, _⟩ => ⟨S1x16, .f32⟩
  | .hbm, ⟨74, _⟩ => ⟨S1x16, .f32⟩
  | .hbm, ⟨75, _⟩ => ⟨S1x16, .f32⟩
  | .hbm, ⟨76, _⟩ => ⟨S5000000x16, .f32⟩
  | .local _ .vmem, ⟨0, _⟩ => ⟨S50000x16, .f32⟩
  | .local _ .vmem, ⟨1, _⟩ => ⟨S50000x16, .f32⟩
  | .local _ .vmem, ⟨2, _⟩ => ⟨S50000x16, .f32⟩
  | .local _ .vmem, ⟨3, _⟩ => ⟨S50000x16, .f32⟩
  | .local _ .vmem, ⟨4, _⟩ => ⟨S50000x16, .f32⟩
  | .local _ .vmem, ⟨5, _⟩ => ⟨S50000x16, .f32⟩
  | .local _ .vmem, ⟨6, _⟩ => ⟨S16x16, .f32⟩
  | .local _ .vmem, ⟨7, _⟩ => ⟨S1x16, .f32⟩
  | .local _ .vmem, ⟨8, _⟩ => ⟨S16x16, .f32⟩
  | .local _ .vmem, ⟨9, _⟩ => ⟨S1x16, .f32⟩
  | .local _ .vmem, ⟨10, _⟩ => ⟨S16x16, .f32⟩
  | .local _ .vmem, ⟨11, _⟩ => ⟨S1x16, .f32⟩
  | .local _ .vmem, ⟨12, _⟩ => ⟨S1x16, .f32⟩
  | .local _ .vmem, ⟨13, _⟩ => ⟨S1x16, .f32⟩
  | .local _ .vmem, ⟨14, _⟩ => ⟨S50000x16, .f32⟩
  | .local _ .vmem, ⟨15, _⟩ => ⟨S50000x16, .f32⟩
  | .local _ .vmem, ⟨16, _⟩ => ⟨S50000x16, .f32⟩
  | .local _ .vmem, ⟨17, _⟩ => ⟨S50000x16, .f32⟩
  | .local _ .vmem, ⟨18, _⟩ => ⟨S50000x16, .f32⟩
  | .local _ .vmem, ⟨19, _⟩ => ⟨S50000x16, .f32⟩
  | .local _ .vmem, ⟨20, _⟩ => ⟨S16x16, .f32⟩
  | .local _ .vmem, ⟨21, _⟩ => ⟨S1x16, .f32⟩
  | .local _ .vmem, ⟨22, _⟩ => ⟨S16x16, .f32⟩
  | .local _ .vmem, ⟨23, _⟩ => ⟨S1x16, .f32⟩
  | .local _ .vmem, ⟨24, _⟩ => ⟨S16x16, .f32⟩
  | .local _ .vmem, ⟨25, _⟩ => ⟨S1x16, .f32⟩
  | .local _ .vmem, ⟨26, _⟩ => ⟨S1x16, .f32⟩
  | .local _ .vmem, ⟨27, _⟩ => ⟨S1x16, .f32⟩
  | .local _ .vmem, ⟨28, _⟩ => ⟨S1x16, .f32⟩
  | .local _ .vmem, ⟨29, _⟩ => ⟨S1x16, .f32⟩
  | .local _ .vmem, ⟨30, _⟩ => ⟨S50000x16, .f32⟩
  | .local _ .vmem, ⟨31, _⟩ => ⟨S50000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11_0 : Ref sig .tc := ⟨.hbm, 66, rfl⟩
abbrev main_v11_1 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_cst_0 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg13_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem13_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S50000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S50000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S50000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S50000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S50000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x16 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S50000x16 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x5000000_S1x5000000_0_0 : S2x5000000.Slices ![0, 0] S1x5000000
  shapeCasts_S1x5000000_S5000000 : S1x5000000.ShapeCasts S5000000
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S5000000x1 : S_.BroadcastsInDim S5000000x1 (![] : Fin 0 → Fin S5000000x1.rank)
  bcast_S1_S1x1_1 : S1.BroadcastsInDim S1x1 (![1] : Fin 1 → Fin S1x1.rank)
  bcast_S1x1_S5000000x1_0_1 : S1x1.BroadcastsInDim S5000000x1 (![0, 1] : Fin 2 → Fin S5000000x1.rank)
  reducesTo_S5000000x1_S5000000_d1 : S5000000x1.ReducesTo [1] S5000000
  h_S_ : 0 < S_.numel
  bcast_S5000000_S5000000x16_0 : S5000000.BroadcastsInDim S5000000x16 (![0] : Fin 1 → Fin S5000000x16.rank)
  bcast_S_S5000000x16 : S_.BroadcastsInDim S5000000x16 (![] : Fin 0 → Fin S5000000x16.rank)
  slices_S2x5000000_S1x5000000_1_0 : S2x5000000.Slices ![1, 0] S1x5000000
  shapeCasts_S16_S1x16 : S16.ShapeCasts S1x16
  inb_S1x16_S1x16_0_0 : ∀ a, (![0, 0] : Fin 2 → Nat) a + S1x16.size a ≤ S1x16.size a
  h_S1x16 : 0 < S1x16.numel
  inb_S50000x16_S50000x16_0_0 : ∀ a, (![0, 0] : Fin 2 → Nat) a + S50000x16.size a ≤ S50000x16.size a
  h_S50000x16 : 0 < S50000x16.numel
  shapeCasts_S50000x16_S50000x16 : S50000x16.ShapeCasts S50000x16
  inb_S16x16_S16x16_0_0 : ∀ a, (![0, 0] : Fin 2 → Nat) a + S16x16.size a ≤ S16x16.size a
  h_S16x16 : 0 < S16x16.numel
  shapeCasts_S1x16_S1x16 : S1x16.ShapeCasts S1x16
  transposes_S16x16_p1_0_S16x16 : S16x16.Transposes [1, 0] S16x16
  broadcasts_S1x16_S50000x16 : S1x16.Broadcasts S50000x16
  reduces_S50000x16_S16 : S50000x16.Reduces [0] S16
  bcast_S_S1x16 : S_.BroadcastsInDim S1x16 (![] : Fin 0 → Fin S1x16.rank)
  gather_S100000x16_S5000000x1_S5000000x16_1_0_n_n_0_1_116_wf : GatherDims.WF S100000x16 S5000000x1 S5000000x16 [1] [0] [] [0] [] 1 ![1, 16]
  dot_S50000x16_S16x16_S50000x16_1_0_0_1_n_n_wf : DotDims.WF S50000x16 S16x16 S50000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50000x16.size a ≤ S5000000x16.size a
  hwx0_0 : ∀ i : grid0.Coords, EltTy.bits .f32 = 32 ∨ (Rect.block (s := S5000000x16) S50000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S50000x16.size a ≤ S5000000x16.size a
  hwx0_1 : ∀ i : grid0.Coords, EltTy.bits .f32 = 32 ∨ (Rect.block (s := S5000000x16) S50000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S50000x16.size a ≤ S5000000x16.size a
  hwx0_2 : ∀ i : grid0.Coords, EltTy.bits .f32 = 32 ∨ (Rect.block (s := S5000000x16) S50000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S50000x16.size a ≤ S5000000x16.size a
  hwx1_0 : ∀ i : grid1.Coords, EltTy.bits .f32 = 32 ∨ (Rect.block (s := S5000000x16) S50000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S50000x16.size a ≤ S5000000x16.size a
  hwx1_1 : ∀ i : grid1.Coords, EltTy.bits .f32 = 32 ∨ (Rect.block (s := S5000000x16) S50000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S50000x16.size a ≤ S5000000x16.size a
  hwx1_2 : ∀ i : grid1.Coords, EltTy.bits .f32 = 32 ∨ (Rect.block (s := S5000000x16) S50000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x16.size a ≤ S16x16.size a
  hwx1_7 : ∀ i : grid1.Coords, EltTy.bits .f32 = 32 ∨ (Rect.block (s := S16x16) S16x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x16.size a ≤ S1x16.size a
  hwx1_10 : ∀ i : grid1.Coords, EltTy.bits .f32 = 32 ∨ (Rect.block (s := S1x16) S1x16.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x16.size a ≤ S1x16.size a
  hwx1_11 : ∀ i : grid1.Coords, EltTy.bits .f32 = 32 ∨ (Rect.block (s := S1x16) S1x16.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x16.size a ≤ S1x16.size a
  hwx1_12 : ∀ i : grid1.Coords, EltTy.bits .f32 = 32 ∨ (Rect.block (s := S1x16) S1x16.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S50000x16.size a ≤ S5000000x16.size a
  hwx1_13 : ∀ i : grid1.Coords, EltTy.bits .f32 = 32 ∨ (Rect.block (s := S5000000x16) S50000x16.size (cc1_transform_13 i) (hinb1_13 i)).WholeWords (EltTy.packing .f32)

variable [Facts₀]

def gather_S100000x16_S5000000x1_S5000000x16_1_0_n_n_0_1_116 : GatherDims S100000x16 S5000000x1 S5000000x16 where
  offsetDims := [1]
  collapsedSliceDims := [0]
  operandBatchingDims := []
  startIndicesBatchingDims := []
  startIndexMap := [0]
  indexVectorDim := 1
  sliceSizes := ![1, 16]
  wf := gather_S100000x16_S5000000x1_S5000000x16_1_0_n_n_0_1_116_wf
def dot_S50000x16_S16x16_S50000x16_1_0_0_1_n_n : DotDims S50000x16 S16x16 S50000x16 where
  lhsContracting := [1]
  rhsContracting := [0]
  lhsNonContracting := [0]
  rhsNonContracting := [1]
  lhsBatch := []
  rhsBatch := []
  wf := dot_S50000x16_S16x16_S50000x16_1_0_0_1_n_n_wf

abbrev win0_0 : Pipeline.Window sig grid0 :=
  Pipeline.Window.ofSpec (Memref.whole main_arg2) S50000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S50000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S50000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11_0) S1x16.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11_1) S1x16.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg2) S50000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S50000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S50000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S16x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13) S1x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v17) S1x16.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v9) S1x16.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v10) S1x16.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v18) S50000x16.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x5000000 : Shape := ⟨2, ![2, 5000000]⟩
abbrev S5000000x16 : Shape := ⟨2, ![5000000, 16]⟩
abbrev S16x16 : Shape := ⟨2, ![16, 16]⟩
abbrev S16 : Shape := ⟨1, ![16]⟩
abbrev S1x5000000 : Shape := ⟨2, ![1, 5000000]⟩
abbrev S5000000 : Shape := ⟨1, ![5000000]⟩
abbrev S_ : Shape := ⟨0, ![]⟩
abbrev S5000000x1 : Shape := ⟨2, ![5000000, 1]⟩
abbrev S1x16 : Shape := ⟨2, ![1, 16]⟩

abbrev nBuf : Space → Nat
  | .hbm => 84
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x5000000, .i32⟩
  | .hbm, ⟨2, _⟩ => ⟨S5000000x16, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S1x5000000, .i32⟩
  | .hbm, ⟨12, _⟩ => ⟨S5000000, .i32⟩
  | .hbm, ⟨13, _⟩ => ⟨S_, .i32⟩
  | .hbm, ⟨14, _⟩ => ⟨S5000000, .i32⟩
  | .hbm, ⟨15, _⟩ => ⟨S5000000, .i1⟩
  | .hbm, ⟨16, _⟩ => ⟨S_, .i32⟩
  | .hbm, ⟨17, _⟩ => ⟨S5000000, .i32⟩
  | .hbm, ⟨18, _⟩ => ⟨S5000000, .i32⟩
  | .hbm, ⟨19, _⟩ => ⟨S5000000, .i32⟩
  | .hbm, ⟨20, _⟩ => ⟨S5000000x1, .i32⟩
  | .hbm, ⟨21, _⟩ => ⟨S5000000x16, .f32⟩
  | .hbm, ⟨22, _⟩ => ⟨S1x5000000, .i32⟩
  | .hbm, ⟨23, _⟩ => ⟨S5000000, .i32⟩
  | .hbm, ⟨24, _⟩ => ⟨S_, .i32⟩
  | .hbm, ⟨25, _⟩ => ⟨S5000000, .i32⟩
  | .hbm, ⟨26, _⟩ => ⟨S5000000, .i1⟩
  | .hbm, ⟨27, _⟩ => ⟨S_, .i32⟩
  | .hbm, ⟨28, _⟩ => ⟨S5000000, .i32⟩
  | .hbm, ⟨29, _⟩ => ⟨S5000000, .i32⟩
  | .hbm, ⟨30, _⟩ => ⟨S5000000, .i32⟩
  | .hbm, ⟨31, _⟩ => ⟨S5000000x1, .i32⟩
  | .hbm, ⟨32, _⟩ => ⟨S5000000x16, .f32⟩
  | .hbm, ⟨33, _⟩ => ⟨S16x16, .f32⟩
  | .hbm, ⟨34, _⟩ => ⟨S5000000x16, .f32⟩
  | .hbm, ⟨35, _⟩ => ⟨S1x16, .f32⟩
  | .hbm, ⟨36, _⟩ => ⟨S5000000x16, .f32⟩
  | .hbm, ⟨37, _⟩ => ⟨S5000000x16, .f32⟩
  | .hbm, ⟨38, _⟩ => ⟨S16x16, .f32⟩
  | .hbm, ⟨39, _⟩ => ⟨S5000000x16, .f32⟩
  | .hbm, ⟨40, _⟩ => ⟨S1x16, .f32⟩
  | .hbm, ⟨41, _⟩ => ⟨S5000000x16, .f32⟩
  | .hbm, ⟨42, _⟩ => ⟨S5000000x16, .f32⟩
  | .hbm, ⟨43, _⟩ => ⟨S5000000x16, .f32⟩
  | .hbm, ⟨44, _⟩ => ⟨S16x16, .f32⟩
  | .hbm, ⟨45, _⟩ => ⟨S5000000x16, .f32⟩
  | .hbm, ⟨46, _⟩ => ⟨S1x16, .f32⟩
  | .hbm, ⟨47, _⟩ => ⟨S5000000x16, .f32⟩
  | .hbm, ⟨48, _⟩ => ⟨S5000000x16, .f32⟩
  | .hbm, ⟨49, _⟩ => ⟨S5000000x16, .f32⟩
  | .hbm, ⟨50, _⟩ => ⟨S_, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S1x16, .f32⟩
  | .hbm, ⟨56, _⟩ => ⟨S5000000x16, .f32⟩
  | .hbm, ⟨57, _⟩ => ⟨S5000000x16, .f32⟩
  | .hbm, ⟨58, _⟩ => ⟨S5000000x16, .f32⟩
  | .hbm, ⟨59, _⟩ => ⟨S_, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S1x16, .f32⟩
  | .hbm, ⟨65, _⟩ => ⟨S5000000x16, .f32⟩
  | .hbm, ⟨66, _⟩ => ⟨S5000000x16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S16, .f32⟩
  | .hbm, ⟨71, _⟩ => ⟨S1x16, .f32⟩
  | .hbm, ⟨72, _⟩ => ⟨S5000000x16, .f32⟩
  | .hbm, ⟨73, _⟩ => ⟨S5000000x16, .f32⟩
  | .hbm, ⟨74, _⟩ => ⟨S1x16, .f32⟩
  | .hbm, ⟨75, _⟩ => ⟨S5000000x16, .f32⟩
  | .hbm, ⟨76, _⟩ => ⟨S5000000x16, .f32⟩
  | .hbm, ⟨77, _⟩ => ⟨S1x16, .f32⟩
  | .hbm, ⟨78, _⟩ => ⟨S5000000x16, .f32⟩
  | .hbm, ⟨79, _⟩ => ⟨S5000000x16, .f32⟩
  | .hbm, ⟨80, _⟩ => ⟨S_, .f32⟩
  | .hbm, ⟨81, _⟩ => ⟨S5000000x16, .f32⟩
  | .hbm, ⟨82, _⟩ => ⟨S5000000x16, .f32⟩
  | .hbm, ⟨83, _⟩ => ⟨S5000000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call0_cst : Ref sig .tc := ⟨.hbm, 80, rfl⟩
abbrev main_call0_v0 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  bcast_S_S5000000 : S_.BroadcastsInDim S5000000 (![] : Fin 0 → Fin S5000000.rank)
  bcast_S5000000_S5000000x1_0 : S5000000.BroadcastsInDim S5000000x1 (![0] : Fin 1 → Fin S5000000x1.rank)
  slices_S2x5000000_S1x5000000_1_0 : S2x5000000.Slices ![1, 0] S1x5000000
  transposes_S16x16_S16x16_1_0 : S16x16.Transposes [1, 0] S16x16
  bcast_S16_S1x16_1 : S16.BroadcastsInDim S1x16 (![1] : Fin 1 → Fin S1x16.rank)
  bcast_S1x16_S5000000x16_0_1 : S1x16.BroadcastsInDim S5000000x16 (![0, 1] : Fin 2 → Fin S5000000x16.rank)
  reducesTo_S5000000x16_S16_d0 : S5000000x16.ReducesTo [0] S16
  h_S_ : 0 < S_.numel
  bcast_S_S16 : S_.BroadcastsInDim S16 (![] : Fin 0 → Fin S16.rank)
  bcast_S_S5000000x16 : S_.BroadcastsInDim S5000000x16 (![] : Fin 0 → Fin S5000000x16.rank)
  gather_S100000x16_S5000000x1_S5000000x16_1_0_n_n_0_1_116_wf : GatherDims.WF S100000x16 S5000000x1 S5000000x16 [1] [0] [] [0] [] 1 ![1, 16]
  dot_S5000000x16_S16x16_S5000000x16_1_0_0_1_n_n_wf : DotDims.WF S5000000x16 S16x16 S5000000x16 [1] [0] [0] [1] [] []

variable [Facts₀]

def gather_S100000x16_S5000000x1_S5000000x16_1_0_n_n_0_1_116 : GatherDims S100000x16 S5000000x1 S5000000x16 where
  offsetDims := [1]
  collapsedSliceDims := [0]
  operandBatchingDims := []
  startIndicesBatchingDims := []
  startIndexMap := [0]
  indexVectorDim := 1
  sliceSizes := ![1, 16]
  wf := gather_S100000x16_S5000000x1_S5000000x16_1_0_n_n_0_1_116_wf
def dot_S5000000x16_S16x16_S5000000x16_1_0_0_1_n_n : DotDims S5000000x16 S16x16 S5000000x16 where
  lhsContracting := [1]
  rhsContracting := [0]
  lhsNonContracting := [0]
  rhsNonContracting := [1]
  lhsBatch := []
  rhsBatch := []
  wf := dot_S5000000x16_S16x16_S5000000x16_1_0_0_1_n_n_wf

class Facts : Prop extends Facts₀ where

variable [Facts]
-- ==== Proof.EdgeNormSpec.lean ====
/-
  The mathematics both programs compute, stated once over plain index types.

  An edge `i` carries three rows of sixteen numbers: its own attributes `ea i` and the node features `hs i`, `hd i` of
  its two end points. Three sixteen-by-sixteen weight matrices and three bias vectors turn them into one row

      e i j = ∑ₖ ea i k · w1 j k + b1 j + ∑ₖ hs i k · w2 j k + b2 j + ∑ₖ hd i k · w3 j k + b3 j,

  the six terms added in one order by one program (`linK`) and in another by the other (`linR`). Each column `j` is then
  normalised over all 5,000,000 edges: with the mean `μ j = (∑ᵢ e i j) / n` the result is

      ea i j + max (((e i j − μ j) · rsqrt (var j + ε)) · γ j + β j) 0.

  One program takes `var j = (∑ᵢ (e i j)²) / n − (μ j)²` (`varK`), the other `var j = (∑ᵢ (e i j − μ j)²) / n` (`varR`).
  Over the real numbers these are one number: expanding the square, `∑ᵢ (e i j − μ)² = ∑ᵢ (e i j)² − 2 μ ∑ᵢ e i j + n μ²`
  and `∑ᵢ e i j = n μ`. On the extended reals the identity needs every `e i j` to be a real number, which holds as soon as
  every input entry is one.
-/
import Idealize.ShloMosaic.PureOps.Ideal
import Mathlib.Algebra.BigOperators.Fin
import Mathlib.Algebra.BigOperators.Field
import Mathlib.Tactic.Ring
import Mathlib.Tactic.FieldSimp
import Mathlib.Tactic.NormNum
import Mathlib.Tactic.LinearCombination

noncomputable section

namespace Cert.Proof.EdgeNormSpec

open Idealize.ShloMosaic

/-! ## Finite sums of real numbers inside the extended reals -/

/-- The inclusion of the reals into the extended reals carries a finite sum to the sum of the images. -/
theorem coe_sum {ι : Type*} (s : Finset ι) (f : ι → ℝ) :
    ∑ k ∈ s, ((f k : ℝ) : EReal) = ((∑ k ∈ s, f k : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The squared distances from any number `m`, summed: `∑ᵢ (gᵢ − m)² = ∑ᵢ gᵢ² − 2 m ∑ᵢ gᵢ + n m²`. -/
theorem sum_sq_dev {n : ℕ} (g : Fin n → ℝ) (m : ℝ) :
    ∑ i, (g i - m) * (g i - m) = (∑ i, g i * g i) - 2 * m * (∑ i, g i) + (n : ℝ) * (m * m) := by
  have h : ∀ i, (g i - m) * (g i - m) = g i * g i - 2 * m * g i + m * m := fun i => by ring
  simp only [h, Finset.sum_add_distrib, Finset.sum_sub_distrib, ← Finset.mul_sum, Finset.sum_const, Finset.card_univ,
    Fintype.card_fin, nsmul_eq_mul]
  ring

/-- The two spellings of the variance over the reals, with `c` the reciprocal of the number of terms: at the mean
    `m = c ∑ᵢ gᵢ` the cross term is `2 m²` and the constant term is `(n c) m² = m²`, which leaves `c ∑ᵢ gᵢ² − m²`. -/
theorem var_identity {n : ℕ} (g : Fin n → ℝ) (c : ℝ) (hc : (n : ℝ) * c = 1) :
    (∑ i, g i * g i) * c - ((∑ i, g i) * c) * ((∑ i, g i) * c)
      = (∑ i, (g i - (∑ i, g i) * c) * (g i - (∑ i, g i) * c)) * c := by
  rw [sum_sq_dev]
  linear_combination (-(((∑ i, g i) * c) * ((∑ i, g i) * c))) * hc

/-! ## The row `e i` of an edge, in the two orders of addition -/

section Lin

variable (ea hs hd : Fin 5000000 → Fin 16 → EReal) (w1 w2 w3 : Fin 16 → Fin 16 → EReal) (b1 b2 b3 : Fin 16 → EReal)

/-- The six terms added from left to right. -/
def linK (i : Fin 5000000) (j : Fin 16) : EReal :=
  (((((∑ k : Fin 16, ea i k * w1 j k) + b1 j) + ∑ k : Fin 16, hs i k * w2 j k) + b2 j) + ∑ k : Fin 16, hd i k * w3 j k) + b3 j

/-- Each product sum joined with its bias first, then the three joined. -/
def linR (i : Fin 5000000) (j : Fin 16) : EReal :=
  (((∑ k : Fin 16, ea i k * w1 j k) + b1 j) + ((∑ k : Fin 16, hs i k * w2 j k) + b2 j)) + ((∑ k : Fin 16, hd i k * w3 j k) + b3 j)

/-- Addition of extended reals is associative and commutative, so the two orders give one value. -/
theorem linK_eq_linR : linK ea hs hd w1 w2 w3 b1 b2 b3 = linR ea hs hd w1 w2 w3 b1 b2 b3 := by
  funext i j
  unfold linK linR
  ac_rfl

/-- With real entries everywhere the row is real. -/
theorem linK_real (hea : ∀ i k, ∃ r : ℝ, ea i k = (r : EReal)) (hhs : ∀ i k, ∃ r : ℝ, hs i k = (r : EReal))
    (hhd : ∀ i k, ∃ r : ℝ, hd i k = (r : EReal)) (hw1 : ∀ a b, ∃ r : ℝ, w1 a b = (r : EReal))
    (hw2 : ∀ a b, ∃ r : ℝ, w2 a b = (r : EReal)) (hw3 : ∀ a b, ∃ r : ℝ, w3 a b = (r : EReal))
    (hb1 : ∀ a, ∃ r : ℝ, b1 a = (r : EReal)) (hb2 : ∀ a, ∃ r : ℝ, b2 a = (r : EReal)) (hb3 : ∀ a, ∃ r : ℝ, b3 a = (r : EReal))
    (i : Fin 5000000) (j : Fin 16) : ∃ r : ℝ, linK ea hs hd w1 w2 w3 b1 b2 b3 i j = (r : EReal) := by
  choose fea hfea using hea
  choose fhs hfhs using hhs
  choose fhd hfhd using hhd
  choose fw1 hfw1 using hw1
  choose fw2 hfw2 using hw2
  choose fw3 hfw3 using hw3
  choose fb1 hfb1 using hb1
  choose fb2 hfb2 using hb2
  choose fb3 hfb3 using hb3
  -- The same expression over the reals is the witness: products, sums and finite sums of reals stay real.
  refine ⟨(((((∑ k : Fin 16, fea i k * fw1 j k) + fb1 j) + ∑ k : Fin 16, fhs i k * fw2 j k) + fb2 j)
    + ∑ k : Fin 16, fhd i k * fw3 j k) + fb3 j, ?_⟩
  unfold linK
  simp only [hfea, hfhs, hfhd, hfw1, hfw2, hfw3, hfb1, hfb2, hfb3, ← EReal.coe_mul, coe_sum, ← EReal.coe_add]

end Lin

/-! ## The column statistics and the normalised result -/

/-- The number of edges, as both programs spell it: the float `5.0e6`. -/
def cnt : EReal := Ideal.ofBits .f32 0x4A989680#32

/-- The float `5.0e6` is the real number five million. -/
theorem cnt_eq : cnt = ((5000000 : ℝ) : EReal) := by
  unfold cnt
  simp [Ideal.ofBits, Ideal.ieee, -EReal.coe_mul]; norm_num

/-- The small constant under the reciprocal square root, as both programs spell it. -/
def eps : EReal := Ideal.ofBits .f32 0x3727C5AC#32

section Stats

variable (e : Fin 5000000 → Fin 16 → EReal)

/-- A column's sum over all edges. -/
def sum1 (j : Fin 16) : EReal := ∑ i : Fin 5000000, e i j

/-- A column's sum of squares over all edges. -/
def sum2 (j : Fin 16) : EReal := ∑ i : Fin 5000000, e i j * e i j

/-- A column's mean. -/
def meanOf (j : Fin 16) : EReal := Ideal.div (sum1 e j) cnt

/-- The mean of the squares less the square of the mean. -/
def varK (j : Fin 16) : EReal := Ideal.div (sum2 e j) cnt - meanOf e j * meanOf e j

/-- The mean of the squared distances from the mean. -/
def varR (j : Fin 16) : EReal :=
  Ideal.div (∑ i : Fin 5000000, (e i j - meanOf e j) * (e i j - meanOf e j)) cnt

/-- For real entries the two variances are one number. -/
theorem varK_eq_varR (he : ∀ i j, ∃ r : ℝ, e i j = (r : EReal)) (j : Fin 16) : varK e j = varR e j := by
  choose f hf using he
  have hc : (5000000 : ℝ) ≠ 0 := by norm_num
  unfold varK varR meanOf sum1 sum2
  rw [cnt_eq]
  -- Division by five million is the product with its reciprocal; every term is then the image of a real number.
  simp only [Ideal.div_coe hc, hf, ← EReal.coe_mul, coe_sum, ← EReal.coe_sub]
  rw [EReal.coe_eq_coe_iff]
  exact var_identity (fun i => f i j) (1 / 5000000) (by norm_num)

end Stats

/-- One entry of the result from its ingredients. -/
def normOut (a x mu var gam bet : EReal) : EReal :=
  a + max ((((x - mu) * Ideal.rsqrt (var + eps)) * gam) + bet) 0

section Out

variable (ea hs hd : Fin 5000000 → Fin 16 → EReal) (w1 w2 w3 : Fin 16 → Fin 16 → EReal) (b1 b2 b3 gam bet : Fin 16 → EReal)

/-- The result with the row added from left to right and the variance as mean of squares less squared mean. -/
def outK (i : Fin 5000000) (j : Fin 16) : EReal :=
  normOut (ea i j) (linK ea hs hd w1 w2 w3 b1 b2 b3 i j) (meanOf (linK ea hs hd w1 w2 w3 b1 b2 b3) j)
    (varK (linK ea hs hd w1 w2 w3 b1 b2 b3) j) (gam j) (bet j)

/-- The result with the row added pairwise and the variance as mean squared distance. -/
def outR (i : Fin 5000000) (j : Fin 16) : EReal :=
  normOut (ea i j) (linR ea hs hd w1 w2 w3 b1 b2 b3 i j) (meanOf (linR ea hs hd w1 w2 w3 b1 b2 b3) j)
    (varR (linR ea hs hd w1 w2 w3 b1 b2 b3) j) (gam j) (bet j)

/-- With real entries everywhere the two results agree. -/
theorem outK_eq_outR (hea : ∀ i k, ∃ r : ℝ, ea i k = (r : EReal)) (hhs : ∀ i k, ∃ r : ℝ, hs i k = (r : EReal))
    (hhd : ∀ i k, ∃ r : ℝ, hd i k = (r : EReal)) (hw1 : ∀ a b, ∃ r : ℝ, w1 a b = (r : EReal))
    (hw2 : ∀ a b, ∃ r : ℝ, w2 a b = (r : EReal)) (hw3 : ∀ a b, ∃ r : ℝ, w3 a b = (r : EReal))
    (hb1 : ∀ a, ∃ r : ℝ, b1 a = (r : EReal)) (hb2 : ∀ a, ∃ r : ℝ, b2 a = (r : EReal)) (hb3 : ∀ a, ∃ r : ℝ, b3 a = (r : EReal)) :
    outK ea hs hd w1 w2 w3 b1 b2 b3 gam bet = outR ea hs hd w1 w2 w3 b1 b2 b3 gam bet := by
  funext i j
  unfold outK outR
  rw [← linK_eq_linR, varK_eq_varR _ (linK_real ea hs hd w1 w2 w3 b1 b2 b3 hea hhs hhd hw1 hw2 hw3 hb1 hb2 hb3)]

end Out

/-! ## Sums over all edges, taken block by block -/

/-- A sum over the 5,000,000 edges is the sum over the 100 blocks of 50,000 consecutive edges of the blocks' sums. -/
theorem sum_blocks {M : Type*} [AddCommMonoid M] (f : Fin 5000000 → M) :
    (∑ t : Fin 100, ∑ r : Fin 50000, f ⟨t.val * 50000 + r.val, by have := t.isLt; have := r.isLt; omega⟩) = ∑ i : Fin 5000000, f i := by
  -- A pair (block, place in the block) names the edge `place + 50000 · block`, and every edge is named once.
  have hmul : 100 * 50000 = 5000000 := by norm_num
  rw [← Equiv.sum_comp (finProdFinEquiv.trans (finCongr hmul)) f, Fintype.sum_prod_type]
  refine Finset.sum_congr rfl fun t _ => Finset.sum_congr rfl fun r _ => ?_
  congr 1
  apply Fin.ext
  simp only [Equiv.trans_apply, finCongr_apply, Fin.val_cast, finProdFinEquiv_apply_val]
  ring

end Cert.Proof.EdgeNormSpec

end
-- ==== Proof.Curry.lean ====
/-
  A two-axis array read as a function of its two coordinates, and a one-row array as a function of its column.
-/
import Idealize.ShloMosaic.Lib.ValueIdx

namespace Cert.Proof.Curry

open Idealize.ShloMosaic Idealize.ShloMosaic.ValueIdx

/-- The array's entry at row `a`, column `b`. -/
abbrev cur2 {α : Type} {n0 n1 : Nat} (x : (⟨2, ![n0, n1]⟩ : Shape).Idx → α) : Fin n0 → Fin n1 → α := fun a b => x (ix2 a b)

/-- The one row's entry at column `j`. -/
abbrev row0 {α : Type} {n : Nat} (x : (⟨2, ![1, n]⟩ : Shape).Idx → α) : Fin n → α := fun j => x (ix2 0 j)

/-- A vector's entry at `j`. -/
abbrev cur1 {α : Type} {n : Nat} (x : (⟨1, ![n]⟩ : Shape).Idx → α) : Fin n → α := fun j => x (ix1 j)

end Cert.Proof.Curry
-- ==== Proof.Precond.lean ====
/-
  What the precondition says of the inputs, read out of its printed form.

  The precondition is a conjunction of twelve tests, each an "and" over all entries of one input: for each of the ten
  float inputs that the entry's absolute value is below +∞, and for the integer input (the two rows of node indices) that
  every entry is at least 0 and below 100000 as a signed number. On the extended reals `|x| < +∞` says that `x` is a real
  number; so the precondition holds exactly when every float entry is real and every index lies in `[0, 100000)`.
-/
import proofs.«408767_j31671088841192_1_alg».proof.Pre_finite_inputs
import proofs.«408767_j31671088841192_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.Proof.Precond

open Idealize.ShloMosaic Cert.Pre_finite_inputs

/-- The scalar shape has one index. -/
instance : Subsingleton S_.Idx := ⟨fun a b => funext fun d => d.elim0⟩

/-! ## One entry -/

/-- On the extended reals, `|x| < +∞` (with `|x| = max x (-x)`) says that `x` is a real number: at either infinity the
    maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The word `0x7F800000` is `+∞`: sign 0, exponent all ones, fraction 0. -/
theorem inf_bits : Ideal.ofBits .f32 0x7F800000#32 = ⊤ := by simp [Ideal.ofBits, Ideal.ieee]

/-- One entry's float test: where `|x| < +∞` compares true, `x` is a real number. -/
theorem real_of_test (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_bits] at h'
  simp only [Ideal.cmp, StableHlo.Predicate.ofBool_eq_one_iff, decide_eq_true_eq] at h'
  exact real_of_abs_lt_top x h'

/-- One entry's lower test: where `w ≥ 0` compares true as signed words, `w`'s signed value is not negative. -/
theorem nonneg_of_test (w : BitVec 32) (h : IntOp.cmpi .sge w 0#32 = 1#1) : 0 ≤ w.toInt := by
  simp only [IntOp.cmpi, StableHlo.Predicate.ofBool_eq_one_iff, BitVec.sle_iff_toInt_le] at h
  simpa using h

/-- One entry's upper test: where `w < 100000` compares true as signed words, `w`'s signed value is below 100000. -/
theorem lt_of_test (w : BitVec 32) (h : IntOp.cmpi .slt w 100000#32 = 1#1) : w.toInt < 100000 := by
  simp only [IntOp.cmpi, StableHlo.Predicate.ofBool_eq_one_iff, BitVec.slt_iff_toInt_lt] at h
  have hc : (100000#32 : BitVec 32).toInt = 100000 := by decide
  rwa [hc] at h

/-! ## One input: the "and" over all its entries -/

variable {s : Shape} {axes : List (Fin s.rank)}

/-- A float input's test, the "and" over all entries of `|x| < +∞`: where it is 1, every entry is a real number. -/
theorem float_all (hb : S_.BroadcastsInDim s (![] : Fin 0 → Fin s.rank)) (hr : s.ReducesTo axes S_) (h0 : 0 < S_.numel)
    (x : FVec Ideal s .f32)
    (h : Host.reduce IntOp.andi (cmpf .olt (Host.absf x) (broadcastInDim s ![] hb (constant S_ .f32 0x7F800000#32)))
      (constantI S_ 1 1#1) hr h0 ValueIdx.ix0 = 1#1) :
    ∀ i, ∃ r : ℝ, x i = (r : EReal) := fun i =>
  real_of_test (x i) (Host.reduce_andi_all _ _ hr h0 _ h i)

/-- An integer input's test against a constant, the "and" over all entries of the comparison: where it is 1, every entry
    compares true. -/
theorem int_all (p : CmpIPredicate) (c : BitVec 32) (hb : S_.BroadcastsInDim s (![] : Fin 0 → Fin s.rank))
    (hr : s.ReducesTo axes S_) (h0 : 0 < S_.numel) (x : IVec s 32)
    (h : Host.reduce IntOp.andi (cmpi p x (broadcastInDim s ![] hb (constantI S_ 32 c))) (constantI S_ 1 1#1) hr h0
      ValueIdx.ix0 = 1#1) :
    ∀ i, IntOp.cmpi p (x i) c = 1#1 := fun i =>
  Host.reduce_andi_all _ _ hr h0 _ h i

/-- The "and" of two one-bit scalars is 1 only where both are. -/
theorem andi_split {a b : IVec S_ 1} (h : andi a b ValueIdx.ix0 = 1#1) : a ValueIdx.ix0 = 1#1 ∧ b ValueIdx.ix0 = 1#1 :=
  IntOp.andi_eq_one.1 h

/-! ## The precondition -/

/-- Where the precondition's predicate is true everywhere, every float entry is a real number and every node index is
    in range. -/
theorem decode (x0 : FVec Ideal S100000x16 .f32) (x1 : IVec S2x5000000 32) (x2 : FVec Ideal S5000000x16 .f32)
    (x3 : FVec Ideal S16x16 .f32) (x4 : FVec Ideal S16 .f32) (x5 : FVec Ideal S16x16 .f32) (x6 : FVec Ideal S16 .f32)
    (x7 : FVec Ideal S16x16 .f32) (x8 : FVec Ideal S16 .f32) (x9 : FVec Ideal S16 .f32) (x10 : FVec Ideal S16 .f32)
    (h : fn (F := Ideal) x0 x1 x2 x3 x4 x5 x6 x7 x8 x9 x10 = fun _ => 1#1) :
    (∀ i, ∃ r : ℝ, x0 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal))
    ∧ (∀ i, ∃ r : ℝ, x7 i = (r : EReal)) ∧ (∀ i, ∃ r : ℝ, x8 i = (r : EReal)) ∧ (∀ i, ∃ r : ℝ, x9 i = (r : EReal))
    ∧ (∀ i, ∃ r : ℝ, x10 i = (r : EReal))
    ∧ (∀ i, 0 ≤ (x1 i).toInt ∧ (x1 i).toInt < 100000) := by
  have e := congrFun h ValueIdx.ix0
  dsimp only [fn, fn_part1, fn_part2, fn_part3] at e
  obtain ⟨e, t12⟩ := andi_split e
  obtain ⟨e, t11⟩ := andi_split e
  obtain ⟨e, t10⟩ := andi_split e
  obtain ⟨e, t9⟩ := andi_split e
  obtain ⟨e, t8⟩ := andi_split e
  obtain ⟨e, t7⟩ := andi_split e
  obtain ⟨e, t6⟩ := andi_split e
  obtain ⟨e, t5⟩ := andi_split e
  obtain ⟨e, t4⟩ := andi_split e
  obtain ⟨e, t3⟩ := andi_split e
  obtain ⟨t1, t2⟩ := andi_split e
  have lo := int_all .sge 0#32 _ _ _ x1 t11
  have hi := int_all .slt 100000#32 _ _ _ x1 t12
  exact ⟨float_all _ _ _ x0 t1, float_all _ _ _ x2 t2, float_all _ _ _ x3 t3, float_all _ _ _ x4 t4, float_all _ _ _ x5 t5,
    float_all _ _ _ x6 t6, float_all _ _ _ x7 t7, float_all _ _ _ x8 t8, float_all _ _ _ x9 t9, float_all _ _ _ x10 t10,
    fun i => ⟨nonneg_of_test _ (lo i), lt_of_test _ (hi i)⟩⟩

end Cert.Proof.Precond

end
-- ==== Proof.Take.lean ====
/-
  The kernel program's gather of node features, and when it is a plain gather.

  For one row `v` of the node indices the program first wraps a negative index round (`v + 100000` where `v < 0`), then
  gathers the rows of the node-feature array at the wrapped indices — the gather itself clamps an index into
  `[0, 99999]` —, and finally keeps a gathered row only where the wrapped index already lay in `[0, 99999]`, filling the
  row with a fixed pattern otherwise. Where every index lies in `[0, 100000)` no index is wrapped and every test passes, so
  the result is the plain gather at the wrapped indices.
-/
import proofs.«408767_j31671088841192_1_alg».proof.Proof.Gen.KernelIdeal
import Idealize.ShloMosaic.Lib.StableHlo.Predicate
import Idealize.ShloMosaic.Lib.ValueIdx
import Idealize.ShloMosaic.Lib.ReduceAll
import Idealize.ShloMosaic.Lib.Pipeline.Value

noncomputable section

namespace Cert.KernelIdeal.Take

open Idealize.ShloMosaic Idealize.ShloMosaic.ValueIdx Cert.KernelIdeal Cert.KernelIdeal.Facts₀

/-- Row 0 of the node indices, as a vector. -/
def idxRow0 (e : IVec S2x5000000 32) : IVec S5000000 32 :=
  shapeCast S5000000 (extractStridedSlice S1x5000000 ![0, 0] e slices_S2x5000000_S1x5000000_0_0) shapeCasts_S1x5000000_S5000000

/-- Row 1 of the node indices, as a vector. -/
def idxRow1 (e : IVec S2x5000000 32) : IVec S5000000 32 :=
  shapeCast S5000000 (extractStridedSlice S1x5000000 ![1, 0] e slices_S2x5000000_S1x5000000_1_0) shapeCasts_S1x5000000_S5000000

/-- The indices with the negative ones wrapped round, as a one-column array of start indices. -/
def wrapped (v : IVec S5000000 32) : IVec S5000000x1 32 :=
  broadcastInDim S5000000x1 ![0] bcast_S5000000_S5000000x1_0
    (select (cmpi .slt v (broadcastInDim S5000000 ![] bcast_S_S5000000 (constantI S_ 32 0#32)))
      (addi v (broadcastInDim S5000000 ![] bcast_S_S5000000 (constantI S_ 32 100000#32))) v)

/-- The plain gather of the node features' rows at the wrapped indices. -/
def gathered (x : FVec Ideal S100000x16 .f32) (v : IVec S5000000 32) : FVec Ideal S5000000x16 .f32 :=
  Host.gather gather_S100000x16_S5000000x1_S5000000x16_1_0_n_n_0_1_116 x (wrapped v)

/-- Row by row, whether the wrapped index lies in `[0, 99999]`, spread over the row's sixteen columns. -/
def inRange (J : IVec S5000000x1 32) : IVec S5000000x16 1 :=
  broadcastInDim S5000000x16 ![0] bcast_S5000000_S5000000x16_0
    (Host.reduce IntOp.andi
      (andi (cmpi .sge J (broadcastInDim S5000000x1 ![] bcast_S_S5000000x1 (constantI S_ 32 0#32)))
        (cmpi .sle J (broadcastInDim S5000000x1 ![0, 1] bcast_S1x1_S5000000x1_0_1
          (broadcastInDim S1x1 ![1] bcast_S1_S1x1_1 (constantI S1 32 99999#32)))))
      (constantI S_ 1 1#1) reducesTo_S5000000x1_S5000000_d1 h_S_)

/-- The program's gather: the gathered row where the wrapped index is in range, the fill pattern elsewhere. -/
def takeOf (x : FVec Ideal S100000x16 .f32) (v : IVec S5000000 32) : FVec Ideal S5000000x16 .f32 :=
  select (inRange (wrapped v)) (gathered x v)
    (broadcastInDim S5000000x16 ![] bcast_S_S5000000x16 (constant S_ .f32 0x7FC00000#32))

/-! ### Words

A 32-bit word whose signed value lies in `[0, 100000)` is not negative, and passes both range tests. -/

/-- Such a word has the same value read unsigned. -/
theorem word_toNat_lt (w : BitVec 32) (h0 : 0 ≤ w.toInt) (h1 : w.toInt < 100000) : w.toNat < 100000 := by
  have h := BitVec.toInt_eq_toNat_cond w
  have hl := w.isLt
  split_ifs at h <;> omega

/-- The test "below zero" fails on a word that is not negative. -/
theorem word_slt_zero (w : BitVec 32) (h0 : 0 ≤ w.toInt) : IntOp.cmpi .slt w 0#32 = 0#1 := by
  have hz : (0#32 : BitVec 32).toInt = 0 := by decide
  have hf : w.slt 0#32 = false := by
    unfold BitVec.slt
    rw [hz]
    exact decide_eq_false (by omega)
  show BitVec.ofBool (w.slt 0#32) = 0#1
  rw [hf]; rfl

/-- The test "at least zero" passes. -/
theorem word_sge_zero (w : BitVec 32) (h0 : 0 ≤ w.toInt) (h1 : w.toInt < 100000) : IntOp.cmpi .sge w 0#32 = 1#1 := by
  have hw := word_toNat_lt w h0 h1
  exact (StableHlo.Predicate.sge_iff_toNat (by omega) (by decide)).2 (Nat.zero_le _)

/-- The test "at most 99999" passes. -/
theorem word_sle_max (w : BitVec 32) (h0 : 0 ≤ w.toInt) (h1 : w.toInt < 100000) : IntOp.cmpi .sle w 99999#32 = 1#1 := by
  have hw := word_toNat_lt w h0 h1
  have hc : (99999#32 : BitVec 32).toNat = 99999 := by decide
  exact (StableHlo.Predicate.sle_iff_toNat (by omega) (by decide)).2 (by rw [hc]; omega)

/-! ### A property of every entry passes through the re-indexing operations

A broadcast, a reshape and a slice each read their operand at some index, so what holds of every entry of the operand
holds of every entry of the result. -/

theorem broadcastInDim_all {α : Type} {s t : Shape} (dims : Fin s.rank → Fin t.rank) (h : s.BroadcastsInDim t dims)
    (x : s.Idx → α) (P : α → Prop) (hx : ∀ k, P (x k)) (j : t.Idx) : P (broadcastInDim t dims h x j) := hx _

theorem shapeCast_all {α : Type} {s t : Shape} (x : s.Idx → α) (h : s.ShapeCasts t) (P : α → Prop) (hx : ∀ k, P (x k))
    (j : t.Idx) : P (shapeCast t x h j) := hx _

theorem extractStridedSlice_all {α : Type} {s t : Shape} (off : Fin s.rank → Nat) (x : s.Idx → α) (h : s.Slices off t)
    (P : α → Prop) (hx : ∀ k, P (x k)) (j : t.Idx) : P (extractStridedSlice t off x h j) := hx _

/-- A selection under a mask that is 1 everywhere is its first operand. -/
theorem select_of_ones {α : Type} {s : Shape} (c : IVec s 1) (a b : s.Idx → α) (hc : ∀ i, c i = 1#1) : select c a b = a := by
  funext i
  rw [select_apply, hc i, select_one]

/-! ### A reduction by `and` over one-bit words that are all 1 -/

/-- A left fold by `and` that meets only 1s ends where it started. -/
theorem foldl_andi_ones {ι : Type} (f : ι → BitVec 1) :
    ∀ (l : List ι) (init : BitVec 1), (∀ n ∈ l, f n = 1#1) → l.foldl (fun r n => IntOp.andi r (f n)) init = init
  | [], _, _ => rfl
  | a :: l, init, h => by
    have ha : f a = 1#1 := h a (List.mem_cons_self ..)
    have hi : IntOp.andi init (f a) = init := by
      rw [ha]; rcases BitVec.eq_zero_or_eq_one init with e | e <;> subst e <;> decide
    show l.foldl (fun r n => IntOp.andi r (f n)) (IntOp.andi init (f a)) = init
    rw [hi]
    exact foldl_andi_ones f l init (fun n hn => h n (List.mem_cons_of_mem _ hn))

/-- A reduction by `and` of an array whose every entry is 1 is its initial value, at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (j : t.Idx) :
    Host.reduce IntOp.andi x init h hu j = init (Shape.Idx.first hu) := by
  rw [Host.reduce_eq_foldl]
  exact foldl_andi_ones x _ _ (fun n _ => hx n)

/-! ### The program's gather on indices in range -/

/-- No index in `[0, 100000)` is wrapped: the wrapped indices keep the range. -/
theorem wrapped_range (v : IVec S5000000 32) (hv : ∀ p, 0 ≤ (v p).toInt ∧ (v p).toInt < 100000) (j : S5000000x1.Idx) :
    0 ≤ (wrapped v j).toInt ∧ (wrapped v j).toInt < 100000 := by
  unfold wrapped
  refine broadcastInDim_all _ _ _ (fun w : BitVec 32 => 0 ≤ w.toInt ∧ w.toInt < 100000) (fun k => ?_) j
  show 0 ≤ (Scalar.select (IntOp.cmpi .slt (v k) 0#32) (IntOp.addi (v k) 100000#32) (v k)).toInt
    ∧ (Scalar.select (IntOp.cmpi .slt (v k) 0#32) (IntOp.addi (v k) 100000#32) (v k)).toInt < 100000
  rw [word_slt_zero _ (hv k).1, select_zero]
  exact hv k

/-- On start indices all in `[0, 100000)` the range mask is 1 everywhere: each row's two tests pass, and the reduction
    by `and` along the row's single column keeps the 1. -/
theorem inRange_one (J : IVec S5000000x1 32) (hJ : ∀ j, 0 ≤ (J j).toInt ∧ (J j).toInt < 100000) (i : S5000000x16.Idx) :
    inRange J i = 1#1 := by
  unfold inRange
  refine broadcastInDim_all _ _ _ (fun b : BitVec 1 => b = 1#1) (fun k => ?_) i
  refine (reduce_andi_ones _ _ _ _ (fun j => ?_) k).trans rfl
  show IntOp.andi (IntOp.cmpi .sge (J j) 0#32) (IntOp.cmpi .sle (J j) 99999#32) = 1#1
  rw [word_sge_zero _ (hJ j).1 (hJ j).2, word_sle_max _ (hJ j).1 (hJ j).2]
  decide

/-- With every index in `[0, 100000)` the program's gather is the plain gather. -/
theorem takeOf_eq_gathered (x : FVec Ideal S100000x16 .f32) (v : IVec S5000000 32)
    (hv : ∀ p, 0 ≤ (v p).toInt ∧ (v p).toInt < 100000) : takeOf x v = gathered x v := by
  unfold takeOf
  exact select_of_ones _ _ _ (fun i => inRange_one (wrapped v) (wrapped_range v hv) i)

/-- The two rows of indices inherit the range of the whole array of indices. -/
theorem idxRow0_range (e : IVec S2x5000000 32) (he : ∀ i, 0 ≤ (e i).toInt ∧ (e i).toInt < 100000) :
    ∀ p, 0 ≤ (idxRow0 e p).toInt ∧ (idxRow0 e p).toInt < 100000 := by
  intro p
  unfold idxRow0
  exact shapeCast_all _ _ (fun w : BitVec 32 => 0 ≤ w.toInt ∧ w.toInt < 100000)
    (fun k => extractStridedSlice_all _ _ _ (fun w : BitVec 32 => 0 ≤ w.toInt ∧ w.toInt < 100000) he k) p

theorem idxRow1_range (e : IVec S2x5000000 32) (he : ∀ i, 0 ≤ (e i).toInt ∧ (e i).toInt < 100000) :
    ∀ p, 0 ≤ (idxRow1 e p).toInt ∧ (idxRow1 e p).toInt < 100000 := by
  intro p
  unfold idxRow1
  exact shapeCast_all _ _ (fun w : BitVec 32 => 0 ≤ w.toInt ∧ w.toInt < 100000)
    (fun k => extractStridedSlice_all _ _ _ (fun w : BitVec 32 => 0 ≤ w.toInt ∧ w.toInt < 100000) he k) p

/-- A gathered entry is an entry of the node-feature array, so it is real where that array is. -/
theorem gathered_real (x : FVec Ideal S100000x16 .f32) (v : IVec S5000000 32) (hx : ∀ i, ∃ r : ℝ, x i = (r : EReal)) :
    ∀ i, ∃ r : ℝ, gathered x v i = (r : EReal) := fun i => hx _

end Cert.KernelIdeal.Take

end
-- ==== Proof.BlockLin.lean ====
/-
  One block of fifty thousand edges inside either kernel body: the row `e` of each edge of the block, read entry by entry.

  The body multiplies the block's three 50000 × 16 operands by the transposes of the three 16 × 16 weight matrices, into a
  zero accumulator, and adds the three 1 × 16 bias rows, broadcast down the block, from left to right. At row `r` and column
  `j` that is

      ∑ₖ x0 r k · x3 j k + x4 0 j + ∑ₖ x1 r k · x5 j k + x6 0 j + ∑ₖ x2 r k · x7 j k + x8 0 j,

  the transposed matrix read at `(k, j)` being the matrix at `(j, k)`.
-/
import proofs.«408767_j31671088841192_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockLin

open Idealize.ShloMosaic Idealize.ShloMosaic.ValueIdx Cert.KernelIdeal Cert.KernelIdeal.Gen

/-- The row of one edge of a block, entry by entry, the six terms added from left to right. -/
def blockRow (x0 x1 x2 : Vec Ideal S50000x16 .f32) (x3 : Vec Ideal S16x16 .f32) (x4 : Vec Ideal S1x16 .f32)
    (x5 : Vec Ideal S16x16 .f32) (x6 : Vec Ideal S1x16 .f32) (x7 : Vec Ideal S16x16 .f32) (x8 : Vec Ideal S1x16 .f32)
    (r : Fin 50000) (j : Fin 16) : EReal :=
  (((((∑ k : Fin 16, x0 (ix2 r k) * x3 (ix2 j k)) + x4 (ix2 0 j)) + ∑ k : Fin 16, x1 (ix2 r k) * x5 (ix2 j k)) + x6 (ix2 0 j))
    + ∑ k : Fin 16, x2 (ix2 r k) * x7 (ix2 j k)) + x8 (ix2 0 j)

/-! ## The contraction's operand indices, one axis at a time

The product contracts the left operand's axis 1 with the right operand's axis 0 and keeps the left operand's axis 0 and
the right operand's axis 1, in that order. -/

/-- On its kept axis the left operand is read at the result's row. -/
theorem lhs_axis0 (i : S50000x16.Idx) (q : dot_S50000x16_S16x16_S50000x16_1_0_0_1_n_n.contr.Idx) :
    (dot_S50000x16_S16x16_S50000x16_1_0_0_1_n_n.lhsIdx i q 0).val = (i 0).val := by
  unfold DotDims.lhsIdx
  rw [dif_neg (show ¬(0 : Fin S50000x16.rank) ∈ dot_S50000x16_S16x16_S50000x16_1_0_0_1_n_n.lhsBatch by decide), dif_pos (show (0 : Fin S50000x16.rank) ∈ dot_S50000x16_S16x16_S50000x16_1_0_0_1_n_n.lhsNonContracting by decide)]
  rfl
/-- On its contracted axis the left operand is read at the summation index. -/
theorem lhs_axis1 (i : S50000x16.Idx) (q : dot_S50000x16_S16x16_S50000x16_1_0_0_1_n_n.contr.Idx) :
    (dot_S50000x16_S16x16_S50000x16_1_0_0_1_n_n.lhsIdx i q 1).val = (q ⟨0, by decide⟩).val :=
  dot_S50000x16_S16x16_S50000x16_1_0_0_1_n_n.lhsIdx_val_of_single rfl i q
/-- On its contracted axis the right operand is read at the summation index. -/
theorem rhs_axis0 (i : S50000x16.Idx) (q : dot_S50000x16_S16x16_S50000x16_1_0_0_1_n_n.contr.Idx) :
    (dot_S50000x16_S16x16_S50000x16_1_0_0_1_n_n.rhsIdx i q 0).val = (q ⟨0, by decide⟩).val :=
  dot_S50000x16_S16x16_S50000x16_1_0_0_1_n_n.rhsIdx_val_of_single rfl i q
/-- On its kept axis the right operand is read at the result's column. -/
theorem rhs_axis1 (i : S50000x16.Idx) (q : dot_S50000x16_S16x16_S50000x16_1_0_0_1_n_n.contr.Idx) :
    (dot_S50000x16_S16x16_S50000x16_1_0_0_1_n_n.rhsIdx i q 1).val = (i 1).val := by
  unfold DotDims.rhsIdx
  rw [dif_neg (show ¬(1 : Fin S16x16.rank) ∈ dot_S50000x16_S16x16_S50000x16_1_0_0_1_n_n.rhsBatch by decide), dif_pos (show (1 : Fin S16x16.rank) ∈ dot_S50000x16_S16x16_S50000x16_1_0_0_1_n_n.rhsNonContracting by decide)]
  rfl

/-! ## One lemma for each operation that is not entrywise -/

/-- The product into a zero accumulator, read at `(r, j)`: the sum over `k` of the left operand at `(r, k)` times the
    right operand at `(k, j)`. The contraction shape has one axis of extent 16; the sum over it is carried to `Fin 16`. -/
theorem matmul_zero_apply (x : Vec Ideal S50000x16 .f32) (w : Vec Ideal S16x16 .f32) (r : Fin 50000) (j : Fin 16) :
    matmul (F := Ideal) (φ₁ := .f32) (φ₂ := .f32) dot_S50000x16_S16x16_S50000x16_1_0_0_1_n_n none x w (constant (F := Ideal) S50000x16 .f32 0x00000000#32) (ix2 r j)
      = ∑ k : Fin 16, x (ix2 r k) * w (ix2 k j) := by
  simp only [matmul]
  rw [Ideal.matmul_constant_zero_apply, ← Equiv.sum_comp (contrEquiv1 dot_S50000x16_S16x16_S50000x16_1_0_0_1_n_n 16 rfl rfl).symm]
  refine Finset.sum_congr rfl fun k _ => ?_
  have hk := contrEquiv1_symm_val dot_S50000x16_S16x16_S50000x16_1_0_0_1_n_n 16 rfl rfl k
  have el : dot_S50000x16_S16x16_S50000x16_1_0_0_1_n_n.lhsIdx (ix2 r j) ((contrEquiv1 dot_S50000x16_S16x16_S50000x16_1_0_0_1_n_n 16 rfl rfl).symm k) = ix2 r k := funext fun a => Fin.ext (by
    match a with
    | ⟨0, _⟩ => exact lhs_axis0 _ _
    | ⟨1, _⟩ => exact (lhs_axis1 _ _).trans hk)
  have er : dot_S50000x16_S16x16_S50000x16_1_0_0_1_n_n.rhsIdx (ix2 r j) ((contrEquiv1 dot_S50000x16_S16x16_S50000x16_1_0_0_1_n_n 16 rfl rfl).symm k) = ix2 k j := funext fun a => Fin.ext (by
    match a with
    | ⟨0, _⟩ => exact (rhs_axis0 _ _).trans hk
    | ⟨1, _⟩ => exact rhs_axis1 _ _)
  rw [el, er]

/-- The product with a transposed weight matrix: the transposed matrix at `(k, j)` is the matrix at `(j, k)`. -/
theorem matmul_transpose_apply (x : Vec Ideal S50000x16 .f32) (w : Vec Ideal S16x16 .f32) (h : S16x16.Transposes [1, 0] S16x16)
    (r : Fin 50000) (j : Fin 16) :
    matmul (F := Ideal) (φ₁ := .f32) (φ₂ := .f32) dot_S50000x16_S16x16_S50000x16_1_0_0_1_n_n none x (transpose S16x16 [1, 0] w h) (constant (F := Ideal) S50000x16 .f32 0x00000000#32) (ix2 r j)
      = ∑ k : Fin 16, x (ix2 r k) * w (ix2 j k) := by
  rw [matmul_zero_apply]
  exact Finset.sum_congr rfl fun k _ => congrArg (x (ix2 r k) * ·) (transpose_ix2_apply w h k j)

/-- A bias row, cast to its own shape and broadcast down the block: every row of the block reads the one row. -/
theorem bias_apply (b : Vec Ideal S1x16 .f32) (hc : S1x16.ShapeCasts S1x16) (hb : S1x16.Broadcasts S50000x16)
    (r : Fin 50000) (j : Fin 16) :
    broadcastTo S50000x16 (shapeCast S1x16 b hc) hb (ix2 r j) = b (ix2 0 j) := by
  rw [shapeCast_self]
  exact broadcastTo_1b_ab_apply b hb r j

/-! ## The two bodies -/

/-- The statistics body's block of rows, read at an entry. -/
theorem stats_rows_apply (x0 x1 x2 : Vec Ideal S50000x16 .f32) (x3 : Vec Ideal S16x16 .f32) (x4 : Vec Ideal S1x16 .f32)
    (x5 : Vec Ideal S16x16 .f32) (x6 : Vec Ideal S1x16 .f32) (x7 : Vec Ideal S16x16 .f32) (x8 : Vec Ideal S1x16 .f32)
    (r : Fin 50000) (j : Fin 16) :
    k0_pay5 (F := Ideal) x0 x1 x2 x3 x4 x5 x6 x7 x8 (ix2 r j) = blockRow x0 x1 x2 x3 x4 x5 x6 x7 x8 r j := by
  unfold k0_pay5 blockRow
  rw [shapeCast_self x1, shapeCast_self x2]
  simp only [addf_apply]
  rw [matmul_transpose_apply, matmul_transpose_apply, matmul_transpose_apply, bias_apply, bias_apply, bias_apply]

/-- The normalising body's block of rows, read at an entry: the same arithmetic. -/
theorem norm_rows_apply (x0 x1 x2 : Vec Ideal S50000x16 .f32) (x3 : Vec Ideal S16x16 .f32) (x4 : Vec Ideal S1x16 .f32)
    (x5 : Vec Ideal S16x16 .f32) (x6 : Vec Ideal S1x16 .f32) (x7 : Vec Ideal S16x16 .f32) (x8 : Vec Ideal S1x16 .f32)
    (r : Fin 50000) (j : Fin 16) :
    k1_pay2 (F := Ideal) x0 x1 x2 x3 x4 x5 x6 x7 x8 (ix2 r j) = blockRow x0 x1 x2 x3 x4 x5 x6 x7 x8 r j := by
  show k0_pay5 (F := Ideal) x0 x1 x2 x3 x4 x5 x6 x7 x8 (ix2 r j) = _
  exact stats_rows_apply x0 x1 x2 x3 x4 x5 x6 x7 x8 r j

end Cert.KernelIdeal.BlockLin

end
-- ==== Proof.StatsRegion.lean ====
/-
  The first kernel region: two 1 × 16 accumulators, the column sums of the rows `e` and of their squares, carried over the
  hundred grid points.

  Point `t` reads block `t` of the three 5000000 × 16 operands (rows 50000 t … 50000 t + 49999) and the whole of the six
  small ones, forms the block's 50000 rows of `e`, and adds their column sums, and the column sums of their squares, to
  the two accumulators; point 0 first sets both to zero. Neither accumulator's block index moves, so each is written
  back once, after the last point. After point `t` an accumulator therefore holds the sum over the blocks `0 … t` of the
  block's column sum, and after point 99 the sum over all 5,000,000 rows.
-/
import proofs.«408767_j31671088841192_1_alg».proof.Proof.Gen.KernelIdeal.Frame
import proofs.«408767_j31671088841192_1_alg».proof.Proof.EdgeNormSpec
import proofs.«408767_j31671088841192_1_alg».proof.Proof.Curry
import proofs.«408767_j31671088841192_1_alg».proof.Proof.BlockLin
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Stats

open Idealize.ShloMosaic Idealize.ShloMosaic.TcCoe Idealize.SL.Sem Idealize.ShloMosaic.ValueIdx
open Idealize.ShloMosaic.Pipeline (Dat)
open Cert.KernelIdeal Cert.KernelIdeal.Gen Cert.Proof Cert.Proof.Curry

/-! ## What one run of the body leaves in the two accumulators

At a point other than the first the body's one store into each accumulator covers it, so the accumulator ends at that
store's value: the update of what it held. At the first point the body stores a zero row first, reads it back, and the
second store, which again covers the accumulator, holds the update of that zero row. -/

section Cases

variable {F : FTy → Type} [FloatOps F]

/-- Both offsets of every load and store of the body are zero. -/
theorem hz : (![0, 0] : Fin 2 → Nat) = fun _ => 0 := funext fun a => by fin_cases a <;> rfl

/-- A later point, first accumulator: the old contents plus the column sums of the block's rows. -/
theorem later_sum (c : Dev nD) (i : grid0.Coords)
    (a1 : Memref sig .tc .vmem S50000x16 .f32) (h1 : a1.IsWhole) (a2 : Memref sig .tc .vmem S50000x16 .f32) (h2 : a2.IsWhole)
    (a3 : Memref sig .tc .vmem S50000x16 .f32) (h3 : a3.IsWhole) (a4 : Memref sig .tc .vmem S16x16 .f32) (h4 : a4.IsWhole)
    (a5 : Memref sig .tc .vmem S1x16 .f32) (h5 : a5.IsWhole) (a6 : Memref sig .tc .vmem S16x16 .f32) (h6 : a6.IsWhole)
    (a7 : Memref sig .tc .vmem S1x16 .f32) (h7 : a7.IsWhole) (a8 : Memref sig .tc .vmem S16x16 .f32) (h8 : a8.IsWhole)
    (a9 : Memref sig .tc .vmem S1x16 .f32) (h9 : a9.IsWhole) (a10 : Memref sig .tc .vmem S1x16 .f32) (h10 : a10.IsWhole)
    (a11 : Memref sig .tc .vmem S1x16 .f32) (h11 : a11.IsWhole) (hc : ¬cond0_0 i)
    (x0 x1 x2 : Vec F S50000x16 .f32) (x3 : Vec F S16x16 .f32) (x4 : Vec F S1x16 .f32) (x5 : Vec F S16x16 .f32)
    (x6 : Vec F S1x16 .f32) (x7 : Vec F S16x16 .f32) (x8 : Vec F S1x16 .f32) (xo9 xo10 : Vec F S1x16 .f32) :
    out0_B_9 c i a1 h1 a2 h2 a3 h3 a4 h4 a5 h5 a6 h6 a7 h7 a8 h8 a9 h9 a10 h10 a11 h11 hc x0 x1 x2 x3 x4 x5 x6 x7 x8 xo9 xo10
      = k0_pay1 (k0_pay5 x0 x1 x2 x3 x4 x5 x6 x7 x8) (k0_pay6 xo9) := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 x7 x8 xo9 xo10)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S50000x16) hz, View.ld_unit_zero (S := S16x16) hz, View.ld_unit_zero (S := S1x16) hz,
    View.readCov_unit_zero (S := S1x16) _ hz]

/-- A later point, second accumulator: the old contents plus the column sums of the squared rows. -/
theorem later_sumsq (c : Dev nD) (i : grid0.Coords)
    (a1 : Memref sig .tc .vmem S50000x16 .f32) (h1 : a1.IsWhole) (a2 : Memref sig .tc .vmem S50000x16 .f32) (h2 : a2.IsWhole)
    (a3 : Memref sig .tc .vmem S50000x16 .f32) (h3 : a3.IsWhole) (a4 : Memref sig .tc .vmem S16x16 .f32) (h4 : a4.IsWhole)
    (a5 : Memref sig .tc .vmem S1x16 .f32) (h5 : a5.IsWhole) (a6 : Memref sig .tc .vmem S16x16 .f32) (h6 : a6.IsWhole)
    (a7 : Memref sig .tc .vmem S1x16 .f32) (h7 : a7.IsWhole) (a8 : Memref sig .tc .vmem S16x16 .f32) (h8 : a8.IsWhole)
    (a9 : Memref sig .tc .vmem S1x16 .f32) (h9 : a9.IsWhole) (a10 : Memref sig .tc .vmem S1x16 .f32) (h10 : a10.IsWhole)
    (a11 : Memref sig .tc .vmem S1x16 .f32) (h11 : a11.IsWhole) (hc : ¬cond0_0 i)
    (x0 x1 x2 : Vec F S50000x16 .f32) (x3 : Vec F S16x16 .f32) (x4 : Vec F S1x16 .f32) (x5 : Vec F S16x16 .f32)
    (x6 : Vec F S1x16 .f32) (x7 : Vec F S16x16 .f32) (x8 : Vec F S1x16 .f32) (xo9 xo10 : Vec F S1x16 .f32) :
    out0_B_10 c i a1 h1 a2 h2 a3 h3 a4 h4 a5 h5 a6 h6 a7 h7 a8 h8 a9 h9 a10 h10 a11 h11 hc x0 x1 x2 x3 x4 x5 x6 x7 x8 xo9 xo10
      = k0_pay2 (k0_pay5 x0 x1 x2 x3 x4 x5 x6 x7 x8) xo10 := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 x7 x8 xo9 xo10)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S50000x16) hz, View.ld_unit_zero (S := S16x16) hz, View.ld_unit_zero (S := S1x16) hz,
    View.readCov_unit_zero (S := S1x16) _ hz]

/-- The first point, first accumulator: the zero row plus the column sums of the block's rows. -/
theorem first_sum (c : Dev nD) (i : grid0.Coords)
    (a1 : Memref sig .tc .vmem S50000x16 .f32) (h1 : a1.IsWhole) (a2 : Memref sig .tc .vmem S50000x16 .f32) (h2 : a2.IsWhole)
    (a3 : Memref sig .tc .vmem S50000x16 .f32) (h3 : a3.IsWhole) (a4 : Memref sig .tc .vmem S16x16 .f32) (h4 : a4.IsWhole)
    (a5 : Memref sig .tc .vmem S1x16 .f32) (h5 : a5.IsWhole) (a6 : Memref sig .tc .vmem S16x16 .f32) (h6 : a6.IsWhole)
    (a7 : Memref sig .tc .vmem S1x16 .f32) (h7 : a7.IsWhole) (a8 : Memref sig .tc .vmem S16x16 .f32) (h8 : a8.IsWhole)
    (a9 : Memref sig .tc .vmem S1x16 .f32) (h9 : a9.IsWhole) (a10 : Memref sig .tc .vmem S1x16 .f32) (h10 : a10.IsWhole)
    (a11 : Memref sig .tc .vmem S1x16 .f32) (h11 : a11.IsWhole) (hc : cond0_0 i)
    (x0 x1 x2 : Vec F S50000x16 .f32) (x3 : Vec F S16x16 .f32) (x4 : Vec F S1x16 .f32) (x5 : Vec F S16x16 .f32)
    (x6 : Vec F S1x16 .f32) (x7 : Vec F S16x16 .f32) (x8 : Vec F S1x16 .f32) :
    out0_A_9 c i a1 h1 a2 h2 a3 h3 a4 h4 a5 h5 a6 h6 a7 h7 a8 h8 a9 h9 a10 h10 a11 h11 hc x0 x1 x2 x3 x4 x5 x6 x7 x8
      = k0_pay1 (k0_pay5 x0 x1 x2 x3 x4 x5 x6 x7 x8) (k0_pay6 k0_pay3) := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x16) hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S50000x16) hz, View.ld_unit_zero (S := S16x16) hz, View.ld_unit_zero (S := S1x16) hz,
    View.readCov_unit_zero (S := S1x16) _ hz]

/-- The first point, second accumulator: the zero row plus the column sums of the squared rows. -/
theorem first_sumsq (c : Dev nD) (i : grid0.Coords)
    (a1 : Memref sig .tc .vmem S50000x16 .f32) (h1 : a1.IsWhole) (a2 : Memref sig .tc .vmem S50000x16 .f32) (h2 : a2.IsWhole)
    (a3 : Memref sig .tc .vmem S50000x16 .f32) (h3 : a3.IsWhole) (a4 : Memref sig .tc .vmem S16x16 .f32) (h4 : a4.IsWhole)
    (a5 : Memref sig .tc .vmem S1x16 .f32) (h5 : a5.IsWhole) (a6 : Memref sig .tc .vmem S16x16 .f32) (h6 : a6.IsWhole)
    (a7 : Memref sig .tc .vmem S1x16 .f32) (h7 : a7.IsWhole) (a8 : Memref sig .tc .vmem S16x16 .f32) (h8 : a8.IsWhole)
    (a9 : Memref sig .tc .vmem S1x16 .f32) (h9 : a9.IsWhole) (a10 : Memref sig .tc .vmem S1x16 .f32) (h10 : a10.IsWhole)
    (a11 : Memref sig .tc .vmem S1x16 .f32) (h11 : a11.IsWhole) (hc : cond0_0 i)
    (x0 x1 x2 : Vec F S50000x16 .f32) (x3 : Vec F S16x16 .f32) (x4 : Vec F S1x16 .f32) (x5 : Vec F S16x16 .f32)
    (x6 : Vec F S1x16 .f32) (x7 : Vec F S16x16 .f32) (x8 : Vec F S1x16 .f32) :
    out0_A_10 c i a1 h1 a2 h2 a3 h3 a4 h4 a5 h5 a6 h6 a7 h7 a8 h8 a9 h9 a10 h10 a11 h11 hc x0 x1 x2 x3 x4 x5 x6 x7 x8
      = k0_pay2 (k0_pay5 x0 x1 x2 x3 x4 x5 x6 x7 x8) k0_pay4 := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x16) hz]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S50000x16) hz, View.ld_unit_zero (S := S16x16) hz, View.ld_unit_zero (S := S1x16) hz,
    View.readCov_unit_zero (S := S1x16) _ hz]

/-- The accumulator as loaded passes through a reshape to its own shape. -/
theorem loaded_eq (acc : Vec F S1x16 .f32) : k0_pay6 acc = acc := by
  unfold k0_pay6
  exact shapeCast_self acc shapeCasts_S1x16_S1x16

end Cases

/-! ## The two updates read at an entry, over the extended reals -/

/-- Entry `j` of a vector of sixteen and entry `(0, j)` of a one-row array sit at the same row-major place. -/
theorem place16 (j : Fin 16) : (S16.rowMajor (ix1 j)).val = (S1x16.rowMajor (ix2 0 j)).val := by
  refine (Shape.rowMajor_val_one (d := ![16]) (ix1 j)).trans (Eq.symm ?_)
  refine (Shape.rowMajor_val_two (d := ![1, 16]) (ix2 0 j)).trans ?_
  show (0 : Nat) * 16 + j.val = j.val
  omega

/-- A row coordinate put back in front of a column index gives the two-axis index. -/
theorem lift16 (j : Fin 16) (r : Fin 50000) : reduces_S50000x16_S16.lift (ix1 j) r = ix2 r j := by
  funext a
  match a with
  | ⟨0, _⟩ => rfl
  | ⟨1, _⟩ => rfl

/-- The reduction over the rows followed by the reshape to one row: at column `j` the sum of the column's fifty
    thousand entries (the reduction starts from zero, the neutral element, which the sum does not show). -/
theorem colsum_apply (rows : Vec Ideal S50000x16 .f32) (j : Fin 16) :
    shapeCast S1x16 (multiReduction (F := Ideal) .add [0] S16 rows 0x00000000#32 reduces_S50000x16_S16 (.inl rfl) rfl)
        shapeCasts_S16_S1x16 (ix2 0 j)
      = ∑ r : Fin 50000, rows (ix2 r j) := by
  refine (shapeCast_apply _ shapeCasts_S16_S1x16 (ix2 0 j) (ix1 j) (place16 j)).trans ?_
  refine (Ideal.multiReduction_add_single rows 0x00000000#32 reduces_S50000x16_S16 (.inl rfl) rfl (ix1 j)).trans ?_
  exact Finset.sum_congr rfl fun r _ => congrArg rows (lift16 j r)

/-- The first accumulator's update at column `j`: what it held plus the column's sum over the block. -/
theorem sum_update_apply (rows : Vec Ideal S50000x16 .f32) (acc : Vec Ideal S1x16 .f32) (j : Fin 16) :
    k0_pay1 (F := Ideal) rows acc (ix2 0 j) = acc (ix2 0 j) + ∑ r : Fin 50000, rows (ix2 r j) := by
  unfold k0_pay1
  exact congrArg (fun z => acc (ix2 0 j) + z) (colsum_apply rows j)

/-- The second accumulator's update at column `j`: what it held plus the column's sum of squares over the block. -/
theorem sumsq_update_apply (rows : Vec Ideal S50000x16 .f32) (acc : Vec Ideal S1x16 .f32) (j : Fin 16) :
    k0_pay2 (F := Ideal) rows acc (ix2 0 j) = acc (ix2 0 j) + ∑ r : Fin 50000, rows (ix2 r j) * rows (ix2 r j) := by
  unfold k0_pay2
  dsimp only
  refine (addf_apply _ _ (ix2 0 j)).trans ?_
  refine congrArg₂ (· + ·) (congrFun (shapeCast_self acc shapeCasts_S1x16_S1x16) (ix2 0 j)) ?_
  refine (colsum_apply (mulf (F := Ideal) rows rows) j).trans ?_
  rfl

/-- The row the first point stores into the first accumulator is zero. -/
theorem reset_sum_apply (j : Fin 16) : k0_pay3 (F := Ideal) (ix2 0 j) = 0 := by
  unfold k0_pay3
  exact Ideal.ofBits_zero_f32

/-- The row the first point stores into the second accumulator is zero. -/
theorem reset_sumsq_apply (j : Fin 16) : k0_pay4 (F := Ideal) (ix2 0 j) = 0 := by
  unfold k0_pay4
  exact Ideal.ofBits_zero_f32

variable (V : (c : Dev nD) → (b : Ref sig .tc) → Buf (Elt Ideal) ((c : Thread nD τ).loc b)) (c : Dev nD)

/-- The row of edge `i`, from the region's nine input arrays as the region finds them. -/
def eRow (i : Fin 5000000) (j : Fin 16) : EReal :=
  EdgeNormSpec.linK
    (cur2 (V c (Pipeline.arrRef spec0 0) : S5000000x16.Idx → EReal))
    (cur2 (V c (Pipeline.arrRef spec0 1) : S5000000x16.Idx → EReal))
    (cur2 (V c (Pipeline.arrRef spec0 2) : S5000000x16.Idx → EReal))
    (cur2 (V c (Pipeline.arrRef spec0 3) : S16x16.Idx → EReal))
    (cur2 (V c (Pipeline.arrRef spec0 5) : S16x16.Idx → EReal))
    (cur2 (V c (Pipeline.arrRef spec0 7) : S16x16.Idx → EReal))
    (row0 (V c (Pipeline.arrRef spec0 4) : S1x16.Idx → EReal))
    (row0 (V c (Pipeline.arrRef spec0 6) : S1x16.Idx → EReal))
    (row0 (V c (Pipeline.arrRef spec0 8) : S1x16.Idx → EReal)) i j

/-! ## The input blocks of a point

A block's entry sits in its array, on each axis, at the block index times the block's size plus the entry's own
coordinate. The three long operands' block index at point `t` is `(t, 0)`; the six small ones' is `(0, 0)` at every
point, and their block is the whole array. -/

/-- The nine input arrays as the region finds them, and their blocks at a point, each by its own shape. -/
abbrev arr0 : Vec Ideal S5000000x16 .f32 := V c (Pipeline.arrRef spec0 0)
abbrev arr1 : Vec Ideal S5000000x16 .f32 := V c (Pipeline.arrRef spec0 1)
abbrev arr2 : Vec Ideal S5000000x16 .f32 := V c (Pipeline.arrRef spec0 2)
abbrev arr3 : Vec Ideal S16x16 .f32 := V c (Pipeline.arrRef spec0 3)
abbrev arr4 : Vec Ideal S1x16 .f32 := V c (Pipeline.arrRef spec0 4)
abbrev arr5 : Vec Ideal S16x16 .f32 := V c (Pipeline.arrRef spec0 5)
abbrev arr6 : Vec Ideal S1x16 .f32 := V c (Pipeline.arrRef spec0 6)
abbrev arr7 : Vec Ideal S16x16 .f32 := V c (Pipeline.arrRef spec0 7)
abbrev arr8 : Vec Ideal S1x16 .f32 := V c (Pipeline.arrRef spec0 8)
abbrev blk0 (t : Fin cfg0.N) : Vec Ideal S50000x16 .f32 := iblk0 V c 0 t
abbrev blk1 (t : Fin cfg0.N) : Vec Ideal S50000x16 .f32 := iblk0 V c 1 t
abbrev blk2 (t : Fin cfg0.N) : Vec Ideal S50000x16 .f32 := iblk0 V c 2 t
abbrev blk3 (t : Fin cfg0.N) : Vec Ideal S16x16 .f32 := iblk0 V c 3 t
abbrev blk4 (t : Fin cfg0.N) : Vec Ideal S1x16 .f32 := iblk0 V c 4 t
abbrev blk5 (t : Fin cfg0.N) : Vec Ideal S16x16 .f32 := iblk0 V c 5 t
abbrev blk6 (t : Fin cfg0.N) : Vec Ideal S1x16 .f32 := iblk0 V c 6 t
abbrev blk7 (t : Fin cfg0.N) : Vec Ideal S16x16 .f32 := iblk0 V c 7 t
abbrev blk8 (t : Fin cfg0.N) : Vec Ideal S1x16 .f32 := iblk0 V c 8 t

/-- The block indices, decided over the hundred points. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)

/-- Row `r` of block `t` is row `50000 t + r` of the array, which has that many rows. -/
theorem row_lt (t : Fin cfg0.N) (r : Fin 50000) : t.val * 50000 + r.val < 5000000 := by
  have h1 : t.val < 100 := lt_of_lt_of_eq t.isLt N_0
  have h2 := r.isLt
  omega

/-- Operand 0's block at point `t`, entry `(r, k)`, is the array's entry `(50000 t + r, k)`. -/
theorem blk0_apply (t : Fin cfg0.N) (r : Fin 50000) (k : Fin 16) :
    blk0 V c t (ix2 r k) = arr0 V c (ix2 ⟨t.val * 50000 + r.val, row_lt t r⟩ k) := by
  have hi := idx0 t
  show iblk0 V c 0 t (ix2 r k) = _
  unfold iblk0
  rw [View.read_apply]
  show V c (Pipeline.arrRef spec0 0) (((cfg0.win 0).blk t).view.emb (ix2 r k)) = V c (Pipeline.arrRef spec0 0) _
  congr 1
  funext a
  apply Fin.ext
  match a with
  | ⟨0, _⟩ => show win0_0.index t 0 * 50000 + 1 * r.val = t.val * 50000 + r.val; rw [hi.1]; omega
  | ⟨1, _⟩ => show win0_0.index t 1 * 16 + 1 * k.val = k.val; rw [hi.2]; omega

/-- Operand 1's block at point `t`, entry `(r, k)`, is the array's entry `(50000 t + r, k)`. -/
theorem blk1_apply (t : Fin cfg0.N) (r : Fin 50000) (k : Fin 16) :
    blk1 V c t (ix2 r k) = arr1 V c (ix2 ⟨t.val * 50000 + r.val, row_lt t r⟩ k) := by
  have hi := idx1 t
  show iblk0 V c 1 t (ix2 r k) = _
  unfold iblk0
  rw [View.read_apply]
  show V c (Pipeline.arrRef spec0 1) (((cfg0.win 1).blk t).view.emb (ix2 r k)) = V c (Pipeline.arrRef spec0 1) _
  congr 1
  funext a
  apply Fin.ext
  match a with
  | ⟨0, _⟩ => show win0_1.index t 0 * 50000 + 1 * r.val = t.val * 50000 + r.val; rw [hi.1]; omega
  | ⟨1, _⟩ => show win0_1.index t 1 * 16 + 1 * k.val = k.val; rw [hi.2]; omega

/-- Operand 2's block at point `t`, entry `(r, k)`, is the array's entry `(50000 t + r, k)`. -/
theorem blk2_apply (t : Fin cfg0.N) (r : Fin 50000) (k : Fin 16) :
    blk2 V c t (ix2 r k) = arr2 V c (ix2 ⟨t.val * 50000 + r.val, row_lt t r⟩ k) := by
  have hi := idx2 t
  show iblk0 V c 2 t (ix2 r k) = _
  unfold iblk0
  rw [View.read_apply]
  show V c (Pipeline.arrRef spec0 2) (((cfg0.win 2).blk t).view.emb (ix2 r k)) = V c (Pipeline.arrRef spec0 2) _
  congr 1
  funext a
  apply Fin.ext
  match a with
  | ⟨0, _⟩ => show win0_2.index t 0 * 50000 + 1 * r.val = t.val * 50000 + r.val; rw [hi.1]; omega
  | ⟨1, _⟩ => show win0_2.index t 1 * 16 + 1 * k.val = k.val; rw [hi.2]; omega

/-- Operand 3's block is its whole array at every point. -/
theorem blk3_eq (t : Fin cfg0.N) : blk3 V c t = arr3 V c := by
  have hi := idx3 t
  show iblk0 V c 3 t = _
  unfold iblk0
  have hoff : (fun a => win0_3.index t a * main_arg3.ty.shape.size a) = fun _ => 0 := funext fun a => by
    match a with
    | ⟨0, _⟩ => show win0_3.index t 0 * 16 = 0; rw [hi.1]
    | ⟨1, _⟩ => show win0_3.index t 1 * 16 = 0; rw [hi.2]
  exact Memref.read_access_unit_zero (Elt Ideal) main_arg3 hoff (fun a => by rw [congrFun hoff a]; simp)
    (V c (Pipeline.arrRef spec0 3))

/-- Operand 4's block is its whole array at every point. -/
theorem blk4_eq (t : Fin cfg0.N) : blk4 V c t = arr4 V c := by
  have hi := idx4 t
  show iblk0 V c 4 t = _
  unfold iblk0
  have hoff : (fun a => win0_4.index t a * main_v6.ty.shape.size a) = fun _ => 0 := funext fun a => by
    match a with
    | ⟨0, _⟩ => show win0_4.index t 0 * 1 = 0; rw [hi.1]
    | ⟨1, _⟩ => show win0_4.index t 1 * 16 = 0; rw [hi.2]
  exact Memref.read_access_unit_zero (Elt Ideal) main_v6 hoff (fun a => by rw [congrFun hoff a]; simp)
    (V c (Pipeline.arrRef spec0 4))

/-- Operand 5's block is its whole array at every point. -/
theorem blk5_eq (t : Fin cfg0.N) : blk5 V c t = arr5 V c := by
  have hi := idx5 t
  show iblk0 V c 5 t = _
  unfold iblk0
  have hoff : (fun a => win0_5.index t a * main_arg5.ty.shape.size a) = fun _ => 0 := funext fun a => by
    match a with
    | ⟨0, _⟩ => show win0_5.index t 0 * 16 = 0; rw [hi.1]
    | ⟨1, _⟩ => show win0_5.index t 1 * 16 = 0; rw [hi.2]
  exact Memref.read_access_unit_zero (Elt Ideal) main_arg5 hoff (fun a => by rw [congrFun hoff a]; simp)
    (V c (Pipeline.arrRef spec0 5))

/-- Operand 6's block is its whole array at every point. -/
theorem blk6_eq (t : Fin cfg0.N) : blk6 V c t = arr6 V c := by
  have hi := idx6 t
  show iblk0 V c 6 t = _
  unfold iblk0
  have hoff : (fun a => win0_6.index t a * main_v7.ty.shape.size a) = fun _ => 0 := funext fun a => by
    match a with
    | ⟨0, _⟩ => show win0_6.index t 0 * 1 = 0; rw [hi.1]
    | ⟨1, _⟩ => show win0_6.index t 1 * 16 = 0; rw [hi.2]
  exact Memref.read_access_unit_zero (Elt Ideal) main_v7 hoff (fun a => by rw [congrFun hoff a]; simp)
    (V c (Pipeline.arrRef spec0 6))

/-- Operand 7's block is its whole array at every point. -/
theorem blk7_eq (t : Fin cfg0.N) : blk7 V c t = arr7 V c := by
  have hi := idx7 t
  show iblk0 V c 7 t = _
  unfold iblk0
  have hoff : (fun a => win0_7.index t a * main_arg7.ty.shape.size a) = fun _ => 0 := funext fun a => by
    match a with
    | ⟨0, _⟩ => show win0_7.index t 0 * 16 = 0; rw [hi.1]
    | ⟨1, _⟩ => show win0_7.index t 1 * 16 = 0; rw [hi.2]
  exact Memref.read_access_unit_zero (Elt Ideal) main_arg7 hoff (fun a => by rw [congrFun hoff a]; simp)
    (V c (Pipeline.arrRef spec0 7))

/-- Operand 8's block is its whole array at every point. -/
theorem blk8_eq (t : Fin cfg0.N) : blk8 V c t = arr8 V c := by
  have hi := idx8 t
  show iblk0 V c 8 t = _
  unfold iblk0
  have hoff : (fun a => win0_8.index t a * main_v8.ty.shape.size a) = fun _ => 0 := funext fun a => by
    match a with
    | ⟨0, _⟩ => show win0_8.index t 0 * 1 = 0; rw [hi.1]
    | ⟨1, _⟩ => show win0_8.index t 1 * 16 = 0; rw [hi.2]
  exact Memref.read_access_unit_zero (Elt Ideal) main_v8 hoff (fun a => by rw [congrFun hoff a]; simp)
    (V c (Pipeline.arrRef spec0 8))

/-- The rows the body forms at point `t`: row `r` is the row of edge `50000 t + r`. -/
theorem rows_apply (t : Fin cfg0.N) (r : Fin 50000) (j : Fin 16) :
    k0_pay5 (F := Ideal) (blk0 V c t) (blk1 V c t) (blk2 V c t) (blk3 V c t) (blk4 V c t) (blk5 V c t) (blk6 V c t) (blk7 V c t) (blk8 V c t) (ix2 r j)
      = eRow V c ⟨t.val * 50000 + r.val, row_lt t r⟩ j := by
  refine (BlockLin.stats_rows_apply (blk0 V c t) (blk1 V c t) (blk2 V c t) (blk3 V c t) (blk4 V c t) (blk5 V c t) (blk6 V c t) (blk7 V c t) (blk8 V c t) r j).trans ?_
  unfold BlockLin.blockRow eRow EdgeNormSpec.linK
  simp only [blk0_apply V c t, blk1_apply V c t, blk2_apply V c t, blk3_eq V c t, blk4_eq V c t, blk5_eq V c t, blk6_eq V c t,
    blk7_eq V c t, blk8_eq V c t]

/-! ## The accumulators after each point -/

/-- The column sum of block `s`'s rows (zero past the last block, which no point reads). -/
def bsum (j : Fin 16) (s : ℕ) : EReal :=
  if h : s < 100 then ∑ r : Fin 50000, eRow V c ⟨s * 50000 + r.val, by have := r.isLt; omega⟩ j else 0

/-- The column sum of the squares of block `s`'s rows. -/
def bsumsq (j : Fin 16) (s : ℕ) : EReal :=
  if h : s < 100 then
    ∑ r : Fin 50000, eRow V c ⟨s * 50000 + r.val, by have := r.isLt; omega⟩ j * eRow V c ⟨s * 50000 + r.val, by have := r.isLt; omega⟩ j
  else 0

/-- What point `t` adds to the first accumulator at column `j`. -/
theorem added_sum (t : Fin cfg0.N) (j : Fin 16) :
    ∑ r : Fin 50000, k0_pay5 (F := Ideal) (blk0 V c t) (blk1 V c t) (blk2 V c t) (blk3 V c t) (blk4 V c t) (blk5 V c t) (blk6 V c t) (blk7 V c t) (blk8 V c t) (ix2 r j) = bsum V c j t.val := by
  have ht : t.val < 100 := lt_of_lt_of_eq t.isLt N_0
  unfold bsum
  rw [dif_pos ht]
  exact Finset.sum_congr rfl fun r _ => rows_apply V c t r j

/-- What point `t` adds to the second accumulator at column `j`. -/
theorem added_sumsq (t : Fin cfg0.N) (j : Fin 16) :
    ∑ r : Fin 50000, k0_pay5 (F := Ideal) (blk0 V c t) (blk1 V c t) (blk2 V c t) (blk3 V c t) (blk4 V c t) (blk5 V c t) (blk6 V c t) (blk7 V c t) (blk8 V c t) (ix2 r j)
        * k0_pay5 (F := Ideal) (blk0 V c t) (blk1 V c t) (blk2 V c t) (blk3 V c t) (blk4 V c t) (blk5 V c t) (blk6 V c t) (blk7 V c t) (blk8 V c t) (ix2 r j) = bsumsq V c j t.val := by
  have ht : t.val < 100 := lt_of_lt_of_eq t.isLt N_0
  unfold bsumsq
  rw [dif_pos ht]
  exact Finset.sum_congr rfl fun r _ => congrArg₂ (· * ·) (rows_apply V c t r j) (rows_apply V c t r j)

/-- After point `n` the two accumulators hold, at column `j`, the sums over the blocks `0 … n` of the blocks' column
    sums and column sums of squares: zero plus block 0's at the first point, one more block's at each later point. -/
theorem acc_eq (j : Fin 16) : ∀ (n : ℕ) (h : n < cfg0.N),
    ((outsAt0 V c n h).1 : Vec Ideal S1x16 .f32) (ix2 0 j) = ∑ s ∈ Finset.range (n + 1), bsum V c j s
      ∧ ((outsAt0 V c n h).2 : Vec Ideal S1x16 .f32) (ix2 0 j) = ∑ s ∈ Finset.range (n + 1), bsumsq V c j s
  | 0, h => by
    rw [outsAt0_A V c ⟨0, h⟩ rfl]
    dsimp only
    constructor
    · refine (congrFun (first_sum (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩)
        ((hcond0_0 ⟨0, h⟩).mpr rfl) (blk0 V c ⟨0, h⟩) (blk1 V c ⟨0, h⟩) (blk2 V c ⟨0, h⟩) (blk3 V c ⟨0, h⟩) (blk4 V c ⟨0, h⟩) (blk5 V c ⟨0, h⟩) (blk6 V c ⟨0, h⟩) (blk7 V c ⟨0, h⟩) (blk8 V c ⟨0, h⟩)) (ix2 0 j)).trans ?_
      rw [sum_update_apply, loaded_eq, reset_sum_apply, zero_add, Finset.sum_range_one]
      exact added_sum V c ⟨0, h⟩ j
    · refine (congrFun (first_sumsq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩)
        ((hcond0_0 ⟨0, h⟩).mpr rfl) (blk0 V c ⟨0, h⟩) (blk1 V c ⟨0, h⟩) (blk2 V c ⟨0, h⟩) (blk3 V c ⟨0, h⟩) (blk4 V c ⟨0, h⟩) (blk5 V c ⟨0, h⟩) (blk6 V c ⟨0, h⟩) (blk7 V c ⟨0, h⟩) (blk8 V c ⟨0, h⟩)) (ix2 0 j)).trans ?_
      rw [sumsq_update_apply, reset_sumsq_apply, zero_add, Finset.sum_range_one]
      exact added_sumsq V c ⟨0, h⟩ j
  | n + 1, h => by
    have hN : cfg0.N = 100 := N_0
    have hB : ¬(⟨n + 1, h⟩ : Fin cfg0.N).val % 100 = 0 := by dsimp only; omega
    obtain ⟨ih1, ih2⟩ := acc_eq j n (Nat.lt_of_succ_lt h)
    rw [outsAt0_B V c ⟨n + 1, h⟩ hB]
    dsimp only
    constructor
    · refine (congrFun (later_sum (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩)
        (fun hh => hB ((hcond0_0 ⟨n + 1, h⟩).mp hh)) (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) (blk6 V c ⟨n + 1, h⟩) (blk7 V c ⟨n + 1, h⟩) (blk8 V c ⟨n + 1, h⟩)
        (outsAt0 V c n (Nat.lt_of_succ_lt h)).1 (outsAt0 V c n (Nat.lt_of_succ_lt h)).2) (ix2 0 j)).trans ?_
      rw [sum_update_apply, loaded_eq, ih1, Finset.sum_range_succ _ (n + 1)]
      exact congrArg _ (added_sum V c ⟨n + 1, h⟩ j)
    · refine (congrFun (later_sumsq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩)
        (fun hh => hB ((hcond0_0 ⟨n + 1, h⟩).mp hh)) (blk0 V c ⟨n + 1, h⟩) (blk1 V c ⟨n + 1, h⟩) (blk2 V c ⟨n + 1, h⟩) (blk3 V c ⟨n + 1, h⟩) (blk4 V c ⟨n + 1, h⟩) (blk5 V c ⟨n + 1, h⟩) (blk6 V c ⟨n + 1, h⟩) (blk7 V c ⟨n + 1, h⟩) (blk8 V c ⟨n + 1, h⟩)
        (outsAt0 V c n (Nat.lt_of_succ_lt h)).1 (outsAt0 V c n (Nat.lt_of_succ_lt h)).2) (ix2 0 j)).trans ?_
      rw [sumsq_update_apply, ih2, Finset.sum_range_succ _ (n + 1)]
      exact congrArg _ (added_sumsq V c ⟨n + 1, h⟩ j)

/-! ## The two arrays after the region -/

/-- The last point is point 99. -/
theorem last_lt : 99 < cfg0.N := lt_of_lt_of_eq (by decide) N_0.symm

/-- The accumulators after a point depend on the point's number only. -/
theorem acc_congr (n m : ℕ) (hn : n < cfg0.N) (hm : m < cfg0.N) (e : n = m) : outsAt0 V c n hn = outsAt0 V c m hm := by
  subst e
  rfl

/-- Block `(0, 0)` of accumulator one's 1 × 16 array, through zero offsets, is the array: writing a block's contents
    back and reading the block of the same contents are one thing. -/
theorem whole_block9 (t : Fin cfg0.N) (X : Buf (Elt Ideal) ((c : Thread nD τ).loc main_v11_0)) :
    (cfg0.win 9).cut (grid0.coords t) X = ((cfg0.win 9).blk t).view.read (Elt Ideal) X := by
  have hi := idx9 t
  have hoff : (fun a => win0_9.index t a * main_v11_0.ty.shape.size a) = fun _ => 0 := funext fun a => by
    match a with
    | ⟨0, _⟩ => show win0_9.index t 0 * 1 = 0; rw [hi.1]
    | ⟨1, _⟩ => show win0_9.index t 1 * 16 = 0; rw [hi.2]
  exact (Memref.read_access_unit_zero (Elt Ideal) main_v11_0 hoff (fun a => by rw [congrFun hoff a]; simp) X).symm

/-- Block `(0, 0)` of accumulator two's 1 × 16 array, through zero offsets, is the array: writing a block's contents
    back and reading the block of the same contents are one thing. -/
theorem whole_block10 (t : Fin cfg0.N) (X : Buf (Elt Ideal) ((c : Thread nD τ).loc main_v11_1)) :
    (cfg0.win 10).cut (grid0.coords t) X = ((cfg0.win 10).blk t).view.read (Elt Ideal) X := by
  have hi := idx10 t
  have hoff : (fun a => win0_10.index t a * main_v11_1.ty.shape.size a) = fun _ => 0 := funext fun a => by
    match a with
    | ⟨0, _⟩ => show win0_10.index t 0 * 1 = 0; rw [hi.1]
    | ⟨1, _⟩ => show win0_10.index t 1 * 16 = 0; rw [hi.2]
  exact (Memref.read_access_unit_zero (Elt Ideal) main_v11_1 hoff (fun a => by rw [congrFun hoff a]; simp) X).symm

/-- Only the last point writes accumulator one back, and it writes what it left. -/
theorem flushed9 (t : Fin cfg0.N) (hf : (cfg0.win 9).flush t = true) :
    (dat0 V c).flushed 9 t
      = ((cfg0.win 9).blk t).view.read (Elt Ideal) ((outsAt0 V c 99 last_lt).1 : Buf (Elt Ideal) ((c : Thread nD τ).loc main_v11_0)) := by
  have hN : cfg0.N = 100 := N_0
  have ht : t.val = 99 := by have := (flush0_9 t).mp hf; have := t.isLt; omega
  show (cfg0.win 9).cut (grid0.coords t) ((dat0 V c).after 9 t) = _
  rewrite [after0_9, acc_congr V c t.val 99 t.isLt last_lt ht]
  generalize (outsAt0 V c 99 last_lt).1 = X
  exact whole_block9 c t X

/-- Only the last point writes accumulator two back, and it writes what it left. -/
theorem flushed10 (t : Fin cfg0.N) (hf : (cfg0.win 10).flush t = true) :
    (dat0 V c).flushed 10 t
      = ((cfg0.win 10).blk t).view.read (Elt Ideal) ((outsAt0 V c 99 last_lt).2 : Buf (Elt Ideal) ((c : Thread nD τ).loc main_v11_1)) := by
  have hN : cfg0.N = 100 := N_0
  have ht : t.val = 99 := by have := (flush0_10 t).mp hf; have := t.isLt; omega
  show (cfg0.win 10).cut (grid0.coords t) ((dat0 V c).after 10 t) = _
  rewrite [after0_10, acc_congr V c t.val 99 t.isLt last_lt ht]
  generalize (outsAt0 V c 99 last_lt).2 = X
  exact whole_block10 c t X

/-- That one block is the whole array, so the array ends holding what the last point left. -/
theorem final9 :
    (dat0 V c).arrAt 9 cfg0.N = ((outsAt0 V c 99 last_lt).1 : Buf (Elt Ideal) ((c : Thread nD τ).loc main_v11_0)) :=
  (dat0 V c).arrAt_eq_of_cover 9 ((outsAt0 V c 99 last_lt).1 : Buf (Elt Ideal) ((c : Thread nD τ).loc main_v11_0))
    (flushed9 V c) fun i =>
    ⟨⟨99, last_lt⟩, (flush0_9 ⟨99, last_lt⟩).mpr rfl, by
      have hi := idx9 ⟨99, last_lt⟩
      have h0 : (i 0 : Nat) < 1 := (i 0).isLt
      have h1 : (i 1 : Nat) < 16 := (i 1).isLt
      show i ∈ ((View.whole main_v11_0).slice (win0_9.rect ⟨99, last_lt⟩)).set
      rw [View.set_slice_whole, Rect.mem_set_unit]
      intro a
      match a with
      | ⟨0, _⟩ =>
        show win0_9.index ⟨99, last_lt⟩ 0 * 1 ≤ (i 0 : Nat) ∧ (i 0 : Nat) < win0_9.index ⟨99, last_lt⟩ 0 * 1 + 1
        rw [hi.1]; omega
      | ⟨1, _⟩ =>
        show win0_9.index ⟨99, last_lt⟩ 1 * 16 ≤ (i 1 : Nat) ∧ (i 1 : Nat) < win0_9.index ⟨99, last_lt⟩ 1 * 16 + 16
        rw [hi.2]; omega⟩

/-- That one block is the whole array, so the array ends holding what the last point left. -/
theorem final10 :
    (dat0 V c).arrAt 10 cfg0.N = ((outsAt0 V c 99 last_lt).2 : Buf (Elt Ideal) ((c : Thread nD τ).loc main_v11_1)) :=
  (dat0 V c).arrAt_eq_of_cover 10 ((outsAt0 V c 99 last_lt).2 : Buf (Elt Ideal) ((c : Thread nD τ).loc main_v11_1))
    (flushed10 V c) fun i =>
    ⟨⟨99, last_lt⟩, (flush0_10 ⟨99, last_lt⟩).mpr rfl, by
      have hi := idx10 ⟨99, last_lt⟩
      have h0 : (i 0 : Nat) < 1 := (i 0).isLt
      have h1 : (i 1 : Nat) < 16 := (i 1).isLt
      show i ∈ ((View.whole main_v11_1).slice (win0_10.rect ⟨99, last_lt⟩)).set
      rw [View.set_slice_whole, Rect.mem_set_unit]
      intro a
      match a with
      | ⟨0, _⟩ =>
        show win0_10.index ⟨99, last_lt⟩ 0 * 1 ≤ (i 0 : Nat) ∧ (i 0 : Nat) < win0_10.index ⟨99, last_lt⟩ 0 * 1 + 1
        rw [hi.1]; omega
      | ⟨1, _⟩ =>
        show win0_10.index ⟨99, last_lt⟩ 1 * 16 ≤ (i 1 : Nat) ∧ (i 1 : Nat) < win0_10.index ⟨99, last_lt⟩ 1 * 16 + 16
        rw [hi.2]; omega⟩

/-- The hundred blocks' sums, added up, are the sum over all edges. -/
theorem blocks_sum (j : Fin 16) : ∑ s ∈ Finset.range 100, bsum V c j s = EdgeNormSpec.sum1 (eRow V c) j := by
  unfold EdgeNormSpec.sum1
  rw [← EdgeNormSpec.sum_blocks (fun i => eRow V c i j), Finset.sum_range]
  refine Finset.sum_congr rfl fun t _ => ?_
  unfold bsum
  rw [dif_pos t.isLt]

/-- Likewise for the squares. -/
theorem blocks_sumsq (j : Fin 16) : ∑ s ∈ Finset.range 100, bsumsq V c j s = EdgeNormSpec.sum2 (eRow V c) j := by
  unfold EdgeNormSpec.sum2
  rw [← EdgeNormSpec.sum_blocks (fun i => eRow V c i j * eRow V c i j), Finset.sum_range]
  refine Finset.sum_congr rfl fun t _ => ?_
  unfold bsumsq
  rw [dif_pos t.isLt]

/-- After the region the first accumulator's array holds each column's sum over all edges. -/
theorem sum_final (j : Fin 16) :
    ((dat0 (F := Ideal) V c).arrAt 9 cfg0.N : S1x16.Idx → EReal) (ix2 0 j) = EdgeNormSpec.sum1 (eRow V c) j := by
  refine (congrFun (final9 V c) (ix2 0 j)).trans ?_
  exact ((acc_eq V c j 99 last_lt).1).trans (blocks_sum V c j)

/-- After the region the second accumulator's array holds each column's sum of squares over all edges. -/
theorem sumsq_final (j : Fin 16) :
    ((dat0 (F := Ideal) V c).arrAt 10 cfg0.N : S1x16.Idx → EReal) (ix2 0 j) = EdgeNormSpec.sum2 (eRow V c) j := by
  refine (congrFun (final10 V c) (ix2 0 j)).trans ?_
  exact ((acc_eq V c j 99 last_lt).2).trans (blocks_sumsq V c j)

end Cert.KernelIdeal.Stats

end
-- ==== Proof.NormRegion.lean ====
/-
  The second kernel region: every grid point normalises its own block of fifty thousand rows.

  Point `t` reads block `t` of the three 5000000 × 16 operands and the whole of the ten small ones — the six weights
  and biases, the column means and variances, the scale and the shift —, forms the block's rows of `e` again, and
  stores `ea + max (((e − mean) · rsqrt (var + ε)) · scale + shift) 0` as block `t` of the result. The hundred blocks
  tile the result array, so the array ends holding that expression at every entry.
-/
import proofs.«408767_j31671088841192_1_alg».proof.Proof.Gen.KernelIdeal.Frame
import proofs.«408767_j31671088841192_1_alg».proof.Proof.EdgeNormSpec
import proofs.«408767_j31671088841192_1_alg».proof.Proof.Curry
import proofs.«408767_j31671088841192_1_alg».proof.Proof.BlockLin
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Norm

open Idealize.ShloMosaic Idealize.ShloMosaic.TcCoe Idealize.SL.Sem Idealize.ShloMosaic.ValueIdx
open Idealize.ShloMosaic.Pipeline (Dat)
open Cert.KernelIdeal Cert.KernelIdeal.Gen Cert.Proof Cert.Proof.Curry

/-! ## One entry of what the body stores, from the blocks it loads -/

/-- The zero offsets of a whole-buffer load or store, as the constant function. -/
theorem hz : (![0, 0] : Fin 2 → Nat) = fun _ => 0 := funext fun a => by fin_cases a <;> rfl

/-- The stored value at row `r`, column `j`: every operation is entrywise but the four broadcasts of a one-row operand
    down the block, which read the row at column `j`; the splat of the zero word is the number zero. -/
theorem pay1_apply (v0 v27 : Vec Ideal S50000x16 .f32) (v29 v31 v32 v34 : Vec Ideal S1x16 .f32) (r : Fin 50000) (j : Fin 16) :
    k1_pay1 (F := Ideal) v0 v27 v29 v31 v32 v34 (ix2 r j)
      = EdgeNormSpec.normOut (v0 (ix2 r j)) (v27 (ix2 r j)) (v29 (ix2 0 j)) (v31 (ix2 0 j)) (v32 (ix2 0 j)) (v34 (ix2 0 j)) := by
  unfold k1_pay1 EdgeNormSpec.normOut EdgeNormSpec.eps
  rw [shapeCast_self v32, shapeCast_self v34]
  simp only [addf_apply, maximumf_apply, mulf_apply, subf_apply, broadcast_apply]
  rw [broadcastTo_1b_ab_apply v29, broadcastTo_1b_ab_apply v32, broadcastTo_1b_ab_apply v34, broadcastTo_1b_ab_apply (rsqrt _)]
  simp only [Ideal.ofBits_def, Ideal.ofBits_zero_f32]
  rfl

/-- The body loads its thirteen input buffers whole and stores once, over the whole output buffer: what it leaves there is
    the stored value of the loaded blocks. -/
theorem out_eq (x0 x1 x2 : Vec Ideal S50000x16 .f32) (x3 : Vec Ideal S16x16 .f32) (x4 : Vec Ideal S1x16 .f32)
    (x5 : Vec Ideal S16x16 .f32) (x6 : Vec Ideal S1x16 .f32) (x7 : Vec Ideal S16x16 .f32) (x8 x9 x10 x11 x12 : Vec Ideal S1x16 .f32) :
    out1_13 (F := Ideal) x0 x1 x2 x3 x4 x5 x6 x7 x8 x9 x10 x11 x12
      = k1_pay1 x0 (k1_pay2 x0 x1 x2 x3 x4 x5 x6 x7 x8) (k1_pay3 x9) (k1_pay4 x10) x11 x12 := by
  unfold out1_13
  rw [View.canon_unit_zero hz]
  simp only [View.ld_unit_zero (S := S50000x16) hz, View.ld_unit_zero (S := S16x16) hz, View.ld_unit_zero (S := S1x16) hz]

/-- So at row `r`, column `j` the output buffer holds the normalised expression of the block's own entry, the block's row of
    `e`, and the mean, variance, scale and shift rows at column `j`. -/
theorem out_apply (x0 x1 x2 : Vec Ideal S50000x16 .f32) (x3 : Vec Ideal S16x16 .f32) (x4 : Vec Ideal S1x16 .f32)
    (x5 : Vec Ideal S16x16 .f32) (x6 : Vec Ideal S1x16 .f32) (x7 : Vec Ideal S16x16 .f32) (x8 x9 x10 x11 x12 : Vec Ideal S1x16 .f32)
    (r : Fin 50000) (j : Fin 16) :
    out1_13 (F := Ideal) x0 x1 x2 x3 x4 x5 x6 x7 x8 x9 x10 x11 x12 (ix2 r j)
      = EdgeNormSpec.normOut (x0 (ix2 r j)) (BlockLin.blockRow x0 x1 x2 x3 x4 x5 x6 x7 x8 r j)
          (x9 (ix2 0 j)) (x10 (ix2 0 j)) (x11 (ix2 0 j)) (x12 (ix2 0 j)) := by
  rw [out_eq, pay1_apply, BlockLin.norm_rows_apply]
  unfold k1_pay3 k1_pay4
  rw [shapeCast_self x9, shapeCast_self x10]

/-- An entry of what the body leaves, when the three large blocks' rows `r` are rows `p` of three arrays and the ten small
    blocks are ten arrays read whole: the normalised expression of those arrays at `(p, j)`. -/
theorem entry_eq (x0 x1 x2 : Vec Ideal S50000x16 .f32) (x3 : Vec Ideal S16x16 .f32) (x4 : Vec Ideal S1x16 .f32)
    (x5 : Vec Ideal S16x16 .f32) (x6 : Vec Ideal S1x16 .f32) (x7 : Vec Ideal S16x16 .f32) (x8 x9 x10 x11 x12 : Vec Ideal S1x16 .f32)
    (A0 A1 A2 : S5000000x16.Idx → EReal) (A3 : S16x16.Idx → EReal) (A4 : S1x16.Idx → EReal) (A5 : S16x16.Idx → EReal)
    (A6 : S1x16.Idx → EReal) (A7 : S16x16.Idx → EReal) (A8 A9 A10 A11 A12 : S1x16.Idx → EReal)
    (r : Fin 50000) (j : Fin 16) (p : Fin 5000000)
    (h0 : ∀ k : Fin 16, x0 (ix2 r k) = A0 (ix2 p k)) (h1 : ∀ k : Fin 16, x1 (ix2 r k) = A1 (ix2 p k))
    (h2 : ∀ k : Fin 16, x2 (ix2 r k) = A2 (ix2 p k))
    (h3 : x3 = A3) (h4 : x4 = A4) (h5 : x5 = A5) (h6 : x6 = A6) (h7 : x7 = A7) (h8 : x8 = A8) (h9 : x9 = A9)
    (h10 : x10 = A10) (h11 : x11 = A11) (h12 : x12 = A12) :
    out1_13 (F := Ideal) x0 x1 x2 x3 x4 x5 x6 x7 x8 x9 x10 x11 x12 (ix2 r j)
      = EdgeNormSpec.normOut (A0 (ix2 p j))
          (EdgeNormSpec.linK (cur2 A0) (cur2 A1) (cur2 A2) (cur2 A3) (cur2 A5) (cur2 A7) (row0 A4) (row0 A6) (row0 A8) p j)
          (A9 (ix2 0 j)) (A10 (ix2 0 j)) (A11 (ix2 0 j)) (A12 (ix2 0 j)) := by
  subst h3 h4 h5 h6 h7 h8 h9 h10 h11 h12
  rw [out_apply, h0 j]
  unfold BlockLin.blockRow EdgeNormSpec.linK
  simp only [h0, h1, h2]

/-! ## Where each window's block sits in its array -/

/-- The three large operands and the result move one block of rows per grid point: block index `(t, 0)`. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_13.index t (0 : Fin 2) = t.val ∧ win1_13.index t (1 : Fin 2) = 0) :=
  (by decide +kernel : ∀ t : Fin grid1.N, _)

/-- The ten small operands are read whole at every grid point: block index `(0, 0)`. -/
theorem idx_small : ∀ t : Fin cfg1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0) :=
  (by decide +kernel : ∀ t : Fin grid1.N, _)

variable (V : (c : Dev nD) → (b : Ref sig .tc) → Buf (Elt Ideal) ((c : Thread nD τ).loc b)) (c : Dev nD)

/-- The row of edge `i`, from the region's first nine input arrays as the region finds them. -/
def eRow (i : Fin 5000000) (j : Fin 16) : EReal :=
  EdgeNormSpec.linK
    (cur2 (V c (Pipeline.arrRef spec1 0) : S5000000x16.Idx → EReal))
    (cur2 (V c (Pipeline.arrRef spec1 1) : S5000000x16.Idx → EReal))
    (cur2 (V c (Pipeline.arrRef spec1 2) : S5000000x16.Idx → EReal))
    (cur2 (V c (Pipeline.arrRef spec1 3) : S16x16.Idx → EReal))
    (cur2 (V c (Pipeline.arrRef spec1 5) : S16x16.Idx → EReal))
    (cur2 (V c (Pipeline.arrRef spec1 7) : S16x16.Idx → EReal))
    (row0 (V c (Pipeline.arrRef spec1 4) : S1x16.Idx → EReal))
    (row0 (V c (Pipeline.arrRef spec1 6) : S1x16.Idx → EReal))
    (row0 (V c (Pipeline.arrRef spec1 8) : S1x16.Idx → EReal)) i j

/-- Block `t` of the first large operand is rows `50000 t … 50000 t + 49999` of its array. -/
theorem iblk_rows0 (t : Fin cfg1.N) (y : S50000x16.Idx) (i : S5000000x16.Idx)
    (h0 : (i 0).val = t.val * 50000 + (y 0).val) (h1 : (i 1).val = (y 1).val) :
    (iblk1 (F := Ideal) V c 0 t : Vec Ideal S50000x16 .f32) y = (V c (Pipeline.arrRef spec1 0) : S5000000x16.Idx → EReal) i := by
  obtain ⟨e0, e1⟩ := (idx_rows t).1
  show (V c (Pipeline.arrRef spec1 0) : S5000000x16.Idx → EReal) (((cfg1.win 0).blk t).view.emb y) = _
  refine congrArg (V c (Pipeline.arrRef spec1 0) : S5000000x16.Idx → EReal) ?_
  funext a; apply Fin.ext
  match a with
  | ⟨0, _⟩ => show win1_0.index t (0 : Fin 2) * 50000 + 1 * (y 0).val = (i 0).val; rw [e0, h0]; omega
  | ⟨1, _⟩ => show win1_0.index t (1 : Fin 2) * 16 + 1 * (y 1).val = (i 1).val; rw [e1, h1]; omega

/-- Block `t` of the second large operand is the same rows of its array. -/
theorem iblk_rows1 (t : Fin cfg1.N) (y : S50000x16.Idx) (i : S5000000x16.Idx)
    (h0 : (i 0).val = t.val * 50000 + (y 0).val) (h1 : (i 1).val = (y 1).val) :
    (iblk1 (F := Ideal) V c 1 t : Vec Ideal S50000x16 .f32) y = (V c (Pipeline.arrRef spec1 1) : S5000000x16.Idx → EReal) i := by
  obtain ⟨e0, e1⟩ := (idx_rows t).2.1
  show (V c (Pipeline.arrRef spec1 1) : S5000000x16.Idx → EReal) (((cfg1.win 1).blk t).view.emb y) = _
  refine congrArg (V c (Pipeline.arrRef spec1 1) : S5000000x16.Idx → EReal) ?_
  funext a; apply Fin.ext
  match a with
  | ⟨0, _⟩ => show win1_1.index t (0 : Fin 2) * 50000 + 1 * (y 0).val = (i 0).val; rw [e0, h0]; omega
  | ⟨1, _⟩ => show win1_1.index t (1 : Fin 2) * 16 + 1 * (y 1).val = (i 1).val; rw [e1, h1]; omega

/-- Block `t` of the third large operand is the same rows of its array. -/
theorem iblk_rows2 (t : Fin cfg1.N) (y : S50000x16.Idx) (i : S5000000x16.Idx)
    (h0 : (i 0).val = t.val * 50000 + (y 0).val) (h1 : (i 1).val = (y 1).val) :
    (iblk1 (F := Ideal) V c 2 t : Vec Ideal S50000x16 .f32) y = (V c (Pipeline.arrRef spec1 2) : S5000000x16.Idx → EReal) i := by
  obtain ⟨e0, e1⟩ := (idx_rows t).2.2.1
  show (V c (Pipeline.arrRef spec1 2) : S5000000x16.Idx → EReal) (((cfg1.win 2).blk t).view.emb y) = _
  refine congrArg (V c (Pipeline.arrRef spec1 2) : S5000000x16.Idx → EReal) ?_
  funext a; apply Fin.ext
  match a with
  | ⟨0, _⟩ => show win1_2.index t (0 : Fin 2) * 50000 + 1 * (y 0).val = (i 0).val; rw [e0, h0]; omega
  | ⟨1, _⟩ => show win1_2.index t (1 : Fin 2) * 16 + 1 * (y 1).val = (i 1).val; rw [e1, h1]; omega

/-- The first weight matrix is read whole at every grid point: a block at index `(0, 0)` of the array's own size. -/
theorem iblk_whole3 (t : Fin cfg1.N) :
    (iblk1 (F := Ideal) V c 3 t : Vec Ideal S16x16 .f32) = (V c (Pipeline.arrRef spec1 3) : S16x16.Idx → EReal) := by
  obtain ⟨e0, e1⟩ := (idx_small t).1
  funext y
  show (V c (Pipeline.arrRef spec1 3) : S16x16.Idx → EReal) (((cfg1.win 3).blk t).view.emb y) = _
  refine congrArg (V c (Pipeline.arrRef spec1 3) : S16x16.Idx → EReal) ?_
  funext a; apply Fin.ext
  match a with
  | ⟨0, _⟩ => show win1_3.index t (0 : Fin 2) * 16 + 1 * (y 0).val = (y 0).val; rw [e0]; omega
  | ⟨1, _⟩ => show win1_3.index t (1 : Fin 2) * 16 + 1 * (y 1).val = (y 1).val; rw [e1]; omega

/-- The first bias row is read whole at every grid point. -/
theorem iblk_whole4 (t : Fin cfg1.N) :
    (iblk1 (F := Ideal) V c 4 t : Vec Ideal S1x16 .f32) = (V c (Pipeline.arrRef spec1 4) : S1x16.Idx → EReal) := by
  obtain ⟨e0, e1⟩ := (idx_small t).2.1
  funext y
  show (V c (Pipeline.arrRef spec1 4) : S1x16.Idx → EReal) (((cfg1.win 4).blk t).view.emb y) = _
  refine congrArg (V c (Pipeline.arrRef spec1 4) : S1x16.Idx → EReal) ?_
  funext a; apply Fin.ext
  match a with
  | ⟨0, _⟩ => show win1_4.index t (0 : Fin 2) * 1 + 1 * (y 0).val = (y 0).val; rw [e0]; omega
  | ⟨1, _⟩ => show win1_4.index t (1 : Fin 2) * 16 + 1 * (y 1).val = (y 1).val; rw [e1]; omega

/-- The second weight matrix is read whole at every grid point. -/
theorem iblk_whole5 (t : Fin cfg1.N) :
    (iblk1 (F := Ideal) V c 5 t : Vec Ideal S16x16 .f32) = (V c (Pipeline.arrRef spec1 5) : S16x16.Idx → EReal) := by
  obtain ⟨e0, e1⟩ := (idx_small t).2.2.1
  funext y
  show (V c (Pipeline.arrRef spec1 5) : S16x16.Idx → EReal) (((cfg1.win 5).blk t).view.emb y) = _
  refine congrArg (V c (Pipeline.arrRef spec1 5) : S16x16.Idx → EReal) ?_
  funext a; apply Fin.ext
  match a with
  | ⟨0, _⟩ => show win1_5.index t (0 : Fin 2) * 16 + 1 * (y 0).val = (y 0).val; rw [e0]; omega
  | ⟨1, _⟩ => show win1_5.index t (1 : Fin 2) * 16 + 1 * (y 1).val = (y 1).val; rw [e1]; omega

/-- The second bias row is read whole at every grid point. -/
theorem iblk_whole6 (t : Fin cfg1.N) :
    (iblk1 (F := Ideal) V c 6 t : Vec Ideal S1x16 .f32) = (V c (Pipeline.arrRef spec1 6) : S1x16.Idx → EReal) := by
  obtain ⟨e0, e1⟩ := (idx_small t).2.2.2.1
  funext y
  show (V c (Pipeline.arrRef spec1 6) : S1x16.Idx → EReal) (((cfg1.win 6).blk t).view.emb y) = _
  refine congrArg (V c (Pipeline.arrRef spec1 6) : S1x16.Idx → EReal) ?_
  funext a; apply Fin.ext
  match a with
  | ⟨0, _⟩ => show win1_6.index t (0 : Fin 2) * 1 + 1 * (y 0).val = (y 0).val; rw [e0]; omega
  | ⟨1, _⟩ => show win1_6.index t (1 : Fin 2) * 16 + 1 * (y 1).val = (y 1).val; rw [e1]; omega

/-- The third weight matrix is read whole at every grid point. -/
theorem iblk_whole7 (t : Fin cfg1.N) :
    (iblk1 (F := Ideal) V c 7 t : Vec Ideal S16x16 .f32) = (V c (Pipeline.arrRef spec1 7) : S16x16.Idx → EReal) := by
  obtain ⟨e0, e1⟩ := (idx_small t).2.2.2.2.1
  funext y
  show (V c (Pipeline.arrRef spec1 7) : S16x16.Idx → EReal) (((cfg1.win 7).blk t).view.emb y) = _
  refine congrArg (V c (Pipeline.arrRef spec1 7) : S16x16.Idx → EReal) ?_
  funext a; apply Fin.ext
  match a with
  | ⟨0, _⟩ => show win1_7.index t (0 : Fin 2) * 16 + 1 * (y 0).val = (y 0).val; rw [e0]; omega
  | ⟨1, _⟩ => show win1_7.index t (1 : Fin 2) * 16 + 1 * (y 1).val = (y 1).val; rw [e1]; omega

/-- The third bias row is read whole at every grid point. -/
theorem iblk_whole8 (t : Fin cfg1.N) :
    (iblk1 (F := Ideal) V c 8 t : Vec Ideal S1x16 .f32) = (V c (Pipeline.arrRef spec1 8) : S1x16.Idx → EReal) := by
  obtain ⟨e0, e1⟩ := (idx_small t).2.2.2.2.2.1
  funext y
  show (V c (Pipeline.arrRef spec1 8) : S1x16.Idx → EReal) (((cfg1.win 8).blk t).view.emb y) = _
  refine congrArg (V c (Pipeline.arrRef spec1 8) : S1x16.Idx → EReal) ?_
  funext a; apply Fin.ext
  match a with
  | ⟨0, _⟩ => show win1_8.index t (0 : Fin 2) * 1 + 1 * (y 0).val = (y 0).val; rw [e0]; omega
  | ⟨1, _⟩ => show win1_8.index t (1 : Fin 2) * 16 + 1 * (y 1).val = (y 1).val; rw [e1]; omega

/-- The row of column means is read whole at every grid point. -/
theorem iblk_whole9 (t : Fin cfg1.N) :
    (iblk1 (F := Ideal) V c 9 t : Vec Ideal S1x16 .f32) = (V c (Pipeline.arrRef spec1 9) : S1x16.Idx → EReal) := by
  obtain ⟨e0, e1⟩ := (idx_small t).2.2.2.2.2.2.1
  funext y
  show (V c (Pipeline.arrRef spec1 9) : S1x16.Idx → EReal) (((cfg1.win 9).blk t).view.emb y) = _
  refine congrArg (V c (Pipeline.arrRef spec1 9) : S1x16.Idx → EReal) ?_
  funext a; apply Fin.ext
  match a with
  | ⟨0, _⟩ => show win1_9.index t (0 : Fin 2) * 1 + 1 * (y 0).val = (y 0).val; rw [e0]; omega
  | ⟨1, _⟩ => show win1_9.index t (1 : Fin 2) * 16 + 1 * (y 1).val = (y 1).val; rw [e1]; omega

/-- The row of column variances is read whole at every grid point. -/
theorem iblk_whole10 (t : Fin cfg1.N) :
    (iblk1 (F := Ideal) V c 10 t : Vec Ideal S1x16 .f32) = (V c (Pipeline.arrRef spec1 10) : S1x16.Idx → EReal) := by
  obtain ⟨e0, e1⟩ := (idx_small t).2.2.2.2.2.2.2.1
  funext y
  show (V c (Pipeline.arrRef spec1 10) : S1x16.Idx → EReal) (((cfg1.win 10).blk t).view.emb y) = _
  refine congrArg (V c (Pipeline.arrRef spec1 10) : S1x16.Idx → EReal) ?_
  funext a; apply Fin.ext
  match a with
  | ⟨0, _⟩ => show win1_10.index t (0 : Fin 2) * 1 + 1 * (y 0).val = (y 0).val; rw [e0]; omega
  | ⟨1, _⟩ => show win1_10.index t (1 : Fin 2) * 16 + 1 * (y 1).val = (y 1).val; rw [e1]; omega

/-- The scale row is read whole at every grid point. -/
theorem iblk_whole11 (t : Fin cfg1.N) :
    (iblk1 (F := Ideal) V c 11 t : Vec Ideal S1x16 .f32) = (V c (Pipeline.arrRef spec1 11) : S1x16.Idx → EReal) := by
  obtain ⟨e0, e1⟩ := (idx_small t).2.2.2.2.2.2.2.2.1
  funext y
  show (V c (Pipeline.arrRef spec1 11) : S1x16.Idx → EReal) (((cfg1.win 11).blk t).view.emb y) = _
  refine congrArg (V c (Pipeline.arrRef spec1 11) : S1x16.Idx → EReal) ?_
  funext a; apply Fin.ext
  match a with
  | ⟨0, _⟩ => show win1_11.index t (0 : Fin 2) * 1 + 1 * (y 0).val = (y 0).val; rw [e0]; omega
  | ⟨1, _⟩ => show win1_11.index t (1 : Fin 2) * 16 + 1 * (y 1).val = (y 1).val; rw [e1]; omega

/-- The shift row is read whole at every grid point. -/
theorem iblk_whole12 (t : Fin cfg1.N) :
    (iblk1 (F := Ideal) V c 12 t : Vec Ideal S1x16 .f32) = (V c (Pipeline.arrRef spec1 12) : S1x16.Idx → EReal) := by
  obtain ⟨e0, e1⟩ := (idx_small t).2.2.2.2.2.2.2.2.2
  funext y
  show (V c (Pipeline.arrRef spec1 12) : S1x16.Idx → EReal) (((cfg1.win 12).blk t).view.emb y) = _
  refine congrArg (V c (Pipeline.arrRef spec1 12) : S1x16.Idx → EReal) ?_
  funext a; apply Fin.ext
  match a with
  | ⟨0, _⟩ => show win1_12.index t (0 : Fin 2) * 1 + 1 * (y 0).val = (y 0).val; rw [e0]; omega
  | ⟨1, _⟩ => show win1_12.index t (1 : Fin 2) * 16 + 1 * (y 1).val = (y 1).val; rw [e1]; omega

/-! ## From the blocks to the array -/

/-- What the result array ends holding at row `i`, column `j`. -/
def outAt (i : Fin 5000000) (j : Fin 16) : EReal :=
  EdgeNormSpec.normOut ((V c (Pipeline.arrRef spec1 0) : S5000000x16.Idx → EReal) (ix2 i j)) (eRow V c i j)
    ((V c (Pipeline.arrRef spec1 9) : S1x16.Idx → EReal) (ix2 0 j))
    ((V c (Pipeline.arrRef spec1 10) : S1x16.Idx → EReal) (ix2 0 j))
    ((V c (Pipeline.arrRef spec1 11) : S1x16.Idx → EReal) (ix2 0 j))
    ((V c (Pipeline.arrRef spec1 12) : S1x16.Idx → EReal) (ix2 0 j))

/-- The same as one function of the array's index. -/
def outArr : S5000000x16.Idx → EReal := fun idx => outAt V c (idx 0) (idx 1)

/-- Entry `y` of what point `t` leaves is the result's value at the array index `i` that `y` names: row
    `50000 t + y₀`, column `y₁`. -/
theorem block_entry (t : Fin cfg1.N) (y : S50000x16.Idx) (i : S5000000x16.Idx)
    (h0 : (i 0).val = t.val * 50000 + (y 0).val) (h1 : (i 1).val = (y 1).val) :
    out1_13 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) (iblk1 V c 12 t) y
      = outArr V c i := by
  obtain ⟨r, j, rfl⟩ : ∃ (r : Fin 50000) (j : Fin 16), y = ix2 r j := ⟨y 0, y 1, eq_ix2 y⟩
  obtain ⟨p, q, rfl⟩ : ∃ (p : Fin 5000000) (q : Fin 16), i = ix2 p q := ⟨i 0, i 1, eq_ix2 i⟩
  have hq : q = j := Fin.ext h1
  subst hq
  have hp : p.val = t.val * 50000 + r.val := h0
  exact entry_eq (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8))
    (V c (Pipeline.arrRef spec1 9)) (V c (Pipeline.arrRef spec1 10)) (V c (Pipeline.arrRef spec1 11))
    (V c (Pipeline.arrRef spec1 12)) r q p
    (fun k => iblk_rows0 V c t (ix2 r k) (ix2 p k) hp rfl) (fun k => iblk_rows1 V c t (ix2 r k) (ix2 p k) hp rfl)
    (fun k => iblk_rows2 V c t (ix2 r k) (ix2 p k) hp rfl)
    (iblk_whole3 V c t) (iblk_whole4 V c t) (iblk_whole5 V c t) (iblk_whole6 V c t) (iblk_whole7 V c t)
    (iblk_whole8 V c t) (iblk_whole9 V c t) (iblk_whole10 V c t) (iblk_whole11 V c t) (iblk_whole12 V c t)

/-- What point `t` writes back is block `t` of the result's function of the arrays: the result's block sits at block index
    `(t, 0)`, so its entry `y` is the array's entry at row `50000 t + y₀`, column `y₁`. -/
theorem flushed_eq (t : Fin cfg1.N) :
    (dat1 (F := Ideal) V c).flushed 13 t = ((cfg1.win 13).blk t).view.read (Elt Ideal) (outArr V c) := by
  show (cfg1.win 13).cut (grid1.coords t) ((dat1 (F := Ideal) V c).after 13 t) = _
  rw [after1_13]
  obtain ⟨e0, e1⟩ := (idx_rows t).2.2.2
  funext y
  refine block_entry V c t y (((cfg1.win 13).blk t).view.emb y) ?_ ?_
  · show win1_13.index t (0 : Fin 2) * 50000 + 1 * (y 0).val = t.val * 50000 + (y 0).val
    rw [e0]; omega
  · show win1_13.index t (1 : Fin 2) * 16 + 1 * (y 1).val = (y 1).val
    rw [e1]; omega

/-- An index of the result array is in point `t`'s block iff each coordinate is in the block's range on its axis. -/
theorem mem_blk (t : Fin cfg1.N) (i : S5000000x16.Idx) :
    i ∈ ((cfg1.win 13).blk t).view.set ↔ ∀ a : Fin 2, win1_13.index t a * S50000x16.size a ≤ (i a).val
      ∧ (i a).val < win1_13.index t a * S50000x16.size a + S50000x16.size a := by
  show i ∈ ((View.whole main_v18).slice (win1_13.rect t)).set ↔ _
  rw [View.set_slice_whole, Rect.mem_set_unit]
  exact Iff.rfl

/-- Row `i₀` lies in the block of point `i₀ / 50000`, and every point writes its block back: the hundred blocks tile
    the array. -/
theorem cover (i : S5000000x16.Idx) :
    ∃ t : Fin cfg1.N, (cfg1.win 13).flush t = true ∧ i ∈ ((cfg1.win 13).blk t).view.set := by
  have hi0 : (i 0).val < 5000000 := idx2_lt0 i
  have hi1 : (i 1).val < 16 := idx2_lt1 i
  have hN : cfg1.N = 100 := N_1
  have ht : (i 0).val / 50000 < cfg1.N := by rw [hN]; omega
  obtain ⟨e0, e1⟩ := (idx_rows ⟨(i 0).val / 50000, ht⟩).2.2.2
  have e0' : win1_13.index ⟨(i 0).val / 50000, ht⟩ (0 : Fin 2) = (i 0).val / 50000 := e0
  refine ⟨⟨(i 0).val / 50000, ht⟩, flush1_13 _, ?_⟩
  rw [mem_blk]
  intro a
  match a with
  | ⟨0, _⟩ =>
    show win1_13.index ⟨(i 0).val / 50000, ht⟩ (0 : Fin 2) * 50000 ≤ (i 0).val
      ∧ (i 0).val < win1_13.index ⟨(i 0).val / 50000, ht⟩ (0 : Fin 2) * 50000 + 50000
    rw [e0']; omega
  | ⟨1, _⟩ =>
    show win1_13.index ⟨(i 0).val / 50000, ht⟩ (1 : Fin 2) * 16 ≤ (i 1).val
      ∧ (i 1).val < win1_13.index ⟨(i 0).val / 50000, ht⟩ (1 : Fin 2) * 16 + 16
    rw [e1]; omega

/-- After the region the result array holds the normalised expression at every entry: the edge's own attribute, its row
    of `e`, and the four one-row operands (mean, variance, scale, shift) read at the entry's column. -/
theorem out_final (i : Fin 5000000) (j : Fin 16) :
    ((dat1 (F := Ideal) V c).arrAt 13 cfg1.N : S5000000x16.Idx → EReal) (ix2 i j)
      = EdgeNormSpec.normOut ((V c (Pipeline.arrRef spec1 0) : S5000000x16.Idx → EReal) (ix2 i j)) (eRow V c i j)
          ((V c (Pipeline.arrRef spec1 9) : S1x16.Idx → EReal) (ix2 0 j))
          ((V c (Pipeline.arrRef spec1 10) : S1x16.Idx → EReal) (ix2 0 j))
          ((V c (Pipeline.arrRef spec1 11) : S1x16.Idx → EReal) (ix2 0 j))
          ((V c (Pipeline.arrRef spec1 12) : S1x16.Idx → EReal) (ix2 0 j)) := by
  -- The blocks written back cover the array, so it ends as the one function of the arrays; read it at `(i, j)`.
  have h := (dat1 (F := Ideal) V c).arrAt_eq_of_cover 13 (outArr V c) (fun t _ => flushed_eq V c t) (cover)
  exact congrFun h (ix2 i j)

end Cert.KernelIdeal.Norm

end
-- ==== Proof.HostStretch.lean ====
/-
  The kernel program's host operations before its first region, read at the nine arrays that region takes.

  Before the first region the program slices and reshapes the two rows of node indices, gathers the node features
  twice, and reshapes the three biases, the scale and the shift from 16 entries to one row of 16. No host operation
  writes an argument array.
-/
import proofs.«408767_j31671088841192_1_alg».proof.Proof.Gen.KernelIdeal.Frame
import proofs.«408767_j31671088841192_1_alg».proof.Proof.EdgeNormSpec
import proofs.«408767_j31671088841192_1_alg».proof.Proof.Take
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws
import Idealize.ShloMosaic.Lib.Tactic

set_option Elab.async false

noncomputable section

namespace Cert.KernelIdeal.Host

open Idealize.ShloMosaic Idealize.ShloMosaic.TcCoe Idealize.SL.Sem Idealize.ShloMosaic.ValueIdx
open Idealize.ShloMosaic.Pipeline (Dat)
open Cert.KernelIdeal Cert.KernelIdeal.Gen Cert.Proof

/-! ## Contents at a typed reference

An operation of a called function reads and writes its buffers at the tensor types the function states, carrying the
contents between a buffer's own type and the stated one. The two carryings cancel, and at the buffer's own type each is
the identity. -/

/-- Contents carried to a reference's own type and back are the contents. -/
theorem ofBuf_toBuf {Val : EltTy → Type} {T : BufTy} (r : Ref sig .tc) (h h' : r.ty = T)
    (d d' : r.space ≠ .host) (u u' : r.isScoped = false) (v : T.Contents Val) :
    (StableHlo.TRef.of r h d u).ofBuf ((StableHlo.TRef.of r h' d' u').toBuf v) = v := by
  subst h
  rfl

/-- At a reference stated at its own type the carrying is the identity. -/
theorem ofBuf_self {Val : EltTy → Type} (r : Ref sig .tc) (h : r.ty = r.ty)
    (d : r.space ≠ .host) (u : r.isScoped = false) (v : r.ty.Contents Val) :
    (StableHlo.TRef.of r h d u).ofBuf v = v := rfl

/-! ## The two gathers, from any contents

Each gather is one stretch of twenty-three operations. Read back at its result, from contents `V` of the buffers, the
stretch is the composed gather of `Take.takeOf` at what `V` holds for the node features and for the row of indices. -/

theorem take0 (V : Valuation τ sig (Elt Ideal)) (x : FVec Ideal S100000x16 .f32) (v : IVec S5000000 32)
    (hx : (StableHlo.TRef.of main_arg0 : StableHlo.TRef sig ⟨S100000x16, .f32⟩).ofBuf (V (Proc.devRef .tc main_arg0)) = x)
    (hv : (StableHlo.TRef.of main_v1 : StableHlo.TRef sig ⟨S5000000, .i32⟩).ofBuf (V (Proc.devRef .tc main_v1)) = v) :
    (StableHlo.TRef.of main_v2 : StableHlo.TRef sig ⟨S5000000x16, .f32⟩).ofBuf
        (StableHlo.after hostOps0_1 V (Proc.devRef .tc main_v2)) = Take.takeOf x v := by
  subst hx hv
  dsimp only [hostOps0_1]
  after_results_simp
  simp only [ofBuf_toBuf]
  unfold Take.takeOf Take.gathered Take.inRange Take.wrapped
  rfl

theorem take1 (V : Valuation τ sig (Elt Ideal)) (x : FVec Ideal S100000x16 .f32) (v : IVec S5000000 32)
    (hx : (StableHlo.TRef.of main_arg0 : StableHlo.TRef sig ⟨S100000x16, .f32⟩).ofBuf (V (Proc.devRef .tc main_arg0)) = x)
    (hv : (StableHlo.TRef.of main_v4 : StableHlo.TRef sig ⟨S5000000, .i32⟩).ofBuf (V (Proc.devRef .tc main_v4)) = v) :
    (StableHlo.TRef.of main_v5 : StableHlo.TRef sig ⟨S5000000x16, .f32⟩).ofBuf
        (StableHlo.after hostOps0_3 V (Proc.devRef .tc main_v5)) = Take.takeOf x v := by
  subst hx hv
  dsimp only [hostOps0_3]
  after_results_simp
  simp only [ofBuf_toBuf]
  unfold Take.takeOf Take.gathered Take.inRange Take.wrapped
  rfl

/-! ## What the other stretches leave -/

/-- The stretches after the first gather do not write its result. -/
theorem later_v2 (X : Valuation τ sig (Elt Ideal)) :
    StableHlo.after hostOps0_4 (StableHlo.after hostOps0_3 (StableHlo.after hostOps0_2 X)) (Proc.devRef .tc main_v2)
      = X (Proc.devRef .tc main_v2) := by
  dsimp only [hostOps0_4, hostOps0_3, hostOps0_2]
  after_results_simp

/-- The last stretch does not write the second gather's result. -/
theorem later_v5 (X : Valuation τ sig (Elt Ideal)) :
    StableHlo.after hostOps0_4 X (Proc.devRef .tc main_v5) = X (Proc.devRef .tc main_v5) := by
  dsimp only [hostOps0_4]
  after_results_simp

/-- The first three stretches do not write the node features. -/
theorem early_arg0 (X : Valuation τ sig (Elt Ideal)) :
    StableHlo.after hostOps0_2 (StableHlo.after hostOps0_1 (StableHlo.after hostOps0 X)) (Proc.devRef .tc main_arg0)
      = X (Proc.devRef .tc main_arg0) := by
  dsimp only [hostOps0_2, hostOps0_1, hostOps0]
  after_results_simp

/-- The first two stretches do not write the node indices. -/
theorem early_arg1 (X : Valuation τ sig (Elt Ideal)) :
    StableHlo.after hostOps0_1 (StableHlo.after hostOps0 X) (Proc.devRef .tc main_arg1) = X (Proc.devRef .tc main_arg1) := by
  dsimp only [hostOps0_1, hostOps0]
  after_results_simp

/-- The first stretch does not write the node features. -/
theorem first_arg0 (X : Valuation τ sig (Elt Ideal)) :
    StableHlo.after hostOps0 X (Proc.devRef .tc main_arg0) = X (Proc.devRef .tc main_arg0) := by
  dsimp only [hostOps0]
  after_results_simp

/-- The first stretch leaves row 0 of the node indices, as a vector. -/
theorem first_v1 (X : Valuation τ sig (Elt Ideal)) :
    (StableHlo.after hostOps0 X (Proc.devRef .tc main_v1) : S5000000.Idx → BitVec 32)
      = Take.idxRow0 (X (Proc.devRef .tc main_arg1)) := by
  dsimp only [hostOps0]
  after_results
  rfl

/-- The third stretch leaves row 1 of the node indices, as a vector. -/
theorem third_v4 (X : Valuation τ sig (Elt Ideal)) :
    (StableHlo.after hostOps0_2 X (Proc.devRef .tc main_v4) : S5000000.Idx → BitVec 32)
      = Take.idxRow1 (X (Proc.devRef .tc main_arg1)) := by
  dsimp only [hostOps0_2]
  after_results
  rfl

variable (m : (ℓ : Loc nD τ sig) → Buf (Elt Ideal) ℓ) (ρ : Dev nD → PrngReg) (c : Dev nD)

/-! ## The first region's nine input arrays, as it finds them -/

theorem in0_0 : (V5 m ρ c (Pipeline.arrRef spec0 0) : S5000000x16.Idx → EReal) = m ((c : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  dsimp only [hostOps0_4, hostOps0_3, hostOps0_2, hostOps0_1, hostOps0]
  after_results_simp
  try rfl
theorem in0_1 : (V5 m ρ c (Pipeline.arrRef spec0 1) : S5000000x16.Idx → EReal)
    = Take.takeOf (m ((c : Thread nD τ).loc main_arg0)) (Take.idxRow0 (m ((c : Thread nD τ).loc main_arg1))) := by
  refine (later_v2 (W2 m ρ c)).trans ?_
  refine (ofBuf_self main_v2 rfl (by decide) rfl _).symm.trans ?_
  refine take0 (W1 m ρ c) _ _ ?_ ?_
  · exact (ofBuf_self main_arg0 rfl (by decide) rfl _).trans (first_arg0 (W0 m ρ c))
  · exact (ofBuf_self main_v1 rfl (by decide) rfl _).trans (first_v1 (W0 m ρ c))
theorem in0_2 : (V5 m ρ c (Pipeline.arrRef spec0 2) : S5000000x16.Idx → EReal)
    = Take.takeOf (m ((c : Thread nD τ).loc main_arg0)) (Take.idxRow1 (m ((c : Thread nD τ).loc main_arg1))) := by
  refine (later_v5 (W4 m ρ c)).trans ?_
  refine (ofBuf_self main_v5 rfl (by decide) rfl _).symm.trans ?_
  refine take1 (W3 m ρ c) _ _ ?_ ?_
  · exact (ofBuf_self main_arg0 rfl (by decide) rfl _).trans (early_arg0 (W0 m ρ c))
  · refine (ofBuf_self main_v4 rfl (by decide) rfl _).trans ((third_v4 (W2 m ρ c)).trans ?_)
    exact congrArg Take.idxRow1 (early_arg1 (W0 m ρ c))
theorem in0_3 : (V5 m ρ c (Pipeline.arrRef spec0 3) : S16x16.Idx → EReal) = m ((c : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  dsimp only [hostOps0_4, hostOps0_3, hostOps0_2, hostOps0_1, hostOps0]
  after_results_simp
  try rfl
theorem in0_4 : (V5 m ρ c (Pipeline.arrRef spec0 4) : S1x16.Idx → EReal)
    = shapeCast S1x16 (m ((c : Thread nD τ).loc main_arg4)) shapeCasts_S16_S1x16 := by
  show StableHlo.after hostOps0_4 (StableHlo.after hostOps0_3 (StableHlo.after hostOps0_2 (StableHlo.after hostOps0_1
    (StableHlo.after hostOps0 (W0 m ρ c))))) (Proc.devRef .tc main_v6) = _
  dsimp only [hostOps0_4, hostOps0_3, hostOps0_2, hostOps0_1, hostOps0]
  after_results_simp
  rfl
theorem in0_5 : (V5 m ρ c (Pipeline.arrRef spec0 5) : S16x16.Idx → EReal) = m ((c : Thread nD τ).loc main_arg5) := by
  show StableHlo.after hostOps0_4 (StableHlo.after hostOps0_3 (StableHlo.after hostOps0_2 (StableHlo.after hostOps0_1
    (StableHlo.after hostOps0 (W0 m ρ c))))) (Proc.devRef .tc main_arg5) = _
  dsimp only [hostOps0_4, hostOps0_3, hostOps0_2, hostOps0_1, hostOps0]
  after_results_simp
  try rfl
theorem in0_6 : (V5 m ρ c (Pipeline.arrRef spec0 6) : S1x16.Idx → EReal)
    = shapeCast S1x16 (m ((c : Thread nD τ).loc main_arg6)) shapeCasts_S16_S1x16 := by
  show StableHlo.after hostOps0_4 (StableHlo.after hostOps0_3 (StableHlo.after hostOps0_2 (StableHlo.after hostOps0_1
    (StableHlo.after hostOps0 (W0 m ρ c))))) (Proc.devRef .tc main_v7) = _
  dsimp only [hostOps0_4, hostOps0_3, hostOps0_2, hostOps0_1, hostOps0]
  after_results_simp
  rfl
theorem in0_7 : (V5 m ρ c (Pipeline.arrRef spec0 7) : S16x16.Idx → EReal) = m ((c : Thread nD τ).loc main_arg7) := by
  show StableHlo.after hostOps0_4 (StableHlo.after hostOps0_3 (StableHlo.after hostOps0_2 (StableHlo.after hostOps0_1
    (StableHlo.after hostOps0 (W0 m ρ c))))) (Proc.devRef .tc main_arg7) = _
  dsimp only [hostOps0_4, hostOps0_3, hostOps0_2, hostOps0_1, hostOps0]
  after_results_simp
  try rfl
theorem in0_8 : (V5 m ρ c (Pipeline.arrRef spec0 8) : S1x16.Idx → EReal)
    = shapeCast S1x16 (m ((c : Thread nD τ).loc main_arg8)) shapeCasts_S16_S1x16 := by
  show StableHlo.after hostOps0_4 (StableHlo.after hostOps0_3 (StableHlo.after hostOps0_2 (StableHlo.after hostOps0_1
    (StableHlo.after hostOps0 (W0 m ρ c))))) (Proc.devRef .tc main_v8) = _
  dsimp only [hostOps0_4, hostOps0_3, hostOps0_2, hostOps0_1, hostOps0]
  after_results_simp
  rfl

/-- The number of edges as the program spells it, spread over a row of sixteen. -/
abbrev cntRow : FVec Ideal S1x16 .f32 := broadcastInDim S1x16 ![] bcast_S_S1x16 (constant S_ .f32 0x4A989680#32)

/-! ## Two small reads -/

/-- A vector of sixteen reshaped to one row of sixteen, read at a column. -/
theorem reshape_row (b : FVec Ideal S16 .f32) (j : Fin 16) : shapeCast S1x16 b shapeCasts_S16_S1x16 (ix2 0 j) = b (ix1 j) := by
  refine shapeCast_apply b shapeCasts_S16_S1x16 (ix2 0 j) (ix1 j) ?_
  rw [Shape.rowMajor_val_two, Shape.rowMajor_val_one]
  show (j : ℕ) = 0 * 16 + (j : ℕ)
  omega

/-- The row of the number of edges, read at a column. -/
theorem cntRow_apply (j : Fin 16) : cntRow (ix2 0 j) = EdgeNormSpec.cnt := by
  unfold EdgeNormSpec.cnt
  rfl

end Cert.KernelIdeal.Host

end
-- ==== Proof.HostBetween.lean ====
/-
  The kernel program between its two regions, read at the thirteen arrays the second region takes.

  The second region's first nine operands are the first region's: neither that region, which writes only its two
  accumulators, nor the eight host operations after it touch them. Those eight operations divide the first region's two
  accumulators by the number of edges and subtract the squared mean from the second quotient: the mean row and the
  variance row. The scale and shift rows were reshaped before the first region and are untouched since.
-/
import proofs.«408767_j31671088841192_1_alg».proof.Proof.Gen.KernelIdeal.Frame
import proofs.«408767_j31671088841192_1_alg».proof.Proof.HostStretch
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Host

open Idealize.ShloMosaic Idealize.ShloMosaic.TcCoe Idealize.SL.Sem Idealize.ShloMosaic.ValueIdx
open Idealize.ShloMosaic.Pipeline (Dat)
open Cert.KernelIdeal Cert.KernelIdeal.Gen Cert.Proof

variable (m : (ℓ : Loc nD τ sig) → Buf (Elt Ideal) ℓ) (ρ : Dev nD → PrngReg) (c : Dev nD)

/-! ## The second region's thirteen input arrays, as it finds them -/

theorem in1_0 : (V7 m ρ c (Pipeline.arrRef spec1 0) : S5000000x16.Idx → EReal) = (V5 m ρ c (Pipeline.arrRef spec0 0) : S5000000x16.Idx → EReal) := by
  show StableHlo.after hostOps1 (W6 m ρ c) (Proc.devRef .tc main_arg2) = _
  after_results
  exact (W6_arr m ρ c 0).trans (((dat0 (F := Ideal) (V5 m ρ) c).arrAt_in 0 rfl _).trans (A_eq0 (V5 m ρ) c 0))
theorem in1_1 : (V7 m ρ c (Pipeline.arrRef spec1 1) : S5000000x16.Idx → EReal) = (V5 m ρ c (Pipeline.arrRef spec0 1) : S5000000x16.Idx → EReal) := by
  show StableHlo.after hostOps1 (W6 m ρ c) (Proc.devRef .tc main_v2) = _
  after_results
  exact (W6_arr m ρ c 1).trans (((dat0 (F := Ideal) (V5 m ρ) c).arrAt_in 1 rfl _).trans (A_eq0 (V5 m ρ) c 1))
theorem in1_2 : (V7 m ρ c (Pipeline.arrRef spec1 2) : S5000000x16.Idx → EReal) = (V5 m ρ c (Pipeline.arrRef spec0 2) : S5000000x16.Idx → EReal) := by
  show StableHlo.after hostOps1 (W6 m ρ c) (Proc.devRef .tc main_v5) = _
  after_results
  exact (W6_arr m ρ c 2).trans (((dat0 (F := Ideal) (V5 m ρ) c).arrAt_in 2 rfl _).trans (A_eq0 (V5 m ρ) c 2))
theorem in1_3 : (V7 m ρ c (Pipeline.arrRef spec1 3) : S16x16.Idx → EReal) = (V5 m ρ c (Pipeline.arrRef spec0 3) : S16x16.Idx → EReal) := by
  show StableHlo.after hostOps1 (W6 m ρ c) (Proc.devRef .tc main_arg3) = _
  after_results
  exact (W6_arr m ρ c 3).trans (((dat0 (F := Ideal) (V5 m ρ) c).arrAt_in 3 rfl _).trans (A_eq0 (V5 m ρ) c 3))
theorem in1_4 : (V7 m ρ c (Pipeline.arrRef spec1 4) : S1x16.Idx → EReal) = (V5 m ρ c (Pipeline.arrRef spec0 4) : S1x16.Idx → EReal) := by
  show StableHlo.after hostOps1 (W6 m ρ c) (Proc.devRef .tc main_v6) = _
  after_results
  exact (W6_arr m ρ c 4).trans (((dat0 (F := Ideal) (V5 m ρ) c).arrAt_in 4 rfl _).trans (A_eq0 (V5 m ρ) c 4))
theorem in1_5 : (V7 m ρ c (Pipeline.arrRef spec1 5) : S16x16.Idx → EReal) = (V5 m ρ c (Pipeline.arrRef spec0 5) : S16x16.Idx → EReal) := by
  show StableHlo.after hostOps1 (W6 m ρ c) (Proc.devRef .tc main_arg5) = _
  after_results
  exact (W6_arr m ρ c 5).trans (((dat0 (F := Ideal) (V5 m ρ) c).arrAt_in 5 rfl _).trans (A_eq0 (V5 m ρ) c 5))
theorem in1_6 : (V7 m ρ c (Pipeline.arrRef spec1 6) : S1x16.Idx → EReal) = (V5 m ρ c (Pipeline.arrRef spec0 6) : S1x16.Idx → EReal) := by
  show StableHlo.after hostOps1 (W6 m ρ c) (Proc.devRef .tc main_v7) = _
  after_results
  exact (W6_arr m ρ c 6).trans (((dat0 (F := Ideal) (V5 m ρ) c).arrAt_in 6 rfl _).trans (A_eq0 (V5 m ρ) c 6))
theorem in1_7 : (V7 m ρ c (Pipeline.arrRef spec1 7) : S16x16.Idx → EReal) = (V5 m ρ c (Pipeline.arrRef spec0 7) : S16x16.Idx → EReal) := by
  show StableHlo.after hostOps1 (W6 m ρ c) (Proc.devRef .tc main_arg7) = _
  after_results
  exact (W6_arr m ρ c 7).trans (((dat0 (F := Ideal) (V5 m ρ) c).arrAt_in 7 rfl _).trans (A_eq0 (V5 m ρ) c 7))
theorem in1_8 : (V7 m ρ c (Pipeline.arrRef spec1 8) : S1x16.Idx → EReal) = (V5 m ρ c (Pipeline.arrRef spec0 8) : S1x16.Idx → EReal) := by
  show StableHlo.after hostOps1 (W6 m ρ c) (Proc.devRef .tc main_v8) = _
  after_results
  exact (W6_arr m ρ c 8).trans (((dat0 (F := Ideal) (V5 m ρ) c).arrAt_in 8 rfl _).trans (A_eq0 (V5 m ρ) c 8))

/-! ## The eight operations between the regions, over any contents

Read back operation by operation: the mean row is the first accumulator over the row of the number of edges; the
variance row is the second accumulator over that row, less the product of the mean row with itself. -/

theorem after1_mean (W : Valuation τ sig (Elt Ideal)) :
    (StableHlo.after hostOps1 W (Proc.devRef .tc main_v13) : S1x16.Idx → EReal)
      = Host.divf (W (Proc.devRef .tc main_v11_0) : S1x16.Idx → EReal) cntRow := by
  after_results

theorem after1_var (W : Valuation τ sig (Elt Ideal)) :
    (StableHlo.after hostOps1 W (Proc.devRef .tc main_v17) : S1x16.Idx → EReal)
      = subf (Host.divf (W (Proc.devRef .tc main_v11_1) : S1x16.Idx → EReal) cntRow)
          (mulf (Host.divf (W (Proc.devRef .tc main_v11_0) : S1x16.Idx → EReal) cntRow)
            (Host.divf (W (Proc.devRef .tc main_v11_0) : S1x16.Idx → EReal) cntRow)) := by
  after_results

/-- The mean row: the first accumulator's final array over the number of edges. -/
theorem in1_9 : (V7 m ρ c (Pipeline.arrRef spec1 9) : S1x16.Idx → EReal)
    = Host.divf ((dat0 (F := Ideal) (V5 m ρ) c).arrAt 9 cfg0.N : S1x16.Idx → EReal) cntRow := by
  have h9 : W6 m ρ c (Proc.devRef .tc main_v11_0) = (dat0 (F := Ideal) (V5 m ρ) c).arrAt 9 cfg0.N := W6_arr m ρ c 9
  show StableHlo.after hostOps1 (W6 m ρ c) (Proc.devRef .tc main_v13) = _
  rw [after1_mean (W6 m ρ c), h9]

/-- The variance row: the second accumulator's final array over the number of edges, less the squared mean row. -/
theorem in1_10 : (V7 m ρ c (Pipeline.arrRef spec1 10) : S1x16.Idx → EReal)
    = subf (Host.divf ((dat0 (F := Ideal) (V5 m ρ) c).arrAt 10 cfg0.N : S1x16.Idx → EReal) cntRow)
        (mulf (Host.divf ((dat0 (F := Ideal) (V5 m ρ) c).arrAt 9 cfg0.N : S1x16.Idx → EReal) cntRow)
          (Host.divf ((dat0 (F := Ideal) (V5 m ρ) c).arrAt 9 cfg0.N : S1x16.Idx → EReal) cntRow)) := by
  have h9 : W6 m ρ c (Proc.devRef .tc main_v11_0) = (dat0 (F := Ideal) (V5 m ρ) c).arrAt 9 cfg0.N := W6_arr m ρ c 9
  have h10 : W6 m ρ c (Proc.devRef .tc main_v11_1) = (dat0 (F := Ideal) (V5 m ρ) c).arrAt 10 cfg0.N := W6_arr m ρ c 10
  show StableHlo.after hostOps1 (W6 m ρ c) (Proc.devRef .tc main_v17) = _
  rw [after1_var (W6 m ρ c), h9, h10]

theorem in1_11 : (V7 m ρ c (Pipeline.arrRef spec1 11) : S1x16.Idx → EReal)
    = shapeCast S1x16 (m ((c : Thread nD τ).loc main_arg9)) shapeCasts_S16_S1x16 := by
  show StableHlo.after hostOps1 (W6 m ρ c) (Proc.devRef .tc main_v9) = _
  after_results
  rw [W6_of_ne m ρ c main_v9 (by decide)]
  dsimp only [W5, W4, W3, W2, W1, W0]
  after_results
  rfl
theorem in1_12 : (V7 m ρ c (Pipeline.arrRef spec1 12) : S1x16.Idx → EReal)
    = shapeCast S1x16 (m ((c : Thread nD τ).loc main_arg10)) shapeCasts_S16_S1x16 := by
  show StableHlo.after hostOps1 (W6 m ρ c) (Proc.devRef .tc main_v10) = _
  after_results
  rw [W6_of_ne m ρ c main_v10 (by decide)]
  dsimp only [W5, W4, W3, W2, W1, W0]
  after_results
  rfl

end Cert.KernelIdeal.Host

end
-- ==== Proof.KernelValue.lean ====
/-
  The kernel program's result, entry by entry, in terms of the arrays it was launched with.

  The result array is what the second region leaves: at entry `(i, j)` the edge's attribute plus
  `max (((e i j − mean j) · rsqrt (var j + ε)) · scale j + shift j) 0`, where the mean and variance rows are the first
  region's two column sums divided by the number of edges, the second less the squared mean. Both regions form the rows
  `e` from the same nine arrays: the edge attributes, the two gathers of node features, the three weights, the three
  biases reshaped to rows. With every node index in range the program's guarded gather is the plain gather.
-/
import proofs.«408767_j31671088841192_1_alg».proof.Proof.Gen.KernelIdeal.Frame
import proofs.«408767_j31671088841192_1_alg».proof.Proof.EdgeNormSpec
import proofs.«408767_j31671088841192_1_alg».proof.Proof.Curry
import proofs.«408767_j31671088841192_1_alg».proof.Proof.Take
import proofs.«408767_j31671088841192_1_alg».proof.Proof.StatsRegion
import proofs.«408767_j31671088841192_1_alg».proof.Proof.NormRegion
import proofs.«408767_j31671088841192_1_alg».proof.Proof.HostStretch
import proofs.«408767_j31671088841192_1_alg».proof.Proof.HostBetween
import Idealize.ShloMosaic.Lib.ValueIdx

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.Proof Cert.Proof.Curry

variable (m : (ℓ : Loc nD τ sig) → Buf (Elt Ideal) ℓ) (ρ : Dev nD → PrngReg) (c : Dev nD)

/-- The rows `e` from the launch arrays, with the two gathered arrays `hs`, `hd` given. -/
abbrev rowsOf (hs hd : FVec Ideal S5000000x16 .f32) : Fin 5000000 → Fin 16 → EReal :=
  EdgeNormSpec.linK (cur2 (m ((c : Thread nD τ).loc main_arg2) : S5000000x16.Idx → EReal)) (cur2 hs) (cur2 hd)
    (cur2 (m ((c : Thread nD τ).loc main_arg3) : S16x16.Idx → EReal))
    (cur2 (m ((c : Thread nD τ).loc main_arg5) : S16x16.Idx → EReal))
    (cur2 (m ((c : Thread nD τ).loc main_arg7) : S16x16.Idx → EReal))
    (cur1 (m ((c : Thread nD τ).loc main_arg4) : S16.Idx → EReal))
    (cur1 (m ((c : Thread nD τ).loc main_arg6) : S16.Idx → EReal))
    (cur1 (m ((c : Thread nD τ).loc main_arg8) : S16.Idx → EReal))

/-- The program's two guarded gathers. -/
abbrev hsT : FVec Ideal S5000000x16 .f32 :=
  Take.takeOf (m ((c : Thread nD τ).loc main_arg0)) (Take.idxRow0 (m ((c : Thread nD τ).loc main_arg1)))
abbrev hdT : FVec Ideal S5000000x16 .f32 :=
  Take.takeOf (m ((c : Thread nD τ).loc main_arg0)) (Take.idxRow1 (m ((c : Thread nD τ).loc main_arg1)))

/-- A vector reshaped to one row, read as a function of the column, is the vector. -/
theorem row0_reshape (b : FVec Ideal S16 .f32) : row0 (shapeCast S1x16 b shapeCasts_S16_S1x16) = cur1 b :=
  funext fun j => Host.reshape_row b j

/-- Equal ingredients give equal rows. -/
theorem linK_congr {ea ea' hs hs' hd hd' : Fin 5000000 → Fin 16 → EReal} {w1 w1' w2 w2' w3 w3' : Fin 16 → Fin 16 → EReal}
    {b1 b1' b2 b2' b3 b3' : Fin 16 → EReal} (h0 : ea = ea') (h1 : hs = hs') (h2 : hd = hd') (h3 : w1 = w1') (h5 : w2 = w2')
    (h7 : w3 = w3') (h4 : b1 = b1') (h6 : b2 = b2') (h8 : b3 = b3') :
    EdgeNormSpec.linK ea hs hd w1 w2 w3 b1 b2 b3 = EdgeNormSpec.linK ea' hs' hd' w1' w2' w3' b1' b2' b3' := by
  subst h0 h1 h2 h3 h5 h7 h4 h6 h8; rfl

/-- Equal ingredients give equal entries of the result. -/
theorem normOut_congr {a a' x x' mu mu' var var' gam gam' bet bet' : EReal} (h0 : a = a') (h1 : x = x') (h2 : mu = mu')
    (h3 : var = var') (h4 : gam = gam') (h5 : bet = bet') :
    EdgeNormSpec.normOut a x mu var gam bet = EdgeNormSpec.normOut a' x' mu' var' gam' bet' := by
  subst h0 h1 h2 h3 h4 h5; rfl

/-- The first region's rows are the rows of the launch arrays. -/
theorem rows0_eq : Stats.eRow (V5 m ρ) c = rowsOf m c (hsT m c) (hdT m c) := by
  unfold Stats.eRow
  exact linK_congr (congrArg cur2 (Host.in0_0 m ρ c)) (congrArg cur2 (Host.in0_1 m ρ c)) (congrArg cur2 (Host.in0_2 m ρ c))
    (congrArg cur2 (Host.in0_3 m ρ c)) (congrArg cur2 (Host.in0_5 m ρ c)) (congrArg cur2 (Host.in0_7 m ρ c))
    ((congrArg row0 (Host.in0_4 m ρ c)).trans (row0_reshape _)) ((congrArg row0 (Host.in0_6 m ρ c)).trans (row0_reshape _))
    ((congrArg row0 (Host.in0_8 m ρ c)).trans (row0_reshape _))

/-- The second region's rows are the first region's. -/
theorem rows1_eq : Norm.eRow (V7 m ρ) c = Stats.eRow (V5 m ρ) c := by
  unfold Norm.eRow Stats.eRow
  exact linK_congr (congrArg cur2 (Host.in1_0 m ρ c)) (congrArg cur2 (Host.in1_1 m ρ c)) (congrArg cur2 (Host.in1_2 m ρ c))
    (congrArg cur2 (Host.in1_3 m ρ c)) (congrArg cur2 (Host.in1_5 m ρ c)) (congrArg cur2 (Host.in1_7 m ρ c))
    (congrArg row0 (Host.in1_4 m ρ c)) (congrArg row0 (Host.in1_6 m ρ c)) (congrArg row0 (Host.in1_8 m ρ c))

/-- The first column sum over the number of edges is the mean of the launch arrays' rows. -/
theorem mean_at (j : Fin 16) :
    (V7 m ρ c (Pipeline.arrRef spec1 9) : S1x16.Idx → EReal) (ix2 0 j) = EdgeNormSpec.meanOf (rowsOf m c (hsT m c) (hdT m c)) j := by
  refine (congrFun (Host.in1_9 m ρ c) (ix2 0 j)).trans ?_
  show Ideal.div (((dat0 (F := Ideal) (V5 m ρ) c).arrAt 9 cfg0.N : S1x16.Idx → EReal) (ix2 0 j)) (Host.cntRow (ix2 0 j))
    = Ideal.div (EdgeNormSpec.sum1 (rowsOf m c (hsT m c) (hdT m c)) j) EdgeNormSpec.cnt
  exact congr (congrArg Ideal.div ((Stats.sum_final (V5 m ρ) c j).trans
    (congrArg (fun e => EdgeNormSpec.sum1 e j) (rows0_eq m ρ c)))) (Host.cntRow_apply j)

/-- The second column sum over the number of edges, less the squared mean, is the variance of the launch arrays' rows. -/
theorem var_at (j : Fin 16) :
    (V7 m ρ c (Pipeline.arrRef spec1 10) : S1x16.Idx → EReal) (ix2 0 j) = EdgeNormSpec.varK (rowsOf m c (hsT m c) (hdT m c)) j := by
  refine (congrFun (Host.in1_10 m ρ c) (ix2 0 j)).trans ?_
  have hm : Ideal.div (((dat0 (F := Ideal) (V5 m ρ) c).arrAt 9 cfg0.N : S1x16.Idx → EReal) (ix2 0 j)) (Host.cntRow (ix2 0 j))
      = EdgeNormSpec.meanOf (rowsOf m c (hsT m c) (hdT m c)) j :=
    congr (congrArg Ideal.div ((Stats.sum_final (V5 m ρ) c j).trans
      (congrArg (fun e => EdgeNormSpec.sum1 e j) (rows0_eq m ρ c)))) (Host.cntRow_apply j)
  have hs : Ideal.div (((dat0 (F := Ideal) (V5 m ρ) c).arrAt 10 cfg0.N : S1x16.Idx → EReal) (ix2 0 j)) (Host.cntRow (ix2 0 j))
      = Ideal.div (EdgeNormSpec.sum2 (rowsOf m c (hsT m c) (hdT m c)) j) EdgeNormSpec.cnt :=
    congr (congrArg Ideal.div ((Stats.sumsq_final (V5 m ρ) c j).trans
      (congrArg (fun e => EdgeNormSpec.sum2 e j) (rows0_eq m ρ c)))) (Host.cntRow_apply j)
  show Ideal.div (((dat0 (F := Ideal) (V5 m ρ) c).arrAt 10 cfg0.N : S1x16.Idx → EReal) (ix2 0 j)) (Host.cntRow (ix2 0 j))
      - Ideal.div (((dat0 (F := Ideal) (V5 m ρ) c).arrAt 9 cfg0.N : S1x16.Idx → EReal) (ix2 0 j)) (Host.cntRow (ix2 0 j))
        * Ideal.div (((dat0 (F := Ideal) (V5 m ρ) c).arrAt 9 cfg0.N : S1x16.Idx → EReal) (ix2 0 j)) (Host.cntRow (ix2 0 j))
    = Ideal.div (EdgeNormSpec.sum2 (rowsOf m c (hsT m c) (hdT m c)) j) EdgeNormSpec.cnt
      - EdgeNormSpec.meanOf (rowsOf m c (hsT m c) (hdT m c)) j * EdgeNormSpec.meanOf (rowsOf m c (hsT m c) (hdT m c)) j
  rw [hm, hs]

/-- The result array, entry by entry, with the program's own guarded gathers. -/
theorem value_take (i : Fin 5000000) (j : Fin 16) :
    (W8 m ρ c (Proc.devRef .tc main_v18) : S5000000x16.Idx → EReal) (ix2 i j)
      = EdgeNormSpec.outK (cur2 (m ((c : Thread nD τ).loc main_arg2) : S5000000x16.Idx → EReal)) (cur2 (hsT m c)) (cur2 (hdT m c))
          (cur2 (m ((c : Thread nD τ).loc main_arg3) : S16x16.Idx → EReal))
          (cur2 (m ((c : Thread nD τ).loc main_arg5) : S16x16.Idx → EReal))
          (cur2 (m ((c : Thread nD τ).loc main_arg7) : S16x16.Idx → EReal))
          (cur1 (m ((c : Thread nD τ).loc main_arg4) : S16.Idx → EReal))
          (cur1 (m ((c : Thread nD τ).loc main_arg6) : S16.Idx → EReal))
          (cur1 (m ((c : Thread nD τ).loc main_arg8) : S16.Idx → EReal))
          (cur1 (m ((c : Thread nD τ).loc main_arg9) : S16.Idx → EReal))
          (cur1 (m ((c : Thread nD τ).loc main_arg10) : S16.Idx → EReal)) i j := by
  have h13 : (W8 m ρ c (Proc.devRef .tc main_v18) : S5000000x16.Idx → EReal)
      = ((dat1 (F := Ideal) (V7 m ρ) c).arrAt 13 cfg1.N : S5000000x16.Idx → EReal) := W8_arr m ρ c 13
  refine ((congrFun h13 (ix2 i j)).trans (Norm.out_final (V7 m ρ) c i j)).trans ?_
  unfold EdgeNormSpec.outK
  exact normOut_congr (congrFun ((Host.in1_0 m ρ c).trans (Host.in0_0 m ρ c)) (ix2 i j))
    (congrFun (congrFun ((rows1_eq m ρ c).trans (rows0_eq m ρ c)) i) j) (mean_at m ρ c j) (var_at m ρ c j)
    ((congrFun (Host.in1_11 m ρ c) (ix2 0 j)).trans (Host.reshape_row _ j))
    ((congrFun (Host.in1_12 m ρ c) (ix2 0 j)).trans (Host.reshape_row _ j))

/-- The result array, entry by entry, where every node index is in range: the gathers are plain. -/
theorem value (hidx : ∀ p, 0 ≤ ((m ((c : Thread nD τ).loc main_arg1) : S2x5000000.Idx → BitVec 32) p).toInt
      ∧ ((m ((c : Thread nD τ).loc main_arg1) : S2x5000000.Idx → BitVec 32) p).toInt < 100000)
    (i : Fin 5000000) (j : Fin 16) :
    (W8 m ρ c (Proc.devRef .tc main_v18) : S5000000x16.Idx → EReal) (ix2 i j)
      = EdgeNormSpec.outK (cur2 (m ((c : Thread nD τ).loc main_arg2) : S5000000x16.Idx → EReal))
          (cur2 (Take.gathered (m ((c : Thread nD τ).loc main_arg0)) (Take.idxRow0 (m ((c : Thread nD τ).loc main_arg1)))))
          (cur2 (Take.gathered (m ((c : Thread nD τ).loc main_arg0)) (Take.idxRow1 (m ((c : Thread nD τ).loc main_arg1)))))
          (cur2 (m ((c : Thread nD τ).loc main_arg3) : S16x16.Idx → EReal))
          (cur2 (m ((c : Thread nD τ).loc main_arg5) : S16x16.Idx → EReal))
          (cur2 (m ((c : Thread nD τ).loc main_arg7) : S16x16.Idx → EReal))
          (cur1 (m ((c : Thread nD τ).loc main_arg4) : S16.Idx → EReal))
          (cur1 (m ((c : Thread nD τ).loc main_arg6) : S16.Idx → EReal))
          (cur1 (m ((c : Thread nD τ).loc main_arg8) : S16.Idx → EReal))
          (cur1 (m ((c : Thread nD τ).loc main_arg9) : S16.Idx → EReal))
          (cur1 (m ((c : Thread nD τ).loc main_arg10) : S16.Idx → EReal)) i j := by
  refine (value_take m ρ c i j).trans ?_
  have e0 : hsT m c = Take.gathered (m ((c : Thread nD τ).loc main_arg0)) (Take.idxRow0 (m ((c : Thread nD τ).loc main_arg1))) :=
    Take.takeOf_eq_gathered _ _ (Take.idxRow0_range _ hidx)
  have e1 : hdT m c = Take.gathered (m ((c : Thread nD τ).loc main_arg0)) (Take.idxRow1 (m ((c : Thread nD τ).loc main_arg1))) :=
    Take.takeOf_eq_gathered _ _ (Take.idxRow1_range _ hidx)
  rw [e0, e1]

end Cert.KernelIdeal.KValue

end
-- ==== Proof.RefValue.lean ====
/-
  The reference program's result, entry by entry.

  The reference gathers the node features of each edge's two end points (a negative index wrapped round first), forms
  the rows `e` — each product sum joined with its bias, then the three joined —, takes each column's mean and its mean
  squared distance from the mean over all 5,000,000 edges, and returns the edge attributes plus
  `max (((e − mean) · rsqrt (var + ε)) · scale + shift) 0`. Its sums start from a zero, which adds nothing.
-/
import proofs.«408767_j31671088841192_1_alg».proof.Proof.Gen.ReferenceIdeal.Run
import proofs.«408767_j31671088841192_1_alg».proof.Proof.Gen.ReferenceIdeal.Read
import proofs.«408767_j31671088841192_1_alg».proof.Proof.EdgeNormSpec
import proofs.«408767_j31671088841192_1_alg».proof.Proof.Curry
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Facts₀ Cert.Proof Cert.Proof.Curry

/-- Row 0 of the node indices, as a vector. -/
def idxRow0 (e : IVec S2x5000000 32) : IVec S5000000 32 :=
  shapeCast S5000000 (extractStridedSlice S1x5000000 ![0, 0] e slices_S2x5000000_S1x5000000_0_0) shapeCasts_S1x5000000_S5000000

/-- Row 1 of the node indices, as a vector. -/
def idxRow1 (e : IVec S2x5000000 32) : IVec S5000000 32 :=
  shapeCast S5000000 (extractStridedSlice S1x5000000 ![1, 0] e slices_S2x5000000_S1x5000000_1_0) shapeCasts_S1x5000000_S5000000

/-- The indices with the negative ones wrapped round, as a one-column array of start indices. -/
def wrapped (v : IVec S5000000 32) : IVec S5000000x1 32 :=
  broadcastInDim S5000000x1 ![0] bcast_S5000000_S5000000x1_0
    (select (cmpi .slt v (broadcastInDim S5000000 ![] bcast_S_S5000000 (constantI S_ 32 0#32)))
      (addi v (broadcastInDim S5000000 ![] bcast_S_S5000000 (constantI S_ 32 100000#32))) v)

/-- The gather of the node features' rows at the wrapped indices. -/
def gathered (x : FVec Ideal S100000x16 .f32) (v : IVec S5000000 32) : FVec Ideal S5000000x16 .f32 :=
  Host.gather gather_S100000x16_S5000000x1_S5000000x16_1_0_n_n_0_1_116 x (wrapped v)

open Cert.ReferenceIdeal.Read

/-! ## The stages, one entry at a time

The eleven argument arrays are variables here; the run's own arrays are put in at the end. -/

section Stages

variable (x0 : (⟨S100000x16, .f32⟩ : BufTy).Contents (Elt Ideal)) (x1 : (⟨S2x5000000, .i32⟩ : BufTy).Contents (Elt Ideal))
  (x2 : (⟨S5000000x16, .f32⟩ : BufTy).Contents (Elt Ideal)) (x3 : (⟨S16x16, .f32⟩ : BufTy).Contents (Elt Ideal))
  (x4 : (⟨S16, .f32⟩ : BufTy).Contents (Elt Ideal)) (x5 : (⟨S16x16, .f32⟩ : BufTy).Contents (Elt Ideal))
  (x6 : (⟨S16, .f32⟩ : BufTy).Contents (Elt Ideal)) (x7 : (⟨S16x16, .f32⟩ : BufTy).Contents (Elt Ideal))
  (x8 x9 x10 : (⟨S16, .f32⟩ : BufTy).Contents (Elt Ideal))

/-- The first gather is the gather of the node features at row 0 of the node indices, wrapped round. -/
theorem gather0_eq : val_main_v8 (F := Ideal) x0 x1 = gathered x0 (idxRow0 x1) := rfl

/-- The second gather likewise at row 1. -/
theorem gather1_eq : val_main_v17 (F := Ideal) x0 x1 = gathered x0 (idxRow1 x1) := rfl

/-- The first bias spread along every row: at an entry it is the bias at the column. -/
theorem bias1_at (i : Fin 5000000) (j : Fin 16) :
    val_main_v21 (F := Ideal) x4 (ix2 i j) = x4 (ix1 j) := by
  rw [val_main_v21_apply, val_main_v20_apply]
  exact congrArg _ (funext fun a => Fin.ext (by match a with | ⟨0, _⟩ => rfl))

/-- The second bias likewise. -/
theorem bias2_at (i : Fin 5000000) (j : Fin 16) :
    val_main_v26 (F := Ideal) x6 (ix2 i j) = x6 (ix1 j) := by
  rw [val_main_v26_apply, val_main_v25_apply]
  exact congrArg _ (funext fun a => Fin.ext (by match a with | ⟨0, _⟩ => rfl))

/-- The third bias likewise. -/
theorem bias3_at (i : Fin 5000000) (j : Fin 16) :
    val_main_v32 (F := Ideal) x8 (ix2 i j) = x8 (ix1 j) := by
  rw [val_main_v32_apply, val_main_v31_apply]
  exact congrArg _ (funext fun a => Fin.ext (by match a with | ⟨0, _⟩ => rfl))

/-- The scale spread along every row. -/
theorem scale_at (i : Fin 5000000) (j : Fin 16) :
    val_main_v55 (F := Ideal) x9 (ix2 i j) = x9 (ix1 j) := by
  rw [val_main_v55_apply, val_main_v54_apply]
  exact congrArg _ (funext fun a => Fin.ext (by match a with | ⟨0, _⟩ => rfl))

/-- The shift spread along every row. -/
theorem shift_at (i : Fin 5000000) (j : Fin 16) :
    val_main_v58 (F := Ideal) x10 (ix2 i j) = x10 (ix1 j) := by
  rw [val_main_v58_apply, val_main_v57_apply]
  exact congrArg _ (funext fun a => Fin.ext (by match a with | ⟨0, _⟩ => rfl))

/-- The edge attributes times the transposed first weight: the transposed weight read at (k, j) is the weight at (j, k). -/
theorem dot1_at (i : Fin 5000000) (j : Fin 16) :
    val_main_v19 (F := Ideal) x2 x3 (ix2 i j) = ∑ k : Fin 16, x2 (ix2 i k) * x3 (ix2 j k) := by
  rw [val_main_v19_apply]
  refine Finset.sum_congr rfl fun k _ => ?_
  rw [val_main_v18_apply]
  exact congrArg₂ (· * ·) (congrArg x2 (funext fun a => Fin.ext (by match a with | ⟨0, _⟩ => rfl | ⟨1, _⟩ => rfl))) (congrArg x3 (funext fun a => Fin.ext (by match a with | ⟨0, _⟩ => rfl | ⟨1, _⟩ => rfl)))

/-- The source end point's features times the transposed second weight. -/
theorem dot2_at (i : Fin 5000000) (j : Fin 16) :
    val_main_v24 (F := Ideal) x0 x1 x5 (ix2 i j) = ∑ k : Fin 16, gathered x0 (idxRow0 x1) (ix2 i k) * x5 (ix2 j k) := by
  rw [val_main_v24_apply, gather0_eq]
  refine Finset.sum_congr rfl fun k _ => ?_
  rw [val_main_v23_apply]
  exact congrArg₂ (· * ·) (congrArg (gathered x0 (idxRow0 x1)) (funext fun a => Fin.ext (by match a with | ⟨0, _⟩ => rfl | ⟨1, _⟩ => rfl))) (congrArg x5 (funext fun a => Fin.ext (by match a with | ⟨0, _⟩ => rfl | ⟨1, _⟩ => rfl)))

/-- The target end point's features times the transposed third weight. -/
theorem dot3_at (i : Fin 5000000) (j : Fin 16) :
    val_main_v30 (F := Ideal) x0 x1 x7 (ix2 i j) = ∑ k : Fin 16, gathered x0 (idxRow1 x1) (ix2 i k) * x7 (ix2 j k) := by
  rw [val_main_v30_apply, gather1_eq]
  refine Finset.sum_congr rfl fun k _ => ?_
  rw [val_main_v29_apply]
  exact congrArg₂ (· * ·) (congrArg (gathered x0 (idxRow1 x1)) (funext fun a => Fin.ext (by match a with | ⟨0, _⟩ => rfl | ⟨1, _⟩ => rfl))) (congrArg x7 (funext fun a => Fin.ext (by match a with | ⟨0, _⟩ => rfl | ⟨1, _⟩ => rfl)))

local notation "E" => (EdgeNormSpec.linR (cur2 (x2 : S5000000x16.Idx → EReal)) (cur2 (gathered x0 (idxRow0 x1))) (cur2 (gathered x0 (idxRow1 x1))) (cur2 (x3 : S16x16.Idx → EReal)) (cur2 (x5 : S16x16.Idx → EReal)) (cur2 (x7 : S16x16.Idx → EReal)) (cur1 (x4 : S16.Idx → EReal)) (cur1 (x6 : S16.Idx → EReal)) (cur1 (x8 : S16.Idx → EReal)))

/-- The row of an edge: each product sum joined with its bias, then the three joined. -/
theorem lin_at (i : Fin 5000000) (j : Fin 16) :
    (val_main_v34 (F := Ideal) x0 x1 x2 x3 x4 x5 x6 x7 x8 : S5000000x16.Idx → EReal) (ix2 i j) = E i j := by
  rw [val_main_v34_apply, val_main_v28_apply, val_main_v33_apply, val_main_v22_apply, val_main_v27_apply,
    dot1_at, dot2_at, dot3_at, bias1_at, bias2_at, bias3_at]
  rfl

/-- A column's mean: the sum over all edges, started from a zero, over the number of edges. -/
theorem mean_at (j : Fin 16) :
    (val_main_v37 (F := Ideal) x0 x1 x2 x3 x4 x5 x6 x7 x8 : S16.Idx → EReal) (ix1 j) = EdgeNormSpec.meanOf E j := by
  rw [val_main_v37_apply, val_main_v35_apply, val_main_v36_apply, val_main_cst_3_apply, val_main_cst_apply]
  simp only [Ideal.hostDivf_def, Ideal.ofBits_def, Ideal.ofBits_zero_f32, zero_add]
  unfold EdgeNormSpec.meanOf EdgeNormSpec.sum1 EdgeNormSpec.cnt
  have h : ∀ k : Fin 5000000, (val_main_v34 (F := Ideal) x0 x1 x2 x3 x4 x5 x6 x7 x8 : S5000000x16.Idx → EReal) (idx_main_v35 (ix1 j) k) = E k j :=
    fun k => by
      rw [show idx_main_v35 (ix1 j) k = ix2 k j from (funext fun a => Fin.ext (by match a with | ⟨0, _⟩ => rfl | ⟨1, _⟩ => rfl))]
      exact lin_at x0 x1 x2 x3 x4 x5 x6 x7 x8 k j
  rw [Finset.sum_congr rfl fun k _ => h k]

/-- The means spread along every row, as the variance's stage reads them. -/
theorem meanSpread_at (i : Fin 5000000) (j : Fin 16) :
    val_main_v39 (F := Ideal) x0 x1 x2 x3 x4 x5 x6 x7 x8 (ix2 i j) = val_main_v37 (F := Ideal) x0 x1 x2 x3 x4 x5 x6 x7 x8 (ix1 j) := by
  rw [val_main_v39_apply, val_main_v38_apply]
  exact congrArg _ (funext fun a => Fin.ext (by match a with | ⟨0, _⟩ => rfl))

/-- The means spread along every row a second time, as the result's stage reads them. -/
theorem meanSpread'_at (i : Fin 5000000) (j : Fin 16) :
    val_main_v46 (F := Ideal) x0 x1 x2 x3 x4 x5 x6 x7 x8 (ix2 i j) = val_main_v37 (F := Ideal) x0 x1 x2 x3 x4 x5 x6 x7 x8 (ix1 j) := by
  rw [val_main_v46_apply, val_main_v45_apply]
  exact congrArg _ (funext fun a => Fin.ext (by match a with | ⟨0, _⟩ => rfl))

/-- The reciprocal square roots spread along every row. -/
theorem scaleSpread_at (i : Fin 5000000) (j : Fin 16) :
    val_main_v52 (F := Ideal) x0 x1 x2 x3 x4 x5 x6 x7 x8 (ix2 i j) = val_main_v50 (F := Ideal) x0 x1 x2 x3 x4 x5 x6 x7 x8 (ix1 j) := by
  rw [val_main_v52_apply, val_main_v51_apply]
  exact congrArg _ (funext fun a => Fin.ext (by match a with | ⟨0, _⟩ => rfl))

/-- An entry's squared distance from its column's mean. -/
theorem sqDev_at (i : Fin 5000000) (j : Fin 16) :
    (val_main_v41 (F := Ideal) x0 x1 x2 x3 x4 x5 x6 x7 x8 : S5000000x16.Idx → EReal) (ix2 i j)
      = (E i j - EdgeNormSpec.meanOf E j) * (E i j - EdgeNormSpec.meanOf E j) := by
  rw [val_main_v41_apply, val_main_v40_apply, meanSpread_at, lin_at, mean_at]
  rfl

/-- A column's variance: the squared distances from the mean summed over all edges, started from a zero, over the
    number of edges. -/
theorem var_at (j : Fin 16) :
    (val_main_v44 (F := Ideal) x0 x1 x2 x3 x4 x5 x6 x7 x8 : S16.Idx → EReal) (ix1 j) = EdgeNormSpec.varR E j := by
  rw [val_main_v44_apply, val_main_v42_apply, val_main_v43_apply, val_main_cst_5_apply, val_main_cst_4_apply]
  simp only [Ideal.hostDivf_def, Ideal.ofBits_def, Ideal.ofBits_zero_f32, zero_add]
  unfold EdgeNormSpec.varR EdgeNormSpec.cnt
  have h : ∀ k : Fin 5000000, (val_main_v41 (F := Ideal) x0 x1 x2 x3 x4 x5 x6 x7 x8 : S5000000x16.Idx → EReal) (idx_main_v42 (ix1 j) k)
      = (E k j - EdgeNormSpec.meanOf E j) * (E k j - EdgeNormSpec.meanOf E j) :=
    fun k => by
      rw [show idx_main_v42 (ix1 j) k = ix2 k j from (funext fun a => Fin.ext (by match a with | ⟨0, _⟩ => rfl | ⟨1, _⟩ => rfl))]
      exact sqDev_at x0 x1 x2 x3 x4 x5 x6 x7 x8 k j
  rw [Finset.sum_congr rfl fun k _ => h k]

/-- The result at an entry: the edge attribute plus the normalised row entry, scaled, shifted and cut off below at the
    relu's zero. -/
theorem out_at (i : Fin 5000000) (j : Fin 16) :
    (val_main_v61 (F := Ideal) x0 x1 x2 x3 x4 x5 x6 x7 x8 x9 x10 : S5000000x16.Idx → EReal) (ix2 i j)
      = EdgeNormSpec.outR (cur2 (x2 : S5000000x16.Idx → EReal)) (cur2 (gathered x0 (idxRow0 x1))) (cur2 (gathered x0 (idxRow1 x1)))
          (cur2 (x3 : S16x16.Idx → EReal)) (cur2 (x5 : S16x16.Idx → EReal)) (cur2 (x7 : S16x16.Idx → EReal))
          (cur1 (x4 : S16.Idx → EReal)) (cur1 (x6 : S16.Idx → EReal)) (cur1 (x8 : S16.Idx → EReal))
          (cur1 (x9 : S16.Idx → EReal)) (cur1 (x10 : S16.Idx → EReal)) i j := by
  rw [val_main_v61_apply, val_main_v60_apply, val_main_v59_apply, val_main_v56_apply, val_main_v53_apply, val_main_v47_apply,
    meanSpread'_at, scaleSpread_at, val_main_v50_apply, val_main_v49_apply, val_main_v48_apply, val_main_cst_6_apply,
    scale_at, shift_at, val_main_call0_v0_apply, val_main_call0_cst_apply, lin_at, mean_at, var_at]
  simp only [Ideal.ofBits_def, Ideal.ofBits_zero_f32]
  rfl

end Stages

/-- The reference's result at an entry is the normalised expression over the argument arrays, the rows added pairwise
    and the variance taken as the mean squared distance from the mean. -/
theorem ref_value (m : (ℓ : Loc nD τ sig) → Buf (Elt Ideal) ℓ) (c : Dev nD) (i : Fin 5000000) (j : Fin 16) :
    (Cert.ReferenceIdeal.Value.res_main_v61 (F := Ideal) m c : S5000000x16.Idx → EReal) (ix2 i j)
      = EdgeNormSpec.outR
          (cur2 (m ((c.tc : Thread nD τ).loc main_arg2) : S5000000x16.Idx → EReal))
          (cur2 (gathered (m ((c.tc : Thread nD τ).loc main_arg0)) (idxRow0 (m ((c.tc : Thread nD τ).loc main_arg1)))))
          (cur2 (gathered (m ((c.tc : Thread nD τ).loc main_arg0)) (idxRow1 (m ((c.tc : Thread nD τ).loc main_arg1)))))
          (cur2 (m ((c.tc : Thread nD τ).loc main_arg3) : S16x16.Idx → EReal))
          (cur2 (m ((c.tc : Thread nD τ).loc main_arg5) : S16x16.Idx → EReal))
          (cur2 (m ((c.tc : Thread nD τ).loc main_arg7) : S16x16.Idx → EReal))
          (cur1 (m ((c.tc : Thread nD τ).loc main_arg4) : S16.Idx → EReal))
          (cur1 (m ((c.tc : Thread nD τ).loc main_arg6) : S16.Idx → EReal))
          (cur1 (m ((c.tc : Thread nD τ).loc main_arg8) : S16.Idx → EReal))
          (cur1 (m ((c.tc : Thread nD τ).loc main_arg9) : S16.Idx → EReal))
          (cur1 (m ((c.tc : Thread nD τ).loc main_arg10) : S16.Idx → EReal)) i j := by
  rw [val_main_v61_eq]
  exact out_at _ _ _ _ _ _ _ _ _ _ _ i j

end Cert.ReferenceIdeal.RefValue

end
-- ==== Proof.lean ====
/-
  Edge features through three small linear layers, normalised over all edges, rectified and added back: the Pallas
  program against its jnp reference, over the extended reals.

  Both programs form, for each of 5,000,000 edges, the row `e` of sixteen numbers from the edge's attributes and the
  node features of its two end points, normalise every column of `e` by its mean and variance over all edges, and return
  `attributes + max (normalised · scale + shift) 0`. The Pallas program does it in two passes over blocks of 50,000
  edges — the first accumulates each column's sum and sum of squares, the second recomputes `e` and normalises — and takes
  the variance as the mean of the squares less the squared mean; the reference takes it as the mean squared distance from
  the mean. For real inputs these are one number (Proof/EdgeNormSpec.lean), and the two orders in which the programs add
  the six terms of `e` agree on the extended reals.

  The precondition says that every float input is finite and that every node index lies in `[0, 100000)`. Outside that
  range the two programs differ: the Pallas program's gather fills an out-of-range row with a fixed pattern while the
  reference's clamps the index; inside it both are the plain gather at the same indices.
-/
import proofs.«408767_j31671088841192_1_alg».proof.Defs
import proofs.«408767_j31671088841192_1_alg».proof.Proof.Gen.Kernel
import proofs.«408767_j31671088841192_1_alg».proof.Proof.Gen.Kernel.Skeleton
import proofs.«408767_j31671088841192_1_alg».proof.Proof.Gen.Kernel.Launch
import proofs.«408767_j31671088841192_1_alg».proof.Proof.Gen.Kernel.Points
import proofs.«408767_j31671088841192_1_alg».proof.Proof.Gen.Kernel.Frame
import proofs.«408767_j31671088841192_1_alg».proof.Proof.Gen.KernelIdeal
import proofs.«408767_j31671088841192_1_alg».proof.Proof.Gen.KernelIdeal.Skeleton
import proofs.«408767_j31671088841192_1_alg».proof.Proof.Gen.KernelIdeal.Launch
import proofs.«408767_j31671088841192_1_alg».proof.Proof.Gen.KernelIdeal.Points
import proofs.«408767_j31671088841192_1_alg».proof.Proof.Gen.KernelIdeal.Frame
import proofs.«408767_j31671088841192_1_alg».proof.Proof.Gen.ReferenceIdeal
import proofs.«408767_j31671088841192_1_alg».proof.Proof.Gen.ReferenceIdeal.Run
import proofs.«408767_j31671088841192_1_alg».proof.Proof.Gen.ReferenceIdeal.Read
import proofs.«408767_j31671088841192_1_alg».proof.Proof.Gen.Pre_finite_inputs
import proofs.«408767_j31671088841192_1_alg».proof.Proof.EdgeNormSpec
import proofs.«408767_j31671088841192_1_alg».proof.Proof.Curry
import proofs.«408767_j31671088841192_1_alg».proof.Proof.Precond
import proofs.«408767_j31671088841192_1_alg».proof.Proof.Take
import proofs.«408767_j31671088841192_1_alg».proof.Proof.KernelRun
import proofs.«408767_j31671088841192_1_alg».proof.Proof.KernelValue
import proofs.«408767_j31671088841192_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Proof.Curry

/-- The word-level program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The reference's wrapped indices and gather are the kernel program's: the same operations of the same arrays. -/
theorem gathered_eq (x : FVec Ideal Cert.KernelIdeal.S100000x16 .f32) (e : IVec Cert.KernelIdeal.S2x5000000 32) :
    Cert.ReferenceIdeal.RefValue.gathered x (Cert.ReferenceIdeal.RefValue.idxRow0 e)
        = Cert.KernelIdeal.Take.gathered x (Cert.KernelIdeal.Take.idxRow0 e)
    ∧ Cert.ReferenceIdeal.RefValue.gathered x (Cert.ReferenceIdeal.RefValue.idxRow1 e)
        = Cert.KernelIdeal.Take.gathered x (Cert.KernelIdeal.Take.idxRow1 e) :=
  ⟨rfl, rfl⟩

/-- At the ideal instance both programs end with the same result array: the kernel program's is the normalised
    expression with the variance as mean of squares less squared mean, the reference's the same with the variance as mean
    squared distance; the precondition makes every entry real and every index in range, and then the two agree. -/
theorem algebraic : Cert.algebraic_KernelIdeal_ReferenceIdeal := by
  intro m ρ m' ρ' hpre hagree
  refine ⟨fun c => Cert.KernelIdeal.Gen.W8 m ρ c (Proc.devRef .tc Cert.KernelIdeal.main_v18),
    Cert.KernelIdeal.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, h4, h5, h6, h7, h8, h9, h10, hidx⟩ := Cert.Proof.Precond.decode _ _ _ _ _ _ _ _ _ _ _ (hpre c)
  obtain ⟨a0, a1, a2, a3, a4, a5, a6, a7, a8, a9, a10⟩ := hagree c
  have key : ∀ (p : Fin 5000000) (q : Fin 16),
      (Cert.ReferenceIdeal.Value.res_main_v61 (F := Ideal) m' c : Cert.ReferenceIdeal.S5000000x16.Idx → EReal) (ix2 p q)
        = (Cert.KernelIdeal.Gen.W8 m ρ c (Proc.devRef .tc Cert.KernelIdeal.main_v18) : Cert.KernelIdeal.S5000000x16.Idx → EReal) (ix2 p q) := by
    intro p q
    refine (Cert.ReferenceIdeal.RefValue.ref_value m' c p q).trans ?_
    refine Eq.trans ?_ (Cert.KernelIdeal.KValue.value m ρ c hidx p q).symm
    rw [a0, a1, a2, a3, a4, a5, a6, a7, a8, a9, a10, (gathered_eq _ _).1, (gathered_eq _ _).2]
    exact (congrFun (congrFun (Cert.Proof.EdgeNormSpec.outK_eq_outR _ _ _ _ _ _ _ _ _ _ _
      (fun i k => h2 _) (fun i k => Cert.KernelIdeal.Take.gathered_real _ _ h0 _)
      (fun i k => Cert.KernelIdeal.Take.gathered_real _ _ h0 _) (fun a b => h3 _) (fun a b => h5 _) (fun a b => h7 _)
      (fun a => h4 _) (fun a => h6 _) (fun a => h8 _)) p) q).symm
  show (Cert.ReferenceIdeal.Value.res_main_v61 (F := Ideal) m' c : Cert.ReferenceIdeal.S5000000x16.Idx → EReal)
    = (Cert.KernelIdeal.Gen.W8 m ρ c (Proc.devRef .tc Cert.KernelIdeal.main_v18) : Cert.KernelIdeal.S5000000x16.Idx → EReal)
  funext idx
  obtain ⟨p, q, rfl⟩ : ∃ (p : Fin 5000000) (q : Fin 16), idx = ix2 p q := ⟨idx 0, idx 1, eq_ix2 idx⟩
  exact key p q

/-- The certificate's claim. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
